-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v29 : IVec S_ 1) (main_v33 : IVec S800000 1) (main_c_11 : IVec S_ 1) : IVec S_ 1 :=
  let main_v34 : IVec S_ 1 := (fun x v => Host.reduce IntOp.andi x v reducesTo_S800000_S_d0 h_S_) main_v33 main_c_11
  let main_v35 : IVec S_ 1 := andi main_v29 main_v34
  main_v35

def fn_part1 {F : FTy → Type} [FloatOps F] (main_arg1 : IVec S2x800000 32) (main_arg6 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 4294917296#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  let main_v30 : IVec S1x800000 32 := (extractStridedSlice S1x800000 ![0, 0] · slices_S2x800000_S1x800000_0_0) main_arg1
  let main_v31 : IVec S800000 32 := shapeCast S800000 main_v30 shapeCasts_S1x800000_S800000
  let main_c_10 : IVec S_ 32 := constantI S_ 32 50000#32
  let main_v32 : IVec S800000 32 := broadcastInDim S800000 ![] bcast_S_S800000 main_c_10
  let main_v33 : IVec S800000 1 := cmpi .slt main_v31 main_v32
  let main_c_11 : IVec S_ 1 := constantI S_ 1 1#1
  fn_part2 (F := F) main_v29 main_v33 main_c_11

def fn {F : FTy → Type} [FloatOps F] (main_arg0 : FVec F S50000x256 .f32) (main_arg1 : IVec S2x800000 32) (main_arg2 : IVec S50000 32) (main_arg3 : FVec F S3x256x256 .f32) (main_arg4 : FVec F S3x256 .f32) (main_arg5 : FVec F S3x256x256 .f32) (main_arg6 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg3
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg1 main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S50000x768 : Shape := ⟨2, ![50000, 768]⟩
abbrev S50000x1 : Shape := ⟨2, ![50000, 1]⟩
abbrev S512x768 : Shape := ⟨2, ![512, 768]⟩
abbrev S2000x768 : Shape := ⟨2, ![2000, 768]⟩
abbrev S2000x1 : Shape := ⟨2, ![2000, 1]⟩
abbrev S2000x512 : Shape := ⟨2, ![2000, 512]⟩
abbrev S512x1 : Shape := ⟨2, ![512, 1]⟩

abbrev nBuf : Space → Nat
  | .hbm => 143
  | .vmem => 30
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256x256, .f32⟩
  | 6 => ⟨S3x256, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S1, .i32⟩
  | 20 => ⟨S_, .i32⟩
  | 21 => ⟨S800000x1, .i32⟩
  | 22 => ⟨S800000x1, .i1⟩
  | 23 => ⟨S1x1, .i32⟩
  | 24 => ⟨S800000x1, .i32⟩
  | 25 => ⟨S800000x1, .i1⟩
  | 26 => ⟨S800000x1, .i1⟩
  | 27 => ⟨S_, .i1⟩
  | 28 => ⟨S800000, .i1⟩
  | 29 => ⟨S800000x256, .f32⟩
  | 30 => ⟨S800000x256, .i1⟩
  | 31 => ⟨S_, .f32⟩
  | 32 => ⟨S800000x256, .f32⟩
  | 33 => ⟨S800000x256, .f32⟩
  | 34 => ⟨S_, .f32⟩
  | 35 => ⟨S50000x256, .f32⟩
  | 36 => ⟨S800000x1, .i32⟩
  | 37 => ⟨S50000x256, .f32⟩
  | 38 => ⟨S50000x256, .f32⟩
  | 39 => ⟨S1x256x256, .f32⟩
  | 40 => ⟨S256x256, .f32⟩
  | 41 => ⟨S1x256, .f32⟩
  | 42 => ⟨S256, .f32⟩
  | 43 => ⟨S1x256x256, .f32⟩
  | 44 => ⟨S256x256, .f32⟩
  | 45 => ⟨S1x256, .f32⟩
  | 46 => ⟨S256, .f32⟩
  | 47 => ⟨S1x256, .f32⟩
  | 48 => ⟨S1x256, .f32⟩
  | 49 => ⟨S50000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x256, .f32⟩
  | 69 => ⟨S800000x256, .i1⟩
  | 70 => ⟨S_, .f32⟩
  | 71 => ⟨S800000x256, .f32⟩
  | 72 => ⟨S800000x256, .f32⟩
  | 73 => ⟨S_, .f32⟩
  | 74 => ⟨S50000x256, .f32⟩
  | 75 => ⟨S800000x1, .i32⟩
  | 76 => ⟨S50000x256, .f32⟩
  | 77 => ⟨S50000x256, .f32⟩
  | 78 => ⟨S1x256x256, .f32⟩
  | 79 => ⟨S256x256, .f32⟩
  | 80 => ⟨S1x256, .f32⟩
  | 81 => ⟨S256, .f32⟩
  | 82 => ⟨S1x256x256, .f32⟩
  | 83 => ⟨S256x256, .f32⟩
  | 84 => ⟨S1x256, .f32⟩
  | 85 => ⟨S256, .f32⟩
  | 86 => ⟨S1x256, .f32⟩
  | 87 => ⟨S1x256, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S1, .i32⟩
  | 98 => ⟨S_, .i32⟩
  | 99 => ⟨S800000x1, .i32⟩
  | 100 => ⟨S800000x1, .i1⟩
  | 101 => ⟨S1x1, .i32⟩
  | 102 => ⟨S800000x1, .i32⟩
  | 103 => ⟨S800000x1, .i1⟩
  | 104 => ⟨S800000x1, .i1⟩
  | 105 => ⟨S_, .i1⟩
  | 106 => ⟨S800000, .i1⟩
  | 107 => ⟨S800000x256, .f32⟩
  | 108 => ⟨S800000x256, .i1⟩
  | 109 => ⟨S_, .f32⟩
  | 110 => ⟨S800000x256, .f32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S50000x256, .f32⟩
  | 117 => ⟨S1x256x256, .f32⟩
  | 118 => ⟨S256x256, .f32⟩
  | 119 => ⟨S1x256, .f32⟩
  | 120 => ⟨S256, .f32⟩
  | 121 => ⟨S1x256x256, .f32⟩
  | 122 => ⟨S256x256, .f32⟩
  | 123 => ⟨S1x256, .f32⟩
  | 124 => ⟨S256, .f32⟩
  | 125 => ⟨S1x256, .f32⟩
  | 126 => ⟨S1x256, .f32⟩
  | 127 => ⟨S50000x256, .f32⟩
  | _ => ⟨S50000x256, .f32⟩

abbrev hbmTy0_1 (i : Nat) : BufTy := match i % 128 with
  | 0 => ⟨S50000x768, .f32⟩
  | 1 => ⟨S50000x1, .i32⟩
  | 2 => ⟨S512x768, .f32⟩
  | 3 => ⟨S_, .f32⟩
  | 4 => ⟨S50000x1, .f32⟩
  | 5 => ⟨S_, .f32⟩
  | 6 => ⟨S512x1, .f32⟩
  | 7 => ⟨S50000x1, .i32⟩
  | 8 => ⟨S512x1, .f32⟩
  | 9 => ⟨S_, .f32⟩
  | 10 => ⟨S_, .f32⟩
  | 11 => ⟨S512x1, .f32⟩
  | 12 => ⟨S512x1, .f32⟩
  | 13 => ⟨S512x768, .f32⟩
  | 14 => ⟨S512x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x768, .f32⟩
  | .local _ .vmem, ⟨25, _⟩ => ⟨S2000x768, .f32⟩
  | .local _ .vmem, ⟨26, _⟩ => ⟨S2000x1, .i32⟩
  | .local _ .vmem, ⟨27, _⟩ => ⟨S2000x1, .i32⟩
  | .local _ .vmem, ⟨28, _⟩ => ⟨S512x768, .f32⟩
  | .local _ .vmem, ⟨29, _⟩ => ⟨S512x768, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_cst_0 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v36 : Ref sig .tc := ⟨.hbm, 111, rfl⟩
abbrev main_cst_1 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_2 : Ref sig .tc := ⟨.hbm, 131, rfl⟩
abbrev main_v55 : Ref sig .tc := ⟨.hbm, 132, rfl⟩
abbrev main_cst_3 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_4 : Ref sig .tc := ⟨.hbm, 137, rfl⟩
abbrev main_call3_v0 : Ref sig .tc := ⟨.hbm, 138, rfl⟩
abbrev main_call3_v1 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x256_S50000x768_d1 : Shape.Concatenates [S50000x256, S50000x256, S50000x256] S50000x768 1
  shapeCasts_S50000_S50000x1 : S50000.ShapeCasts S50000x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S512x1_S512x768_0_1 : S512x1.BroadcastsInDim S512x768 (![0, 1] : Fin 2 → Fin S512x768.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x512_S2000x768_S512x768_0_0_1_1_n_n_wf : DotDims.WF S2000x512 S2000x768 S512x768 [0] [0] [1] [1] [] []
  scatter_S512x1_S50000x1_S50000x1_1_0_0_1_wf : ScatterDims.WF S512x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x768.size a ≤ S50000x768.size a
  hwx3_0 : ∀ i : grid3.Coords, EltTy.bits .f32 = 32 ∨ (Rect.block (s := S50000x768) S2000x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x768.size a ≤ S512x768.size a
  hwx3_2 : ∀ i : grid3.Coords, EltTy.bits .f32 = 32 ∨ (Rect.block (s := S512x768) S512x768.size (cc3_transform_2 i) (hinb3_2 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x512_S2000x768_S512x768_0_0_1_1_n_n : DotDims S2000x512 S2000x768 S512x768 where
  lhsContracting := [0]
  rhsContracting := [0]
  lhsNonContracting := [1]
  rhsNonContracting := [1]
  lhsBatch := []
  rhsBatch := []
  wf := dot_S2000x512_S2000x768_S512x768_0_0_1_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf

abbrev win0_0 : Pipeline.Window sig grid0 :=
  Pipeline.Window.ofSpec (Memref.whole main_v8) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S2000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S512x768.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x1 : Shape := ⟨2, ![50000, 1]⟩
abbrev S512x1 : Shape := ⟨2, ![512, 1]⟩
abbrev S512x256 : Shape := ⟨2, ![512, 256]⟩
abbrev S512x768 : Shape := ⟨2, ![512, 768]⟩
abbrev S50000x768 : Shape := ⟨2, ![50000, 768]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256x256, .f32⟩
  | 6 => ⟨S3x256, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x256, .f32⟩
  | 20 => ⟨S_, .f32⟩
  | 21 => ⟨S50000x256, .f32⟩
  | 22 => ⟨S800000x1, .i32⟩
  | 23 => ⟨S50000x256, .f32⟩
  | 24 => ⟨S50000x256, .f32⟩
  | 25 => ⟨S1x256x256, .f32⟩
  | 26 => ⟨S256x256, .f32⟩
  | 27 => ⟨S50000x256, .f32⟩
  | 28 => ⟨S1x256, .f32⟩
  | 29 => ⟨S256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S1x256x256, .f32⟩
  | 37 => ⟨S256x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S_, .f32⟩
  | 57 => ⟨S50000x256, .f32⟩
  | 58 => ⟨S800000x1, .i32⟩
  | 59 => ⟨S50000x256, .f32⟩
  | 60 => ⟨S50000x256, .f32⟩
  | 61 => ⟨S1x256x256, .f32⟩
  | 62 => ⟨S256x256, .f32⟩
  | 63 => ⟨S50000x256, .f32⟩
  | 64 => ⟨S1x256, .f32⟩
  | 65 => ⟨S256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S1x256x256, .f32⟩
  | 73 => ⟨S256x256, .f32⟩
  | 74 => ⟨S50000x256, .f32⟩
  | 75 => ⟨S1x256, .f32⟩
  | 76 => ⟨S256, .f32⟩
  | 77 => ⟨S1x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x256, .f32⟩
  | 97 => ⟨S1x256x256, .f32⟩
  | 98 => ⟨S256x256, .f32⟩
  | 99 => ⟨S50000x256, .f32⟩
  | 100 => ⟨S1x256, .f32⟩
  | 101 => ⟨S256, .f32⟩
  | 102 => ⟨S1x256, .f32⟩
  | 103 => ⟨S50000x256, .f32⟩
  | 104 => ⟨S50000x256, .f32⟩
  | 105 => ⟨S_, .f32⟩
  | 106 => ⟨S50000x256, .f32⟩
  | 107 => ⟨S50000x256, .f32⟩
  | 108 => ⟨S1x256x256, .f32⟩
  | 109 => ⟨S256x256, .f32⟩
  | 110 => ⟨S50000x256, .f32⟩
  | 111 => ⟨S1x256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S_, .f32⟩
  | 120 => ⟨S50000x1, .f32⟩
  | 121 => ⟨S_, .f32⟩
  | 122 => ⟨S512x1, .f32⟩
  | 123 => ⟨S50000x1, .i32⟩
  | 124 => ⟨S512x1, .f32⟩
  | 125 => ⟨S_, .f32⟩
  | 126 => ⟨S_, .f32⟩
  | 127 => ⟨S512x1, .f32⟩
  | _ => ⟨S50000x256, .f32⟩

abbrev hbmTy0_1 (i : Nat) : BufTy := match i % 128 with
  | 0 => ⟨S512x1, .f32⟩
  | 1 => ⟨S_, .f32⟩
  | 2 => ⟨S512x256, .f32⟩
  | 3 => ⟨S50000x1, .i32⟩
  | 4 => ⟨S512x256, .f32⟩
  | 5 => ⟨S512x256, .f32⟩
  | 6 => ⟨S512x256, .f32⟩
  | 7 => ⟨S_, .f32⟩
  | 8 => ⟨S512x256, .f32⟩
  | 9 => ⟨S50000x1, .i32⟩
  | 10 => ⟨S512x256, .f32⟩
  | 11 => ⟨S512x256, .f32⟩
  | 12 => ⟨S512x256, .f32⟩
  | 13 => ⟨S_, .f32⟩
  | 14 => ⟨S512x256, .f32⟩
  | 15 => ⟨S50000x1, .i32⟩
  | 16 => ⟨S512x256, .f32⟩
  | 17 => ⟨S512x256, .f32⟩
  | 18 => ⟨S512x256, .f32⟩
  | 19 => ⟨S512x768, .f32⟩
  | 20 => ⟨S50000x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_c_8 : Ref sig .tc := ⟨.hbm, 83, rfl⟩
abbrev main_v66 : Ref sig .tc := ⟨.hbm, 84, rfl⟩
abbrev main_v67 : Ref sig .tc := ⟨.hbm, 85, rfl⟩
abbrev main_c_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_15 : Ref sig .tc := ⟨.hbm, 125, rfl⟩
abbrev main_call0_v0 : Ref sig .tc := ⟨.hbm, 126, rfl⟩
abbrev main_call0_v1 : Ref sig .tc := ⟨.hbm, 127, rfl⟩
abbrev main_v101 : Ref sig .tc := ⟨.hbm, 128, rfl⟩
abbrev main_cst_16 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_17 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_18 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512x1_S512x256_0_1 : S512x1.BroadcastsInDim S512x256 (![0, 1] : Fin 2 → Fin S512x256.rank)
  concatenates_S512x256_S512x256_S512x256_S512x768_d1 : Shape.Concatenates [S512x256, S512x256, S512x256] S512x768 1
  concatenates_S50000x256_S50000x256_S50000x256_S50000x768_d1 : Shape.Concatenates [S50000x256, S50000x256, S50000x256] S50000x768 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x1_S50000x1_S50000x1_1_0_0_1_wf : ScatterDims.WF S512x1 S50000x1 S50000x1 [1] [0] [0] 1
  scatter_S512x256_S50000x1_S50000x256_1_0_0_1_wf : ScatterDims.WF S512x256 S50000x1 S50000x256 [1] [0] [0] 1

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf

class Facts : Prop extends Facts₀ where

variable [Facts]
-- ==== Proof.Mlp0.lean ====
import proofs.«428382_j73890617360784_1_alg».proof.Proof.Gen.KernelIdeal.Launch
import proofs.«428382_j73890617360784_1_alg».proof.Proof.Gen.KernelIdeal.Skeleton
import proofs.«428382_j73890617360784_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first fused two-layer perceptron, class-A half of its frame

The first kernel region of the network runs `cc0__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input (window 0): at every point its staging buffer holds the block the point addresses, for any
    proof data over the entry arrays whose body leaves that block in place. The window is whole (never cut at the
    array's edge) and never idle, so a point that copies nothing in has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix (window 1), copied in at the first point only: its block index is constant, so the
    buffer holds the same block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first bias row (window 2), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix (window 3), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second bias row (window 4), likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 2000 by 256 buffer (the row block, and the output block), -/
abbrev r0_0 : Rect S2000x256 := Rect.unit (s := S2000x256) ![0, 0] S2000x256.size inb_S2000x256_S2000x256_0_0
/-- of a 256 by 256 buffer (a weight matrix), -/
abbrev r0_1 : Rect S256x256 := Rect.unit (s := S256x256) ![0, 0] S256x256.size inb_S256x256_S256x256_0_0
/-- and of a 1 by 256 buffer (a bias row): every access of the body is to a whole buffer. -/
abbrev r0_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out0_5 (x0 : Vec F S2000x256 .f32) (x1 : Vec F S256x256 .f32) (x2 : Vec F S1x256 .f32) (x3 : Vec F S256x256 .f32) (x4 : Vec F S1x256 .f32) : Vec F S2000x256 .f32 :=
  View.canon [⟨r0_0, k0_pay1 (View.ld x0 r0_0) (View.ld x1 r0_1) (View.ld x2 r0_2) (View.ld x3 r0_1) (View.ld x4 r0_2)⟩]

/-- That one store covers the buffer: its rectangle starts at the origin and has the buffer's extents. -/
theorem cover0_5 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out0_5` of
    the inputs. The body loads each input whole, loads the output buffer once (the value is not used) and then
    overwrites it whole; the grid coordinate it is passed is not read. -/
theorem sound_kernel0 (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region's pipeline on core `c`: the arrays at their entry contents; after the body at point
    `t` each input buffer still at its block and the output buffer at `out0_5` of the five input blocks; the
    invariant is the untouched rest of the core (its other scoped buffers and the generator register); nothing is
    owed; every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs as found, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and the output at the perceptron of the five input blocks. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's staging buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies at those blocks; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.Mlp1.lean ====
import proofs.«428382_j73890617360784_1_alg».proof.Proof.Gen.KernelIdeal.Launch
import proofs.«428382_j73890617360784_1_alg».proof.Proof.Gen.KernelIdeal.Skeleton
import proofs.«428382_j73890617360784_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the second fused two-layer perceptron, class-A half of its frame

The second kernel region of the network runs `cc1__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input (window 0): at every point its staging buffer holds the block the point addresses, for any
    proof data over the entry arrays whose body leaves that block in place. The window is whole (never cut at the
    array's edge) and never idle, so a point that copies nothing in has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first weight matrix (window 1), copied in at the first point only: its block index is constant, so the
    buffer holds the same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first bias row (window 2), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second weight matrix (window 3), likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The second bias row (window 4), likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 2000 by 256 buffer (the row block, and the output block), -/
abbrev r1_0 : Rect S2000x256 := Rect.unit (s := S2000x256) ![0, 0] S2000x256.size inb_S2000x256_S2000x256_0_0
/-- of a 256 by 256 buffer (a weight matrix), -/
abbrev r1_1 : Rect S256x256 := Rect.unit (s := S256x256) ![0, 0] S256x256.size inb_S256x256_S256x256_0_0
/-- and of a 1 by 256 buffer (a bias row): every access of the body is to a whole buffer. -/
abbrev r1_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out1_5 (x0 : Vec F S2000x256 .f32) (x1 : Vec F S256x256 .f32) (x2 : Vec F S1x256 .f32) (x3 : Vec F S256x256 .f32) (x4 : Vec F S1x256 .f32) : Vec F S2000x256 .f32 :=
  View.canon [⟨r1_0, k1_pay1 (View.ld x0 r1_0) (View.ld x1 r1_1) (View.ld x2 r1_2) (View.ld x3 r1_1) (View.ld x4 r1_2)⟩]

/-- That one store covers the buffer: its rectangle starts at the origin and has the buffer's extents. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out1_5` of
    the inputs. The body loads each input whole, loads the output buffer once (the value is not used) and then
    overwrites it whole; the grid coordinate it is passed is not read. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays at their entry contents; after the body at point
    `t` each input buffer still at its block and the output buffer at `out1_5` of the five input blocks; the
    invariant is the untouched rest of the core (its other scoped buffers and the generator register); nothing is
    owed; every buffer is held in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window: the inputs as found, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and the output at the perceptron of the five input blocks. -/
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's staging buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies at those blocks; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.Mlp2.lean ====
import proofs.«428382_j73890617360784_1_alg».proof.Proof.Gen.KernelIdeal.Launch
import proofs.«428382_j73890617360784_1_alg».proof.Proof.Gen.KernelIdeal.Skeleton
import proofs.«428382_j73890617360784_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the third fused two-layer perceptron, class-A half of its frame

The third kernel region of the network runs `cc2__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input (window 0): at every point its staging buffer holds the block the point addresses, for any
    proof data over the entry arrays whose body leaves that block in place. The window is whole (never cut at the
    array's edge) and never idle, so a point that copies nothing in has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first weight matrix (window 1), copied in at the first point only: its block index is constant, so the
    buffer holds the same block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first bias row (window 2), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The second weight matrix (window 3), likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second bias row (window 4), likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a 2000 by 256 buffer (the row block, and the output block), -/
abbrev r2_0 : Rect S2000x256 := Rect.unit (s := S2000x256) ![0, 0] S2000x256.size inb_S2000x256_S2000x256_0_0
/-- of a 256 by 256 buffer (a weight matrix), -/
abbrev r2_1 : Rect S256x256 := Rect.unit (s := S256x256) ![0, 0] S256x256.size inb_S256x256_S256x256_0_0
/-- and of a 1 by 256 buffer (a bias row): every access of the body is to a whole buffer. -/
abbrev r2_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out2_5 (x0 : Vec F S2000x256 .f32) (x1 : Vec F S256x256 .f32) (x2 : Vec F S1x256 .f32) (x3 : Vec F S256x256 .f32) (x4 : Vec F S1x256 .f32) : Vec F S2000x256 .f32 :=
  View.canon [⟨r2_0, k2_pay1 (View.ld x0 r2_0) (View.ld x1 r2_1) (View.ld x2 r2_2) (View.ld x3 r2_1) (View.ld x4 r2_2)⟩]

/-- That one store covers the buffer: its rectangle starts at the origin and has the buffer's extents. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out2_5` of
    the inputs. The body loads each input whole, loads the output buffer once (the value is not used) and then
    overwrites it whole; the grid coordinate it is passed is not read. -/
theorem sound_kernel2 (c : Dev nD) (E : Set ℕ) (i : grid2.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core `c`: the arrays at their entry contents; after the body at point
    `t` each input buffer still at its block and the output buffer at `out2_5` of the five input blocks; the
    invariant is the untouched rest of the core (its other scoped buffers and the generator register); nothing is
    owed; every buffer is held in full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: the inputs as found, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- and the output at the perceptron of the five input blocks. -/
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's staging buffer holds its block at every point, copied in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies at those blocks; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.Pool.lean ====
import proofs.«428382_j73890617360784_1_alg».proof.Proof.Gen.KernelIdeal.Launch
import proofs.«428382_j73890617360784_1_alg».proof.Proof.Gen.KernelIdeal.Skeleton
import proofs.«428382_j73890617360784_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding membership in a 512x768 or 2000x768 rectangle recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: what its three cases share

The pooling kernel runs on a grid of 25 points. At every point it adds one block's contribution
(a one-hot matrix product of the graph-id column with the node rows) to an accumulator it keeps in
a scratch buffer; at the first point it zeroes the accumulator first, and at the last point it also
copies the accumulator into the output block. So a point is in one of three cases:

* case A, the first point: zero, then accumulate; the output block untouched;
* case B, a middle point: accumulate over what the point before left; the output block untouched;
* case C, the last point: accumulate over what the point before left, then store the output block.

Everything here is stated for an arbitrary assignment `V` of contents to the core's buffers at the
moment the region is entered. -/

variable (V : (c : Dev nD) → (b : Ref sig .tc) → Buf (Elt F) ((c : Thread nD τ).loc b))

/-! ## The windows' blocks -/

/-- The block of window `w` at grid point `t`, read out of the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The node-row window: at every point its current staging buffer holds that point's block of the
    array, for any proof data whose array is the entry contents and whose body leaves the block in
    place. The window is an input, never idle and never cut at the array's end. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The graph-id window (a column of 32-bit integers): the same statement. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- The first conditional's test, written out over the grid coordinate: "this is point 0". -/
abbrev cond3_0 (i : grid3.Coords) : Prop := (Scalar.cmpi .ne (Scalar.extui (Scalar.cmpi .eq (BitVec.ofNat 32 (i 0).val) 0#32)) 0#32) = 1#1
/-- It holds exactly at the first point. -/
theorem hcond3_0 : ∀ t : Fin cfg3.N, cond3_0 (grid3.coords t) ↔ t.val % 25 = 0 :=
  (by decide +kernel : ∀ t : Fin grid3.N, cond3_0 (grid3.coords t) ↔ t.val % 25 = 0)

/-- The second conditional's test: "this is point 24". -/
abbrev cond3_1 (i : grid3.Coords) : Prop := k3_cond2 i = 1#1
/-- It holds exactly at the last point. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- At the first point the output window is idle, and its block is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At a middle point likewise. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- At the last point the output window is live: the body stores into it. -/
theorem liveAt3_2_C : ∀ t : Fin cfg3.N, ¬cond3_0 (grid3.coords t) → cond3_1 (grid3.coords t) → cfg3.idle 2 (grid3.coords t) = false := by decide +kernel

/-! ## The memrefs the body is called with -/

/-- The output window's one staging buffer as a view: what the window holds is stated through it. -/
abbrev VO3_2 : View sig .tc .vmem S512x768 .f32 := (Memref.whole cc3_stg2_0 : Memref sig .tc .vmem S512x768 .f32).view
/-- Each window's current staging memref at point `t`, and that it is a whole buffer. -/
abbrev ms3_0 (t : Fin cfg3.N) : Memref sig .tc .vmem S2000x768 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x768 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S512x768 .f32 := Memref.whole cc3_scratch0
/-- The accumulator as a view: what it holds after a point is stated through it. -/
abbrev VS3_0 : View sig .tc .vmem S512x768 .f32 := scM3_0.view

/-- The region's entry invariant with the accumulator singled out: the accumulator owned at some
    contents, every other scoped buffer that is no staging buffer left unopened, and the generator
    register at some state. -/
theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

/-! ## The body's run, case by case

Each run is a pair of piece lists (what the body's stores leave in the output block and in the
accumulator, last store first) together with the proof that, started on whole memrefs holding the
stated contents, the body runs to a continuation that receives the inputs as they were and the
stored-into buffers with those pieces written. The piece lists are found by running the body. -/

set_option maxHeartbeats 1000000 in
/-- Case A (first point: the first conditional taken, the second not). The accumulator may hold
    anything on entry, since it is zeroed before it is read for the sum; the output block is handed
    back at the contents `xi2` it came with. -/
noncomputable def kernelRun3_A (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) :
    Σ' (L2 : List (View.Piece (Elt F) S512x768 .f32)), { LS0 : List (View.Piece (Elt F) S512x768 .f32) //
      ∀ (xi2 : Vec F S512x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- Case B (a middle point: neither conditional taken). The accumulator enters at the contents
    `xs0` the point before left; the output block is handed back at the contents it came with. -/
noncomputable def kernelRun3_B (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) :
    Σ' (L2 : List (View.Piece (Elt F) S512x768 .f32)), { LS0 : List (View.Piece (Elt F) S512x768 .f32) //
      ∀ (xi2 : Vec F S512x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- Case C (last point: the first conditional not taken, the second taken). The accumulator enters
    at the contents `xs0` the point before left; the output block may hold anything on entry, since
    the body overwrites all of it. -/
noncomputable def kernelRun3_C (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) :
    Σ' (L2 : List (View.Piece (Elt F) S512x768 .f32)), { LS0 : List (View.Piece (Elt F) S512x768 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the output block and in the accumulator -/

/-- Case A stores nothing into the output block: the empty piece list read back over junk. Nothing
    consults this value, since at the first point the block is neither written back nor read later. -/
def out3_A_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) : Vec F S512x768 .f32 :=
  VO3_2.read (Elt F) (VO3_2.writes (Elt F) VO3_2.junk (kernelRun3_A c i arg1 harg1 arg2 harg2 arg3 harg3 arg4 harg4 hc0 hc1 x0 x1).1)

/-- In case A the stores into the accumulator are whole-buffer stores, so together they cover it. -/
theorem scover3_A_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) (y : S512x768.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S512x768.size (by sl_kernel_rfl) y

/-- What case A leaves in the accumulator: zero plus the first block's contribution, as the pieces
    read back. -/
def sout3_A_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) : Vec F S512x768 .f32 :=
  VS3_0.read (Elt F) (VS3_0.writes (Elt F) VS3_0.junk (kernelRun3_A c i arg1 harg1 arg2 harg2 arg3 harg3 arg4 harg4 hc0 hc1 x0 x1).2.1)

/-- Case B stores nothing into the output block either. -/
def out3_B_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) : Vec F S512x768 .f32 :=
  VO3_2.read (Elt F) (VO3_2.writes (Elt F) VO3_2.junk (kernelRun3_B c i arg1 harg1 arg2 harg2 arg3 harg3 arg4 harg4 hc0 hc1 x0 x1 xs0).1)

/-- In case B the one store into the accumulator is a whole-buffer store, so it covers it. -/
theorem scover3_B_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) (y : S512x768.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S512x768.size (by sl_kernel_rfl) y

/-- What case B leaves in the accumulator: what the point before left plus this block's contribution. -/
def sout3_B_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) : Vec F S512x768 .f32 :=
  VS3_0.read (Elt F) (VS3_0.writes (Elt F) VS3_0.junk (kernelRun3_B c i arg1 harg1 arg2 harg2 arg3 harg3 arg4 harg4 hc0 hc1 x0 x1 xs0).2.1)

/-- In case C the store into the output block is a whole-block store, so it covers the block. -/
theorem cover3_C_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) (y : S512x768.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S512x768.size (by sl_kernel_rfl) y

/-- What case C leaves in the output block: the finished accumulator, as the pieces read back. -/
def out3_C_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) : Vec F S512x768 .f32 :=
  VO3_2.read (Elt F) (VO3_2.writes (Elt F) VO3_2.junk (kernelRun3_C c i arg1 harg1 arg2 harg2 arg3 harg3 arg4 harg4 hc0 hc1 x0 x1 xs0).1)

/-- In case C the one store into the accumulator is a whole-buffer store, so it covers it. -/
theorem scover3_C_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) (y : S512x768.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S512x768.size (by sl_kernel_rfl) y

/-- What case C leaves in the accumulator: what the point before left plus the last block's contribution. -/
def sout3_C_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) : Vec F S512x768 .f32 :=
  VS3_0.read (Elt F) (VS3_0.writes (Elt F) VS3_0.junk (kernelRun3_C c i arg1 harg1 arg2 harg2 arg3 harg3 arg4 harg4 hc0 hc1 x0 x1 xs0).2.1)

/-! ## The accumulation, point by point -/

/-- What the output block's staging buffer and the accumulator hold after the body at position `n`
    (a pair: the output block, then the accumulator). Position 0 is case A on the first blocks. A
    later position is the case its index selects, run on that point's blocks with the accumulator
    at what position `n - 1` left: after position `n` the accumulator is the sum of the
    contributions of blocks `0 … n`. No position is both first and last. -/
def outsAt3 (c : Dev nD) : (n : ℕ) → n < cfg3.N → Vec F S512x768 .f32 × Vec F S512x768 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 25 = 0 then
      if h1 : (n + 1) % 25 = 24 then
        False.elim (by have hN : n + 1 < 25 := lt_of_lt_of_eq hn (show cfg3.N = 25 from N_3); omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 25 = 24 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At the first point: case A's contents. -/
theorem outsAt3_A (c : Dev nD) (t : Fin cfg3.N) (h0 : t.val % 25 = 0) (h1 : ¬t.val % 25 = 24) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- At a middle point: case B's contents, over what the point before left in the accumulator. -/
theorem outsAt3_B (c : Dev nD) (t : Fin cfg3.N) (h0 : ¬t.val % 25 = 0) (h1 : ¬t.val % 25 = 24) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: case C's contents, over what the point before left in the accumulator. -/
theorem outsAt3_C (c : Dev nD) (t : Fin cfg3.N) (h0 : ¬t.val % 25 = 0) (h1 : t.val % 25 = 24) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the entry invariant (the
    accumulator at anything). Afterwards the accumulator is owned at exactly what position `n - 1`
    left in it; the other scoped buffers stay unopened and the generator register is at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

/-! ## The proof data -/

/-- The region's proof data on core `c`: the arrays as the region finds them; after the body at point
    `t` each input's buffer still holds its block and the output's buffer holds `outsAt3`'s first
    component; the invariant is `PhiS3`; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the entry contents. -/
theorem A_eq3 (c : Dev nD) (w : Fin cfg3.W) : (dat3 V c).A w = V c (Pipeline.arrRef spec3 w) := by
  dsimp only [dat3]

/-- The invariant at a point's start, restated at the point's index. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`: the invariant, what the core owes, and each window's
    current staging buffer at what it holds before the body. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- What it returns: the invariant at the next point, and each buffer at what the body leaves. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the point's index says which of
    the three cases it is in, and that case's run applies. The invariant lends the body the
    accumulator (at anything at the first point, at what the point before left otherwise) and takes
    it back at this point's contents, which the stored pieces determine because they cover the
    buffer; the other scoped buffers and the generator register pass through untouched. Where the
    output block is idle its buffer is handed back as it came; at the last point it is returned at
    the stored contents. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  by_cases h0 : t.val % 25 = 0
  · by_cases h1 : t.val % 25 = 24
    · exfalso; omega
    · -- the first point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
      · exfalso; omega
  · by_cases h1 : t.val % 25 = 24
    · -- the last point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · -- a middle point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- The entry invariant is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry invariant back: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- In particular after the last point. -/
theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.Run.lean ====
/-
  The kernel program's run, at any float instance: @main is three stretches of host operations, then a perceptron
  region, two stretches, a perceptron region, two stretches, a perceptron region, one stretch, the pooling region and
  three more stretches. Between two items a core's unscoped buffers are held whole at known contents: the launch memory
  pushed through the host operations so far, each region's output array at what the region's write-backs leave. Every
  weakly fair execution terminates, and the final memory holds the last boundary's contents; in particular the seven
  argument arrays end as launched.
-/
import proofs.«428382_j73890617360784_1_alg».proof.Proof.Gen.KernelIdeal.Regions
import proofs.«428382_j73890617360784_1_alg».proof.Proof.Mlp0
import proofs.«428382_j73890617360784_1_alg».proof.Proof.Mlp1
import proofs.«428382_j73890617360784_1_alg».proof.Proof.Mlp2
import proofs.«428382_j73890617360784_1_alg».proof.Proof.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at the boundaries after the first region

Up to the first region nothing depends on what a region leaves: the contents are the launch memory pushed through the
host operations. From there on each region's output array holds what the region's write-backs leave
(the pipeline's proof data read at the last point), and the host operations between the regions are applied to that. -/

/-- A valuation read at the TensorCore's references. -/
abbrev tcOf (W : Dev nD → Valuation τ sig (Elt F)) : (c : Dev nD) → (b : Ref sig .tc) → Buf (Elt F) ((c : Thread nD τ).loc b) :=
  fun c b => W c b

/-- What the first perceptron region leaves in its output array. -/
def o4 (c : Dev nD) : Buf (Elt F) ((c : Thread nD τ).loc main_v19) := (dat0 (tcOf (V3 m)) c).arrAt 5 cfg0.N
/-- After the first region. -/
def W4 (c : Dev nD) : Valuation τ sig (Elt F) := Function.update (V3 m c) main_v19 (o4 m c)
/-- After the host operations up to the second region. -/
def W5 (c : Dev nD) : Valuation τ sig (Elt F) := StableHlo.after hostOps1 (W4 m c)
def W6 (c : Dev nD) : Valuation τ sig (Elt F) := StableHlo.after hostOps1_1 (W5 m c)
/-- What the second perceptron region leaves in its output array. -/
def o7 (c : Dev nD) : Buf (Elt F) ((c : Thread nD τ).loc main_v35) := (dat1 (tcOf (W6 m)) c).arrAt 5 cfg1.N
def W7 (c : Dev nD) : Valuation τ sig (Elt F) := Function.update (W6 m c) main_v35 (o7 m c)
def W8 (c : Dev nD) : Valuation τ sig (Elt F) := StableHlo.after hostOps2 (W7 m c)
def W9 (c : Dev nD) : Valuation τ sig (Elt F) := StableHlo.after hostOps2_1 (W8 m c)
/-- What the third perceptron region leaves in its output array. -/
def o10 (c : Dev nD) : Buf (Elt F) ((c : Thread nD τ).loc main_v51) := (dat2 (tcOf (W9 m)) c).arrAt 5 cfg2.N
def W10 (c : Dev nD) : Valuation τ sig (Elt F) := Function.update (W9 m c) main_v51 (o10 m c)
def W11 (c : Dev nD) : Valuation τ sig (Elt F) := StableHlo.after hostOps3 (W10 m c)
/-- What the pooling region leaves in its output array. -/
def o12 (c : Dev nD) : Buf (Elt F) ((c : Thread nD τ).loc main_v54) := (dat3 (tcOf (W11 m)) c).arrAt 2 cfg3.N
def W12 (c : Dev nD) : Valuation τ sig (Elt F) := Function.update (W11 m c) main_v54 (o12 m c)

/-- The contents the regions leave, as the conditional frame's unknowns: after item J−1 the buffers hold boundary J's
    contents. -/
def outs : Outs (F := F) := fun n r c =>
  match n with
  | 4 => W4 m c r
  | 7 => W7 m c r
  | 10 => W10 m c r
  | 12 => W12 m c r
  | _ => V0 m c r

theorem V4_eq (c : Dev nD) : V4 m (outs m) c = W4 m c := by
  show Function.update (V3 m c) main_v19 (W4 m c main_v19) = W4 m c
  unfold W4; rw [Function.update_self]
theorem V5_eq (c : Dev nD) : V5 m (outs m) c = W5 m c := by
  show StableHlo.after hostOps1 (V4 m (outs m) c) = _; rw [V4_eq]; rfl
theorem V6_eq (c : Dev nD) : V6 m (outs m) c = W6 m c := by
  show StableHlo.after hostOps1_1 (V5 m (outs m) c) = _; rw [V5_eq]; rfl
theorem V7_eq (c : Dev nD) : V7 m (outs m) c = W7 m c := by
  show Function.update (V6 m (outs m) c) main_v35 (W7 m c main_v35) = W7 m c
  rw [V6_eq]; unfold W7; rw [Function.update_self]
theorem V8_eq (c : Dev nD) : V8 m (outs m) c = W8 m c := by
  show StableHlo.after hostOps2 (V7 m (outs m) c) = _; rw [V7_eq]; rfl
theorem V9_eq (c : Dev nD) : V9 m (outs m) c = W9 m c := by
  show StableHlo.after hostOps2_1 (V8 m (outs m) c) = _; rw [V8_eq]; rfl
theorem V10_eq (c : Dev nD) : V10 m (outs m) c = W10 m c := by
  show Function.update (V9 m (outs m) c) main_v51 (W10 m c main_v51) = W10 m c
  rw [V9_eq]; unfold W10; rw [Function.update_self]
theorem V11_eq (c : Dev nD) : V11 m (outs m) c = W11 m c := by
  show StableHlo.after hostOps3 (V10 m (outs m) c) = _; rw [V10_eq]; rfl
theorem V12_eq (c : Dev nD) : V12 m (outs m) c = W12 m c := by
  show Function.update (V11 m (outs m) c) main_v54 (W12 m c main_v54) = W12 m c
  rw [V11_eq]; unfold W12; rw [Function.update_self]

/-! ## Each region's arrays at its exit -/

theorem W4_of_ne (c : Dev nD) (b : Ref sig .tc) (hb : b ≠ main_v19) : W4 m c b = V3 m c b := by
  unfold W4; exact Function.update_of_ne (StableHlo.devRef_ne_of_ne hb) _ _
theorem W4_self (c : Dev nD) : W4 m c main_v19 = o4 m c := by
  unfold W4; exact Function.update_self _ _ _
set_option maxHeartbeats 4000000 in
theorem hF0 (c : Dev nD) (w : Fin cfg0.W) : (dat0 (tcOf (V3 m)) c).arrAt w cfg0.N = tcOf (W4 m) c (Pipeline.arrRef spec0 w) := by
  match w with
  | ⟨0, _⟩ => exact ((dat0 (tcOf (V3 m)) c).arrAt_in 0 rfl _).trans ((A_eq0 _ c 0).trans (W4_of_ne m c _ (show (Pipeline.arrRef spec0 0 : Ref sig .tc) ≠ main_v19 by decide)).symm)
  | ⟨1, _⟩ => exact ((dat0 (tcOf (V3 m)) c).arrAt_in 1 rfl _).trans ((A_eq0 _ c 1).trans (W4_of_ne m c _ (show (Pipeline.arrRef spec0 1 : Ref sig .tc) ≠ main_v19 by decide)).symm)
  | ⟨2, _⟩ => exact ((dat0 (tcOf (V3 m)) c).arrAt_in 2 rfl _).trans ((A_eq0 _ c 2).trans (W4_of_ne m c _ (show (Pipeline.arrRef spec0 2 : Ref sig .tc) ≠ main_v19 by decide)).symm)
  | ⟨3, _⟩ => exact ((dat0 (tcOf (V3 m)) c).arrAt_in 3 rfl _).trans ((A_eq0 _ c 3).trans (W4_of_ne m c _ (show (Pipeline.arrRef spec0 3 : Ref sig .tc) ≠ main_v19 by decide)).symm)
  | ⟨4, _⟩ => exact ((dat0 (tcOf (V3 m)) c).arrAt_in 4 rfl _).trans ((A_eq0 _ c 4).trans (W4_of_ne m c _ (show (Pipeline.arrRef spec0 4 : Ref sig .tc) ≠ main_v19 by decide)).symm)
  | ⟨5, _⟩ => exact (W4_self m c).symm
theorem hrest0 (c : Dev nD) : ∀ b, b ∉ Finset.univ.image (Pipeline.arrRef spec0) → tcOf (W4 m) c b = tcOf (V3 m) c b :=
  fun b hb => W4_of_ne m c b (fun h => hb (by rw [h]; exact Finset.mem_image.mpr ⟨5, Finset.mem_univ _, rfl⟩))

theorem W7_of_ne (c : Dev nD) (b : Ref sig .tc) (hb : b ≠ main_v35) : W7 m c b = W6 m c b := by
  unfold W7; exact Function.update_of_ne (StableHlo.devRef_ne_of_ne hb) _ _
theorem W7_self (c : Dev nD) : W7 m c main_v35 = o7 m c := by
  unfold W7; exact Function.update_self _ _ _
set_option maxHeartbeats 4000000 in
theorem hF1 (c : Dev nD) (w : Fin cfg1.W) : (dat1 (tcOf (W6 m)) c).arrAt w cfg1.N = tcOf (W7 m) c (Pipeline.arrRef spec1 w) := by
  match w with
  | ⟨0, _⟩ => exact ((dat1 (tcOf (W6 m)) c).arrAt_in 0 rfl _).trans ((A_eq1 _ c 0).trans (W7_of_ne m c _ (show (Pipeline.arrRef spec1 0 : Ref sig .tc) ≠ main_v35 by decide)).symm)
  | ⟨1, _⟩ => exact ((dat1 (tcOf (W6 m)) c).arrAt_in 1 rfl _).trans ((A_eq1 _ c 1).trans (W7_of_ne m c _ (show (Pipeline.arrRef spec1 1 : Ref sig .tc) ≠ main_v35 by decide)).symm)
  | ⟨2, _⟩ => exact ((dat1 (tcOf (W6 m)) c).arrAt_in 2 rfl _).trans ((A_eq1 _ c 2).trans (W7_of_ne m c _ (show (Pipeline.arrRef spec1 2 : Ref sig .tc) ≠ main_v35 by decide)).symm)
  | ⟨3, _⟩ => exact ((dat1 (tcOf (W6 m)) c).arrAt_in 3 rfl _).trans ((A_eq1 _ c 3).trans (W7_of_ne m c _ (show (Pipeline.arrRef spec1 3 : Ref sig .tc) ≠ main_v35 by decide)).symm)
  | ⟨4, _⟩ => exact ((dat1 (tcOf (W6 m)) c).arrAt_in 4 rfl _).trans ((A_eq1 _ c 4).trans (W7_of_ne m c _ (show (Pipeline.arrRef spec1 4 : Ref sig .tc) ≠ main_v35 by decide)).symm)
  | ⟨5, _⟩ => exact (W7_self m c).symm
theorem hrest1 (c : Dev nD) : ∀ b, b ∉ Finset.univ.image (Pipeline.arrRef spec1) → tcOf (W7 m) c b = tcOf (W6 m) c b :=
  fun b hb => W7_of_ne m c b (fun h => hb (by rw [h]; exact Finset.mem_image.mpr ⟨5, Finset.mem_univ _, rfl⟩))

theorem W10_of_ne (c : Dev nD) (b : Ref sig .tc) (hb : b ≠ main_v51) : W10 m c b = W9 m c b := by
  unfold W10; exact Function.update_of_ne (StableHlo.devRef_ne_of_ne hb) _ _
theorem W10_self (c : Dev nD) : W10 m c main_v51 = o10 m c := by
  unfold W10; exact Function.update_self _ _ _
set_option maxHeartbeats 4000000 in
theorem hF2 (c : Dev nD) (w : Fin cfg2.W) : (dat2 (tcOf (W9 m)) c).arrAt w cfg2.N = tcOf (W10 m) c (Pipeline.arrRef spec2 w) := by
  match w with
  | ⟨0, _⟩ => exact ((dat2 (tcOf (W9 m)) c).arrAt_in 0 rfl _).trans ((A_eq2 _ c 0).trans (W10_of_ne m c _ (show (Pipeline.arrRef spec2 0 : Ref sig .tc) ≠ main_v51 by decide)).symm)
  | ⟨1, _⟩ => exact ((dat2 (tcOf (W9 m)) c).arrAt_in 1 rfl _).trans ((A_eq2 _ c 1).trans (W10_of_ne m c _ (show (Pipeline.arrRef spec2 1 : Ref sig .tc) ≠ main_v51 by decide)).symm)
  | ⟨2, _⟩ => exact ((dat2 (tcOf (W9 m)) c).arrAt_in 2 rfl _).trans ((A_eq2 _ c 2).trans (W10_of_ne m c _ (show (Pipeline.arrRef spec2 2 : Ref sig .tc) ≠ main_v51 by decide)).symm)
  | ⟨3, _⟩ => exact ((dat2 (tcOf (W9 m)) c).arrAt_in 3 rfl _).trans ((A_eq2 _ c 3).trans (W10_of_ne m c _ (show (Pipeline.arrRef spec2 3 : Ref sig .tc) ≠ main_v51 by decide)).symm)
  | ⟨4, _⟩ => exact ((dat2 (tcOf (W9 m)) c).arrAt_in 4 rfl _).trans ((A_eq2 _ c 4).trans (W10_of_ne m c _ (show (Pipeline.arrRef spec2 4 : Ref sig .tc) ≠ main_v51 by decide)).symm)
  | ⟨5, _⟩ => exact (W10_self m c).symm
theorem hrest2 (c : Dev nD) : ∀ b, b ∉ Finset.univ.image (Pipeline.arrRef spec2) → tcOf (W10 m) c b = tcOf (W9 m) c b :=
  fun b hb => W10_of_ne m c b (fun h => hb (by rw [h]; exact Finset.mem_image.mpr ⟨5, Finset.mem_univ _, rfl⟩))

theorem W12_of_ne (c : Dev nD) (b : Ref sig .tc) (hb : b ≠ main_v54) : W12 m c b = W11 m c b := by
  unfold W12; exact Function.update_of_ne (StableHlo.devRef_ne_of_ne hb) _ _
theorem W12_self (c : Dev nD) : W12 m c main_v54 = o12 m c := by
  unfold W12; exact Function.update_self _ _ _
set_option maxHeartbeats 4000000 in
theorem hF3 (c : Dev nD) (w : Fin cfg3.W) : (dat3 (tcOf (W11 m)) c).arrAt w cfg3.N = tcOf (W12 m) c (Pipeline.arrRef spec3 w) := by
  match w with
  | ⟨0, _⟩ => exact ((dat3 (tcOf (W11 m)) c).arrAt_in 0 rfl _).trans ((A_eq3 _ c 0).trans (W12_of_ne m c _ (show (Pipeline.arrRef spec3 0 : Ref sig .tc) ≠ main_v54 by decide)).symm)
  | ⟨1, _⟩ => exact ((dat3 (tcOf (W11 m)) c).arrAt_in 1 rfl _).trans ((A_eq3 _ c 1).trans (W12_of_ne m c _ (show (Pipeline.arrRef spec3 1 : Ref sig .tc) ≠ main_v54 by decide)).symm)
  | ⟨2, _⟩ => exact (W12_self m c).symm
theorem hrest3 (c : Dev nD) : ∀ b, b ∉ Finset.univ.image (Pipeline.arrRef spec3) → tcOf (W12 m) c b = tcOf (W11 m) c b :=
  fun b hb => W12_of_ne m c b (fun h => hb (by rw [h]; exact Finset.mem_image.mpr ⟨2, Finset.mem_univ _, rfl⟩))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (tcOf (V3 m)) c
  | ⟨1, _⟩ => fun c => dat1 (tcOf (W6 m)) c
  | ⟨2, _⟩ => fun c => dat2 (tcOf (W9 m)) c
  | ⟨3, _⟩ => fun c => dat3 (tcOf (W11 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The same beside every boundary. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-! ## The regions as segments -/

-- unification of the library's statements over the pinned configuration with the printed one unfolds plain definitions
set_option backward.isDefEq.respectTransparency.types false in
/-- Region 0 over the thread state "every unscoped buffer at the boundary's contents, the generator register at some
    state, nothing owed": its arrays are split out of the unscoped buffers at entry and put back, the output's at what
    the write-backs leave, at exit. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcOf (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (tcOf (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcOf (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (V3 m) c) (tcOf (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 1 over the thread state "every unscoped buffer at the boundary's contents, the generator register at some
    state, nothing owed": its arrays are split out of the unscoped buffers at entry and put back, the output's at what
    the write-backs leave, at exit. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcOf (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (tcOf (W6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcOf (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (W6 m) c) (tcOf (W7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 2 over the thread state "every unscoped buffer at the boundary's contents, the generator register at some
    state, nothing owed": its arrays are split out of the unscoped buffers at entry and put back, the output's at what
    the write-backs leave, at exit. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcOf (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (tcOf (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcOf (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (W9 m) c) (tcOf (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 3 over the thread state "every unscoped buffer at the boundary's contents, the generator register at some
    state, nothing owed": its arrays are split out of the unscoped buffers at entry and put back, the output's at what
    the write-backs leave, at exit. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcOf (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (tcOf (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcOf (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (tcOf (W11 m)) c
    unfold Pipeline.ΦA at h3
    rw [show (pdats m 3 c).Φ 0 = (dat3 (tcOf (W11 m)) c).Φ 0 from rfl]
    iintro ⟨Hp, -, Hr⟩
    iapply h3
    isplitl [Hr]; · iexact Hr
    iexact Hp
  hout c := by
    have h3 := hout3 (tcOf (W11 m)) c
    unfold Pipeline.ΦA at h3
    rw [Pipeline.ownSems0_none, show (pdats m 3 c).Φ (Fin.last _) = (dat3 (tcOf (W11 m)) c).Φ (Fin.last cfg3.N) from rfl]
    iintro HΦ
    ihave H := h3 $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcOf (W11 m) c) (tcOf (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' thread states meet the host segments' -/

theorem hpre0 (c : Dev nD) : iprop(StableHlo.held (c : Thread nD τ) (Pipeline.ucRefs τ sig) (V3 m c) ∗ E (F := F) 0 c) ⊢ (reg0 m).pre c := .rfl
theorem hpost0 (c : Dev nD) : (reg0 m).post c ⊢ iprop(StableHlo.held (c : Thread nD τ) (Pipeline.ucRefs τ sig) (V4 m (outs m) c) ∗ E (F := F) 1 c) := by
  rw [V4_eq m c]; exact .rfl
theorem hpre1 (c : Dev nD) : iprop(StableHlo.held (c : Thread nD τ) (Pipeline.ucRefs τ sig) (V6 m (outs m) c) ∗ E (F := F) 1 c) ⊢ (reg1 m).pre c := by
  rw [V6_eq m c]; exact .rfl
theorem hpost1 (c : Dev nD) : (reg1 m).post c ⊢ iprop(StableHlo.held (c : Thread nD τ) (Pipeline.ucRefs τ sig) (V7 m (outs m) c) ∗ E (F := F) 2 c) := by
  rw [V7_eq m c]; exact .rfl
theorem hpre2 (c : Dev nD) : iprop(StableHlo.held (c : Thread nD τ) (Pipeline.ucRefs τ sig) (V9 m (outs m) c) ∗ E (F := F) 2 c) ⊢ (reg2 m).pre c := by
  rw [V9_eq m c]; exact .rfl
theorem hpost2 (c : Dev nD) : (reg2 m).post c ⊢ iprop(StableHlo.held (c : Thread nD τ) (Pipeline.ucRefs τ sig) (V10 m (outs m) c) ∗ E (F := F) 3 c) := by
  rw [V10_eq m c]; exact .rfl
theorem hpre3 (c : Dev nD) : iprop(StableHlo.held (c : Thread nD τ) (Pipeline.ucRefs τ sig) (V11 m (outs m) c) ∗ E (F := F) 3 c) ⊢ (reg3 m).pre c := by
  rw [V11_eq m c]; exact .rfl
theorem hpost3 (c : Dev nD) : (reg3 m).post c ⊢ iprop(StableHlo.held (c : Thread nD τ) (Pipeline.ucRefs τ sig) (V12 m (outs m) c) ∗ E (F := F) 4 c) := by
  rw [V12_eq m c]; exact .rfl

/-! ## The run -/

-- the launch theorem's implicit arguments are found by unifying its conclusion with this one, which takes unfolding plain
-- definitions in a metavariable's type
set_option backward.isDefEq.respectTransparency.types false in
/-- From any memory with zero counters every weakly fair execution of @main terminates, and every final memory holds
    each unscoped buffer at the last boundary's contents: the launch memory pushed through the host operations and
    the four regions' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V15 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V15 m (outs m) c))
    (hch := fun c => ⟨.rfl, .rfl, .rfl, hpre0 m c, hpost0 m c, .rfl, hpre1 m c, hpost1 m c, .rfl, hpre2 m c, hpost2 m c, hpre3 m c, hpost3 m c, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨Hh, HSI⟩
      unfold StableHlo.held
      imodintro
      iapply (pointsTo_read_all (Pipeline.ucRefs τ sig) (fun b => (((c : Thread nD τ)).1, b)) (V15 m (outs m) c) s')
      isplitl [Hh] <;> iassumption)
    (hQ := fun s h => h)

/-- THE FRAME at any instance: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c)⟩) (run_all m ρ)

end Cert.KernelIdeal.Hand

end
-- ==== Proof.BMlp0.lean ====
import proofs.«428382_j73890617360784_1_alg».proof.Proof.Gen.Kernel.Launch
import proofs.«428382_j73890617360784_1_alg».proof.Proof.Gen.Kernel.Skeleton
import proofs.«428382_j73890617360784_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first fused two-layer perceptron, class-A half of its frame

The first kernel region of the network runs `cc0__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input (window 0): at every point its staging buffer holds the block the point addresses, for any
    proof data over the entry arrays whose body leaves that block in place. The window is whole (never cut at the
    array's edge) and never idle, so a point that copies nothing in has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix (window 1), copied in at the first point only: its block index is constant, so the
    buffer holds the same block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first bias row (window 2), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix (window 3), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second bias row (window 4), likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a 2000 by 256 buffer (the row block, and the output block), -/
abbrev r0_0 : Rect S2000x256 := Rect.unit (s := S2000x256) ![0, 0] S2000x256.size inb_S2000x256_S2000x256_0_0
/-- of a 256 by 256 buffer (a weight matrix), -/
abbrev r0_1 : Rect S256x256 := Rect.unit (s := S256x256) ![0, 0] S256x256.size inb_S256x256_S256x256_0_0
/-- and of a 1 by 256 buffer (a bias row): every access of the body is to a whole buffer. -/
abbrev r0_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out0_5 (x0 : Vec F S2000x256 .f32) (x1 : Vec F S256x256 .f32) (x2 : Vec F S1x256 .f32) (x3 : Vec F S256x256 .f32) (x4 : Vec F S1x256 .f32) : Vec F S2000x256 .f32 :=
  View.canon [⟨r0_0, k0_pay1 (View.ld x0 r0_0) (View.ld x1 r0_1) (View.ld x2 r0_2) (View.ld x3 r0_1) (View.ld x4 r0_2)⟩]

/-- That one store covers the buffer: its rectangle starts at the origin and has the buffer's extents. -/
theorem cover0_5 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out0_5` of
    the inputs. The body loads each input whole, loads the output buffer once (the value is not used) and then
    overwrites it whole; the grid coordinate it is passed is not read. -/
theorem sound_kernel0 (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region's pipeline on core `c`: the arrays at their entry contents; after the body at point
    `t` each input buffer still at its block and the output buffer at `out0_5` of the five input blocks; the
    invariant is the untouched rest of the core (its other scoped buffers and the generator register); nothing is
    owed; every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window: the inputs as found, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and the output at the perceptron of the five input blocks. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's staging buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies at those blocks; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.BMlp1.lean ====
import proofs.«428382_j73890617360784_1_alg».proof.Proof.Gen.Kernel.Launch
import proofs.«428382_j73890617360784_1_alg».proof.Proof.Gen.Kernel.Skeleton
import proofs.«428382_j73890617360784_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the second fused two-layer perceptron, class-A half of its frame

The second kernel region of the network runs `cc1__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input (window 0): at every point its staging buffer holds the block the point addresses, for any
    proof data over the entry arrays whose body leaves that block in place. The window is whole (never cut at the
    array's edge) and never idle, so a point that copies nothing in has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first weight matrix (window 1), copied in at the first point only: its block index is constant, so the
    buffer holds the same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The first bias row (window 2), likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The second weight matrix (window 3), likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The second bias row (window 4), likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 2000 by 256 buffer (the row block, and the output block), -/
abbrev r1_0 : Rect S2000x256 := Rect.unit (s := S2000x256) ![0, 0] S2000x256.size inb_S2000x256_S2000x256_0_0
/-- of a 256 by 256 buffer (a weight matrix), -/
abbrev r1_1 : Rect S256x256 := Rect.unit (s := S256x256) ![0, 0] S256x256.size inb_S256x256_S256x256_0_0
/-- and of a 1 by 256 buffer (a bias row): every access of the body is to a whole buffer. -/
abbrev r1_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out1_5 (x0 : Vec F S2000x256 .f32) (x1 : Vec F S256x256 .f32) (x2 : Vec F S1x256 .f32) (x3 : Vec F S256x256 .f32) (x4 : Vec F S1x256 .f32) : Vec F S2000x256 .f32 :=
  View.canon [⟨r1_0, k1_pay1 (View.ld x0 r1_0) (View.ld x1 r1_1) (View.ld x2 r1_2) (View.ld x3 r1_1) (View.ld x4 r1_2)⟩]

/-- That one store covers the buffer: its rectangle starts at the origin and has the buffer's extents. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out1_5` of
    the inputs. The body loads each input whole, loads the output buffer once (the value is not used) and then
    overwrites it whole; the grid coordinate it is passed is not read. -/
theorem sound_kernel1 (c : Dev nD) (E : Set ℕ) (i : grid1.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays at their entry contents; after the body at point
    `t` each input buffer still at its block and the output buffer at `out1_5` of the five input blocks; the
    invariant is the untouched rest of the core (its other scoped buffers and the generator register); nothing is
    owed; every buffer is held in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window: the inputs as found, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and the output at the perceptron of the five input blocks. -/
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's staging buffer holds its block at every point, copied in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies at those blocks; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.BMlp2.lean ====
import proofs.«428382_j73890617360784_1_alg».proof.Proof.Gen.Kernel.Launch
import proofs.«428382_j73890617360784_1_alg».proof.Proof.Gen.Kernel.Skeleton
import proofs.«428382_j73890617360784_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the third fused two-layer perceptron, class-A half of its frame

The third kernel region of the network runs `cc2__mlp_kernel` over a grid of 25 row blocks. At each grid point
the body sees one block of 2000 aggregated rows (256 features each) together with the whole of the two weight
matrices (256 by 256) and the two bias rows (1 by 256), and writes one block of 2000 output rows:

  out = max (max (rows · W1 + b1) 0 · W2 + b2) 0

(the matrix products taken after rounding their operands to bf16). The row block moves with the grid point; the
weights and biases have a constant block index, so the pipeline copies them in once, at the first point, and the
body finds them unchanged at every later point. The output block is copied back after every point.

Everything here is stated at a parameter `V`: the contents of the core's arrays when the region is entered.
-/

-- deciding that one rectangle of 2000 by 256 covers its buffer recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` that grid point `t` addresses, read off the window's array at its entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input (window 0): at every point its staging buffer holds the block the point addresses, for any
    proof data over the entry arrays whose body leaves that block in place. The window is whole (never cut at the
    array's edge) and never idle, so a point that copies nothing in has the block index of the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The first weight matrix (window 1), copied in at the first point only: its block index is constant, so the
    buffer holds the same block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first bias row (window 2), likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The second weight matrix (window 3), likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The second bias row (window 4), likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of a 2000 by 256 buffer (the row block, and the output block), -/
abbrev r2_0 : Rect S2000x256 := Rect.unit (s := S2000x256) ![0, 0] S2000x256.size inb_S2000x256_S2000x256_0_0
/-- of a 256 by 256 buffer (a weight matrix), -/
abbrev r2_1 : Rect S256x256 := Rect.unit (s := S256x256) ![0, 0] S256x256.size inb_S256x256_S256x256_0_0
/-- and of a 1 by 256 buffer (a bias row): every access of the body is to a whole buffer. -/
abbrev r2_2 : Rect S1x256 := Rect.unit (s := S1x256) ![0, 0] S1x256.size inb_S1x256_S1x256_0_0

/-! ## What the body leaves in the output window's buffer -/

/-- The output buffer after the body, as a function of the five input blocks: the body's single store writes the
    whole buffer with the two-layer perceptron of the loaded rows, weights and biases. -/
def out2_5 (x0 : Vec F S2000x256 .f32) (x1 : Vec F S256x256 .f32) (x2 : Vec F S1x256 .f32) (x3 : Vec F S256x256 .f32) (x4 : Vec F S1x256 .f32) : Vec F S2000x256 .f32 :=
  View.canon [⟨r2_0, k2_pay1 (View.ld x0 r2_0) (View.ld x1 r2_1) (View.ld x2 r2_2) (View.ld x3 r2_1) (View.ld x4 r2_2)⟩]

/-- That one store covers the buffer: its rectangle starts at the origin and has the buffer's extents. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The kernel body on whole staging buffers: given the five input buffers at read contents `x0 … x4` and the output
    buffer at any contents, it runs to a continuation that holds the inputs unchanged and the output at `out2_5` of
    the inputs. The body loads each input whole, loads the output buffer once (the value is not used) and then
    overwrites it whole; the grid coordinate it is passed is not read. -/
theorem sound_kernel2 (c : Dev nD) (E : Set ℕ) (i : grid2.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S2000x256 .f32) (harg6 : arg6.IsWhole)
    (x0 : Vec F S2000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core `c`: the arrays at their entry contents; after the body at point
    `t` each input buffer still at its block and the output buffer at `out2_5` of the five input blocks; the
    invariant is the untouched rest of the core (its other scoped buffers and the generator register); nothing is
    owed; every buffer is held in full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window: the inputs as found, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- and the output at the perceptron of the five input blocks. -/
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's staging buffer holds its block at every point, copied in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    buffer at what the pipeline left in it, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the same, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies at those blocks; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.BPool.lean ====
import proofs.«428382_j73890617360784_1_alg».proof.Proof.Gen.Kernel.Launch
import proofs.«428382_j73890617360784_1_alg».proof.Proof.Gen.Kernel.Skeleton
import proofs.«428382_j73890617360784_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding membership in a 512x768 or 2000x768 rectangle recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: what its three cases share

The pooling kernel runs on a grid of 25 points. At every point it adds one block's contribution
(a one-hot matrix product of the graph-id column with the node rows) to an accumulator it keeps in
a scratch buffer; at the first point it zeroes the accumulator first, and at the last point it also
copies the accumulator into the output block. So a point is in one of three cases:

* case A, the first point: zero, then accumulate; the output block untouched;
* case B, a middle point: accumulate over what the point before left; the output block untouched;
* case C, the last point: accumulate over what the point before left, then store the output block.

Everything here is stated for an arbitrary assignment `V` of contents to the core's buffers at the
moment the region is entered. -/

variable (V : (c : Dev nD) → (b : Ref sig .tc) → Buf (Elt F) ((c : Thread nD τ).loc b))

/-! ## The windows' blocks -/

/-- The block of window `w` at grid point `t`, read out of the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The node-row window: at every point its current staging buffer holds that point's block of the
    array, for any proof data whose array is the entry contents and whose body leaves the block in
    place. The window is an input, never idle and never cut at the array's end. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The graph-id window (a column of 32-bit integers): the same statement. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- The first conditional's test, written out over the grid coordinate: "this is point 0". -/
abbrev cond3_0 (i : grid3.Coords) : Prop := (Scalar.cmpi .ne (Scalar.extui (Scalar.cmpi .eq (BitVec.ofNat 32 (i 0).val) 0#32)) 0#32) = 1#1
/-- It holds exactly at the first point. -/
theorem hcond3_0 : ∀ t : Fin cfg3.N, cond3_0 (grid3.coords t) ↔ t.val % 25 = 0 :=
  (by decide +kernel : ∀ t : Fin grid3.N, cond3_0 (grid3.coords t) ↔ t.val % 25 = 0)

/-- The second conditional's test: "this is point 24". -/
abbrev cond3_1 (i : grid3.Coords) : Prop := k3_cond2 i = 1#1
/-- It holds exactly at the last point. -/
theorem hcond3_1 : ∀ t : Fin cfg3.N, cond3_1 (grid3.coords t) ↔ t.val % 25 = 24 :=
  (by decide +kernel : ∀ t : Fin grid3.N, cond3_1 (grid3.coords t) ↔ t.val % 25 = 24)

/-! ## Where the windows are idle -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- At the first point the output window is idle, and its block is not written back. -/
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
/-- At a middle point likewise. -/
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
/-- At the last point the output window is live: the body stores into it. -/
theorem liveAt3_2_C : ∀ t : Fin cfg3.N, ¬cond3_0 (grid3.coords t) → cond3_1 (grid3.coords t) → cfg3.idle 2 (grid3.coords t) = false := by decide +kernel

/-! ## The memrefs the body is called with -/

/-- The output window's one staging buffer as a view: what the window holds is stated through it. -/
abbrev VO3_2 : View sig .tc .vmem S512x768 .f32 := (Memref.whole cc3_stg2_0 : Memref sig .tc .vmem S512x768 .f32).view
/-- Each window's current staging memref at point `t`, and that it is a whole buffer. -/
abbrev ms3_0 (t : Fin cfg3.N) : Memref sig .tc .vmem S2000x768 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x768 .f32 := win3_2.stage (cfg3.slots t 2)
abbrev hs3_2 (t : Fin cfg3.N) : (ms3_2 t).IsWhole := hstage3_2 ((cfg3.slots t 2).cast nbuf3_2)
/-- The accumulator: a whole scoped buffer of the kernel's own, passed beside the windows. -/
abbrev scM3_0 : Memref sig .tc .vmem S512x768 .f32 := Memref.whole cc3_scratch0
/-- The accumulator as a view: what it holds after a point is stated through it. -/
abbrev VS3_0 : View sig .tc .vmem S512x768 .f32 := scM3_0.view

/-- The region's entry invariant with the accumulator singled out: the accumulator owned at some
    contents, every other scoped buffer that is no staging buffer left unopened, and the generator
    register at some state. -/
theorem PhiA3_eq (c : Dev nD) :
    (Pipeline.ΦA spec3 c : sProp 𝕄)
      = iprop(iprop(iprop((∃ d, owns (c : Thread nD τ) scM3_0 fullShare d)) ∗ Pipeline.scopedRestBut spec3 c [cc3_scratch0]) ∗ (∃ r, prngReg c r)) := by
  unfold Pipeline.ΦA; rw [scopedRest3_split]; simp only [scM3_0, owns_whole]; try rfl

/-! ## The body's run, case by case

Each run is a pair of piece lists (what the body's stores leave in the output block and in the
accumulator, last store first) together with the proof that, started on whole memrefs holding the
stated contents, the body runs to a continuation that receives the inputs as they were and the
stored-into buffers with those pieces written. The piece lists are found by running the body. -/

set_option maxHeartbeats 1000000 in
/-- Case A (first point: the first conditional taken, the second not). The accumulator may hold
    anything on entry, since it is zeroed before it is read for the sum; the output block is handed
    back at the contents `xi2` it came with. -/
noncomputable def kernelRun3_A (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) :
    Σ' (L2 : List (View.Piece (Elt F) S512x768 .f32)), { LS0 : List (View.Piece (Elt F) S512x768 .f32) //
      ∀ (xi2 : Vec F S512x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- Case B (a middle point: neither conditional taken). The accumulator enters at the contents
    `xs0` the point before left; the output block is handed back at the contents it came with. -/
noncomputable def kernelRun3_B (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) :
    Σ' (L2 : List (View.Piece (Elt F) S512x768 .f32)), { LS0 : List (View.Piece (Elt F) S512x768 .f32) //
      ∀ (xi2 : Vec F S512x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨[], ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- Case C (last point: the first conditional not taken, the second taken). The accumulator enters
    at the contents `xs0` the point before left; the output block may hold anything on entry, since
    the body overwrites all of it. -/
noncomputable def kernelRun3_C (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) :
    Σ' (L2 : List (View.Piece (Elt F) S512x768 .f32)), { LS0 : List (View.Piece (Elt F) S512x768 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__pool_kernel i arg1 harg1 arg2 harg2 arg3 harg3 arg4 harg4) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the output block and in the accumulator -/

/-- Case A stores nothing into the output block: the empty piece list read back over junk. Nothing
    consults this value, since at the first point the block is neither written back nor read later. -/
def out3_A_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) : Vec F S512x768 .f32 :=
  VO3_2.read (Elt F) (VO3_2.writes (Elt F) VO3_2.junk (kernelRun3_A c i arg1 harg1 arg2 harg2 arg3 harg3 arg4 harg4 hc0 hc1 x0 x1).1)

/-- In case A the stores into the accumulator are whole-buffer stores, so together they cover it. -/
theorem scover3_A_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) (y : S512x768.Idx) :
    ∃ pc ∈ (kernelRun3_A c i arg1 harg1 arg2 harg2 arg3 harg3 arg4 harg4 hc0 hc1 x0 x1).2.1, y ∈ pc.1.set :=
  View.cover_of_tiledL (kernelRun3_A c i arg1 harg1 arg2 harg2 arg3 harg3 arg4 harg4 hc0 hc1 x0 x1).2.1 S512x768.size (by sl_kernel_rfl) y

/-- What case A leaves in the accumulator: zero plus the first block's contribution, as the pieces
    read back. -/
def sout3_A_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) : Vec F S512x768 .f32 :=
  VS3_0.read (Elt F) (VS3_0.writes (Elt F) VS3_0.junk (kernelRun3_A c i arg1 harg1 arg2 harg2 arg3 harg3 arg4 harg4 hc0 hc1 x0 x1).2.1)

/-- Case B stores nothing into the output block either. -/
def out3_B_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) : Vec F S512x768 .f32 :=
  VO3_2.read (Elt F) (VO3_2.writes (Elt F) VO3_2.junk (kernelRun3_B c i arg1 harg1 arg2 harg2 arg3 harg3 arg4 harg4 hc0 hc1 x0 x1 xs0).1)

/-- In case B the one store into the accumulator is a whole-buffer store, so it covers it. -/
theorem scover3_B_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) (y : S512x768.Idx) :
    ∃ pc ∈ (kernelRun3_B c i arg1 harg1 arg2 harg2 arg3 harg3 arg4 harg4 hc0 hc1 x0 x1 xs0).2.1, y ∈ pc.1.set :=
  View.cover_of_tiledL (kernelRun3_B c i arg1 harg1 arg2 harg2 arg3 harg3 arg4 harg4 hc0 hc1 x0 x1 xs0).2.1 S512x768.size (by sl_kernel_rfl) y

/-- What case B leaves in the accumulator: what the point before left plus this block's contribution. -/
def sout3_B_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) : Vec F S512x768 .f32 :=
  VS3_0.read (Elt F) (VS3_0.writes (Elt F) VS3_0.junk (kernelRun3_B c i arg1 harg1 arg2 harg2 arg3 harg3 arg4 harg4 hc0 hc1 x0 x1 xs0).2.1)

/-- In case C the store into the output block is a whole-block store, so it covers the block. -/
theorem cover3_C_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) (y : S512x768.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S512x768.size (by sl_kernel_rfl) y

/-- What case C leaves in the output block: the finished accumulator, as the pieces read back. -/
def out3_C_2 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) : Vec F S512x768 .f32 :=
  VO3_2.read (Elt F) (VO3_2.writes (Elt F) VO3_2.junk (kernelRun3_C c i arg1 harg1 arg2 harg2 arg3 harg3 arg4 harg4 hc0 hc1 x0 x1 xs0).1)

/-- In case C the one store into the accumulator is a whole-buffer store, so it covers it. -/
theorem scover3_C_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) (y : S512x768.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S512x768.size (by sl_kernel_rfl) y

/-- What case C leaves in the accumulator: what the point before left plus the last block's contribution. -/
def sout3_C_0 (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) : Vec F S512x768 .f32 :=
  VS3_0.read (Elt F) (VS3_0.writes (Elt F) VS3_0.junk (kernelRun3_C c i arg1 harg1 arg2 harg2 arg3 harg3 arg4 harg4 hc0 hc1 x0 x1 xs0).2.1)

/-! ## The accumulation, point by point -/

/-- What the output block's staging buffer and the accumulator hold after the body at position `n`
    (a pair: the output block, then the accumulator). Position 0 is case A on the first blocks. A
    later position is the case its index selects, run on that point's blocks with the accumulator
    at what position `n - 1` left: after position `n` the accumulator is the sum of the
    contributions of blocks `0 … n`. No position is both first and last. -/
def outsAt3 (c : Dev nD) : (n : ℕ) → n < cfg3.N → Vec F S512x768 .f32 × Vec F S512x768 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 25 = 0 then
      if h1 : (n + 1) % 25 = 24 then
        False.elim (by have hN : n + 1 < 25 := lt_of_lt_of_eq hn (show cfg3.N = 25 from N_3); omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 25 = 24 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- At the first point: case A's contents. -/
theorem outsAt3_A (c : Dev nD) (t : Fin cfg3.N) (h0 : t.val % 25 = 0) (h1 : ¬t.val % 25 = 24) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- At a middle point: case B's contents, over what the point before left in the accumulator. -/
theorem outsAt3_B (c : Dev nD) (t : Fin cfg3.N) (h0 : ¬t.val % 25 = 0) (h1 : ¬t.val % 25 = 24) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: case C's contents, over what the point before left in the accumulator. -/
theorem outsAt3_C (c : Dev nD) (t : Fin cfg3.N) (h0 : ¬t.val % 25 = 0) (h1 : t.val % 25 = 24) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`. Before the first point it is the entry invariant (the
    accumulator at anything). Afterwards the accumulator is owned at exactly what position `n - 1`
    left in it; the other scoped buffers stay unopened and the generator register is at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut spec3 c [cc3_scratch0]) ∗ (∃ r, prngReg c r)) := by
  cases n with
  | zero => exact absurd rfl hz
  | succ n => rfl

/-! ## The proof data -/

/-- The region's proof data on core `c`: the arrays as the region finds them; after the body at point
    `t` each input's buffer still holds its block and the output's buffer holds `outsAt3`'s first
    component; the invariant is `PhiS3`; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the entry contents. -/
theorem A_eq3 (c : Dev nD) (w : Fin cfg3.W) : (dat3 V c).A w = V c (Pipeline.arrRef spec3 w) := by
  dsimp only [dat3]

/-- The invariant at a point's start, restated at the point's index. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`: the invariant, what the core owes, and each window's
    current staging buffer at what it holds before the body. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- What it returns: the invariant at the next point, and each buffer at what the body leaves. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the point's index says which of
    the three cases it is in, and that case's run applies. The invariant lends the body the
    accumulator (at anything at the first point, at what the point before left otherwise) and takes
    it back at this point's contents, which the stored pieces determine because they cover the
    buffer; the other scoped buffers and the generator register pass through untouched. Where the
    output block is idle its buffer is handed back as it came; at the last point it is returned at
    the stored contents. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  by_cases h0 : t.val % 25 = 0
  · by_cases h1 : t.val % 25 = 24
    · exfalso; omega
    · -- the first point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _)
            iexact Hr
          iexact Hg
        isplitl [Ho]; · iexact Ho
        isplitl [H0]; · iexact H0
        isplitl [H1]; · iexact H1
        iexists _; iexact H2
      · exfalso; omega
  · by_cases h1 : t.val % 25 = 24
    · -- the last point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · -- a middle point
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the region -/

/-- The entry invariant is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry invariant back: the accumulator's named contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- In particular after the last point. -/
theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.BRun.lean ====
/-
  The kernel program's run, at any float instance: @main is three stretches of host operations, then a perceptron
  region, two stretches, a perceptron region, two stretches, a perceptron region, one stretch, the pooling region and
  three more stretches. Between two items a core's unscoped buffers are held whole at known contents: the launch memory
  pushed through the host operations so far, each region's output array at what the region's write-backs leave. Every
  weakly fair execution terminates, and the final memory holds the last boundary's contents; in particular the seven
  argument arrays end as launched.
-/
import proofs.«428382_j73890617360784_1_alg».proof.Proof.Gen.Kernel.Regions
import proofs.«428382_j73890617360784_1_alg».proof.Proof.BMlp0
import proofs.«428382_j73890617360784_1_alg».proof.Proof.BMlp1
import proofs.«428382_j73890617360784_1_alg».proof.Proof.BMlp2
import proofs.«428382_j73890617360784_1_alg».proof.Proof.BPool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at the boundaries after the first region

Up to the first region nothing depends on what a region leaves: the contents are the launch memory pushed through the
host operations. From there on each region's output array holds what the region's write-backs leave
(the pipeline's proof data read at the last point), and the host operations between the regions are applied to that. -/

/-- A valuation read at the TensorCore's references. -/
abbrev tcOf (W : Dev nD → Valuation τ sig (Elt F)) : (c : Dev nD) → (b : Ref sig .tc) → Buf (Elt F) ((c : Thread nD τ).loc b) :=
  fun c b => W c b

/-- What the first perceptron region leaves in its output array. -/
def o4 (c : Dev nD) : Buf (Elt F) ((c : Thread nD τ).loc main_v19) := (dat0 (tcOf (V3 m)) c).arrAt 5 cfg0.N
/-- After the first region. -/
def W4 (c : Dev nD) : Valuation τ sig (Elt F) := Function.update (V3 m c) main_v19 (o4 m c)
/-- After the host operations up to the second region. -/
def W5 (c : Dev nD) : Valuation τ sig (Elt F) := StableHlo.after hostOps1 (W4 m c)
def W6 (c : Dev nD) : Valuation τ sig (Elt F) := StableHlo.after hostOps1_1 (W5 m c)
/-- What the second perceptron region leaves in its output array. -/
def o7 (c : Dev nD) : Buf (Elt F) ((c : Thread nD τ).loc main_v35) := (dat1 (tcOf (W6 m)) c).arrAt 5 cfg1.N
def W7 (c : Dev nD) : Valuation τ sig (Elt F) := Function.update (W6 m c) main_v35 (o7 m c)
def W8 (c : Dev nD) : Valuation τ sig (Elt F) := StableHlo.after hostOps2 (W7 m c)
def W9 (c : Dev nD) : Valuation τ sig (Elt F) := StableHlo.after hostOps2_1 (W8 m c)
/-- What the third perceptron region leaves in its output array. -/
def o10 (c : Dev nD) : Buf (Elt F) ((c : Thread nD τ).loc main_v51) := (dat2 (tcOf (W9 m)) c).arrAt 5 cfg2.N
def W10 (c : Dev nD) : Valuation τ sig (Elt F) := Function.update (W9 m c) main_v51 (o10 m c)
def W11 (c : Dev nD) : Valuation τ sig (Elt F) := StableHlo.after hostOps3 (W10 m c)
/-- What the pooling region leaves in its output array. -/
def o12 (c : Dev nD) : Buf (Elt F) ((c : Thread nD τ).loc main_v54) := (dat3 (tcOf (W11 m)) c).arrAt 2 cfg3.N
def W12 (c : Dev nD) : Valuation τ sig (Elt F) := Function.update (W11 m c) main_v54 (o12 m c)

/-- The contents the regions leave, as the conditional frame's unknowns: after item J−1 the buffers hold boundary J's
    contents. -/
def outs : Outs (F := F) := fun n r c =>
  match n with
  | 4 => W4 m c r
  | 7 => W7 m c r
  | 10 => W10 m c r
  | 12 => W12 m c r
  | _ => V0 m c r

theorem V4_eq (c : Dev nD) : V4 m (outs m) c = W4 m c := by
  show Function.update (V3 m c) main_v19 (W4 m c main_v19) = W4 m c
  unfold W4; rw [Function.update_self]
theorem V5_eq (c : Dev nD) : V5 m (outs m) c = W5 m c := by
  show StableHlo.after hostOps1 (V4 m (outs m) c) = _; rw [V4_eq]; rfl
theorem V6_eq (c : Dev nD) : V6 m (outs m) c = W6 m c := by
  show StableHlo.after hostOps1_1 (V5 m (outs m) c) = _; rw [V5_eq]; rfl
theorem V7_eq (c : Dev nD) : V7 m (outs m) c = W7 m c := by
  show Function.update (V6 m (outs m) c) main_v35 (W7 m c main_v35) = W7 m c
  rw [V6_eq]; unfold W7; rw [Function.update_self]
theorem V8_eq (c : Dev nD) : V8 m (outs m) c = W8 m c := by
  show StableHlo.after hostOps2 (V7 m (outs m) c) = _; rw [V7_eq]; rfl
theorem V9_eq (c : Dev nD) : V9 m (outs m) c = W9 m c := by
  show StableHlo.after hostOps2_1 (V8 m (outs m) c) = _; rw [V8_eq]; rfl
theorem V10_eq (c : Dev nD) : V10 m (outs m) c = W10 m c := by
  show Function.update (V9 m (outs m) c) main_v51 (W10 m c main_v51) = W10 m c
  rw [V9_eq]; unfold W10; rw [Function.update_self]
theorem V11_eq (c : Dev nD) : V11 m (outs m) c = W11 m c := by
  show StableHlo.after hostOps3 (V10 m (outs m) c) = _; rw [V10_eq]; rfl
theorem V12_eq (c : Dev nD) : V12 m (outs m) c = W12 m c := by
  show Function.update (V11 m (outs m) c) main_v54 (W12 m c main_v54) = W12 m c
  rw [V11_eq]; unfold W12; rw [Function.update_self]

/-! ## Each region's arrays at its exit -/

theorem W4_of_ne (c : Dev nD) (b : Ref sig .tc) (hb : b ≠ main_v19) : W4 m c b = V3 m c b := by
  unfold W4; exact Function.update_of_ne (StableHlo.devRef_ne_of_ne hb) _ _
theorem W4_self (c : Dev nD) : W4 m c main_v19 = o4 m c := by
  unfold W4; exact Function.update_self _ _ _
set_option maxHeartbeats 4000000 in
theorem hF0 (c : Dev nD) (w : Fin cfg0.W) : (dat0 (tcOf (V3 m)) c).arrAt w cfg0.N = tcOf (W4 m) c (Pipeline.arrRef spec0 w) := by
  match w with
  | ⟨0, _⟩ => exact ((dat0 (tcOf (V3 m)) c).arrAt_in 0 rfl _).trans ((A_eq0 _ c 0).trans (W4_of_ne m c _ (show (Pipeline.arrRef spec0 0 : Ref sig .tc) ≠ main_v19 by decide)).symm)
  | ⟨1, _⟩ => exact ((dat0 (tcOf (V3 m)) c).arrAt_in 1 rfl _).trans ((A_eq0 _ c 1).trans (W4_of_ne m c _ (show (Pipeline.arrRef spec0 1 : Ref sig .tc) ≠ main_v19 by decide)).symm)
  | ⟨2, _⟩ => exact ((dat0 (tcOf (V3 m)) c).arrAt_in 2 rfl _).trans ((A_eq0 _ c 2).trans (W4_of_ne m c _ (show (Pipeline.arrRef spec0 2 : Ref sig .tc) ≠ main_v19 by decide)).symm)
  | ⟨3, _⟩ => exact ((dat0 (tcOf (V3 m)) c).arrAt_in 3 rfl _).trans ((A_eq0 _ c 3).trans (W4_of_ne m c _ (show (Pipeline.arrRef spec0 3 : Ref sig .tc) ≠ main_v19 by decide)).symm)
  | ⟨4, _⟩ => exact ((dat0 (tcOf (V3 m)) c).arrAt_in 4 rfl _).trans ((A_eq0 _ c 4).trans (W4_of_ne m c _ (show (Pipeline.arrRef spec0 4 : Ref sig .tc) ≠ main_v19 by decide)).symm)
  | ⟨5, _⟩ => exact (W4_self m c).symm
theorem hrest0 (c : Dev nD) : ∀ b, b ∉ Finset.univ.image (Pipeline.arrRef spec0) → tcOf (W4 m) c b = tcOf (V3 m) c b :=
  fun b hb => W4_of_ne m c b (fun h => hb (by rw [h]; exact Finset.mem_image.mpr ⟨5, Finset.mem_univ _, rfl⟩))

theorem W7_of_ne (c : Dev nD) (b : Ref sig .tc) (hb : b ≠ main_v35) : W7 m c b = W6 m c b := by
  unfold W7; exact Function.update_of_ne (StableHlo.devRef_ne_of_ne hb) _ _
theorem W7_self (c : Dev nD) : W7 m c main_v35 = o7 m c := by
  unfold W7; exact Function.update_self _ _ _
set_option maxHeartbeats 4000000 in
theorem hF1 (c : Dev nD) (w : Fin cfg1.W) : (dat1 (tcOf (W6 m)) c).arrAt w cfg1.N = tcOf (W7 m) c (Pipeline.arrRef spec1 w) := by
  match w with
  | ⟨0, _⟩ => exact ((dat1 (tcOf (W6 m)) c).arrAt_in 0 rfl _).trans ((A_eq1 _ c 0).trans (W7_of_ne m c _ (show (Pipeline.arrRef spec1 0 : Ref sig .tc) ≠ main_v35 by decide)).symm)
  | ⟨1, _⟩ => exact ((dat1 (tcOf (W6 m)) c).arrAt_in 1 rfl _).trans ((A_eq1 _ c 1).trans (W7_of_ne m c _ (show (Pipeline.arrRef spec1 1 : Ref sig .tc) ≠ main_v35 by decide)).symm)
  | ⟨2, _⟩ => exact ((dat1 (tcOf (W6 m)) c).arrAt_in 2 rfl _).trans ((A_eq1 _ c 2).trans (W7_of_ne m c _ (show (Pipeline.arrRef spec1 2 : Ref sig .tc) ≠ main_v35 by decide)).symm)
  | ⟨3, _⟩ => exact ((dat1 (tcOf (W6 m)) c).arrAt_in 3 rfl _).trans ((A_eq1 _ c 3).trans (W7_of_ne m c _ (show (Pipeline.arrRef spec1 3 : Ref sig .tc) ≠ main_v35 by decide)).symm)
  | ⟨4, _⟩ => exact ((dat1 (tcOf (W6 m)) c).arrAt_in 4 rfl _).trans ((A_eq1 _ c 4).trans (W7_of_ne m c _ (show (Pipeline.arrRef spec1 4 : Ref sig .tc) ≠ main_v35 by decide)).symm)
  | ⟨5, _⟩ => exact (W7_self m c).symm
theorem hrest1 (c : Dev nD) : ∀ b, b ∉ Finset.univ.image (Pipeline.arrRef spec1) → tcOf (W7 m) c b = tcOf (W6 m) c b :=
  fun b hb => W7_of_ne m c b (fun h => hb (by rw [h]; exact Finset.mem_image.mpr ⟨5, Finset.mem_univ _, rfl⟩))

theorem W10_of_ne (c : Dev nD) (b : Ref sig .tc) (hb : b ≠ main_v51) : W10 m c b = W9 m c b := by
  unfold W10; exact Function.update_of_ne (StableHlo.devRef_ne_of_ne hb) _ _
theorem W10_self (c : Dev nD) : W10 m c main_v51 = o10 m c := by
  unfold W10; exact Function.update_self _ _ _
set_option maxHeartbeats 4000000 in
theorem hF2 (c : Dev nD) (w : Fin cfg2.W) : (dat2 (tcOf (W9 m)) c).arrAt w cfg2.N = tcOf (W10 m) c (Pipeline.arrRef spec2 w) := by
  match w with
  | ⟨0, _⟩ => exact ((dat2 (tcOf (W9 m)) c).arrAt_in 0 rfl _).trans ((A_eq2 _ c 0).trans (W10_of_ne m c _ (show (Pipeline.arrRef spec2 0 : Ref sig .tc) ≠ main_v51 by decide)).symm)
  | ⟨1, _⟩ => exact ((dat2 (tcOf (W9 m)) c).arrAt_in 1 rfl _).trans ((A_eq2 _ c 1).trans (W10_of_ne m c _ (show (Pipeline.arrRef spec2 1 : Ref sig .tc) ≠ main_v51 by decide)).symm)
  | ⟨2, _⟩ => exact ((dat2 (tcOf (W9 m)) c).arrAt_in 2 rfl _).trans ((A_eq2 _ c 2).trans (W10_of_ne m c _ (show (Pipeline.arrRef spec2 2 : Ref sig .tc) ≠ main_v51 by decide)).symm)
  | ⟨3, _⟩ => exact ((dat2 (tcOf (W9 m)) c).arrAt_in 3 rfl _).trans ((A_eq2 _ c 3).trans (W10_of_ne m c _ (show (Pipeline.arrRef spec2 3 : Ref sig .tc) ≠ main_v51 by decide)).symm)
  | ⟨4, _⟩ => exact ((dat2 (tcOf (W9 m)) c).arrAt_in 4 rfl _).trans ((A_eq2 _ c 4).trans (W10_of_ne m c _ (show (Pipeline.arrRef spec2 4 : Ref sig .tc) ≠ main_v51 by decide)).symm)
  | ⟨5, _⟩ => exact (W10_self m c).symm
theorem hrest2 (c : Dev nD) : ∀ b, b ∉ Finset.univ.image (Pipeline.arrRef spec2) → tcOf (W10 m) c b = tcOf (W9 m) c b :=
  fun b hb => W10_of_ne m c b (fun h => hb (by rw [h]; exact Finset.mem_image.mpr ⟨5, Finset.mem_univ _, rfl⟩))

theorem W12_of_ne (c : Dev nD) (b : Ref sig .tc) (hb : b ≠ main_v54) : W12 m c b = W11 m c b := by
  unfold W12; exact Function.update_of_ne (StableHlo.devRef_ne_of_ne hb) _ _
theorem W12_self (c : Dev nD) : W12 m c main_v54 = o12 m c := by
  unfold W12; exact Function.update_self _ _ _
set_option maxHeartbeats 4000000 in
theorem hF3 (c : Dev nD) (w : Fin cfg3.W) : (dat3 (tcOf (W11 m)) c).arrAt w cfg3.N = tcOf (W12 m) c (Pipeline.arrRef spec3 w) := by
  match w with
  | ⟨0, _⟩ => exact ((dat3 (tcOf (W11 m)) c).arrAt_in 0 rfl _).trans ((A_eq3 _ c 0).trans (W12_of_ne m c _ (show (Pipeline.arrRef spec3 0 : Ref sig .tc) ≠ main_v54 by decide)).symm)
  | ⟨1, _⟩ => exact ((dat3 (tcOf (W11 m)) c).arrAt_in 1 rfl _).trans ((A_eq3 _ c 1).trans (W12_of_ne m c _ (show (Pipeline.arrRef spec3 1 : Ref sig .tc) ≠ main_v54 by decide)).symm)
  | ⟨2, _⟩ => exact (W12_self m c).symm
theorem hrest3 (c : Dev nD) : ∀ b, b ∉ Finset.univ.image (Pipeline.arrRef spec3) → tcOf (W12 m) c b = tcOf (W11 m) c b :=
  fun b hb => W12_of_ne m c b (fun h => hb (by rw [h]; exact Finset.mem_image.mpr ⟨2, Finset.mem_univ _, rfl⟩))

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (tcOf (V3 m)) c
  | ⟨1, _⟩ => fun c => dat1 (tcOf (W6 m)) c
  | ⟨2, _⟩ => fun c => dat2 (tcOf (W9 m)) c
  | ⟨3, _⟩ => fun c => dat3 (tcOf (W11 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The same beside every boundary. -/
abbrev E : Fin 5 → Dev nD → sProp 𝕄 := fun _ c => R c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-! ## The regions as segments -/

-- unification of the library's statements over the pinned configuration with the printed one unfolds plain definitions
set_option backward.isDefEq.respectTransparency.types false in
/-- Region 0 over the thread state "every unscoped buffer at the boundary's contents, the generator register at some
    state, nothing owed": its arrays are split out of the unscoped buffers at entry and put back, the output's at what
    the write-backs leave, at exit. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcOf (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (tcOf (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcOf (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcOf (V3 m) c) (tcOf (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 1 over the thread state "every unscoped buffer at the boundary's contents, the generator register at some
    state, nothing owed": its arrays are split out of the unscoped buffers at entry and put back, the output's at what
    the write-backs leave, at exit. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcOf (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (tcOf (W6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcOf (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcOf (W6 m) c) (tcOf (W7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 2 over the thread state "every unscoped buffer at the boundary's contents, the generator register at some
    state, nothing owed": its arrays are split out of the unscoped buffers at entry and put back, the output's at what
    the write-backs leave, at exit. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcOf (W9 m)) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (tcOf (W9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcOf (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcOf (W9 m) c) (tcOf (W10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over the pinned configuration with the printed one unfolds plain definitions
set_option backward.isDefEq.respectTransparency.types false in
/-- Region 3 over the thread state "every unscoped buffer at the boundary's contents, the generator register at some
    state, nothing owed": its arrays are split out of the unscoped buffers at entry and put back, the output's at what
    the write-backs leave, at exit. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcOf (W11 m)) c).loose
  hwaits := Pipeline.hwaits_of_owed_zero _ _ _ _ L lv 3 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec3 c (tcOf (W11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcOf (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (tcOf (W11 m)) c
    unfold Pipeline.ΦA at h3
    rw [show (pdats m 3 c).Φ 0 = (dat3 (tcOf (W11 m)) c).Φ 0 from rfl]
    iintro ⟨Hp, -, Hr⟩
    iapply h3
    isplitl [Hr]; · iexact Hr
    iexact Hp
  hout c := by
    have h3 := hout3 (tcOf (W11 m)) c
    unfold Pipeline.ΦA at h3
    rw [Pipeline.ownSems0_none, show (pdats m 3 c).Φ (Fin.last _) = (dat3 (tcOf (W11 m)) c).Φ (Fin.last cfg3.N) from rfl]
    iintro HΦ
    ihave H := h3 $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcOf (W11 m) c) (tcOf (W12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' thread states meet the host segments' -/

theorem hpre0 (c : Dev nD) : iprop(StableHlo.held (c : Thread nD τ) (Pipeline.ucRefs τ sig) (V3 m c) ∗ E (F := F) 0 c) ⊢ (reg0 m).pre c := .rfl
theorem hpost0 (c : Dev nD) : (reg0 m).post c ⊢ iprop(StableHlo.held (c : Thread nD τ) (Pipeline.ucRefs τ sig) (V4 m (outs m) c) ∗ E (F := F) 1 c) := by
  rw [V4_eq m c]; exact .rfl
theorem hpre1 (c : Dev nD) : iprop(StableHlo.held (c : Thread nD τ) (Pipeline.ucRefs τ sig) (V6 m (outs m) c) ∗ E (F := F) 1 c) ⊢ (reg1 m).pre c := by
  rw [V6_eq m c]; exact .rfl
theorem hpost1 (c : Dev nD) : (reg1 m).post c ⊢ iprop(StableHlo.held (c : Thread nD τ) (Pipeline.ucRefs τ sig) (V7 m (outs m) c) ∗ E (F := F) 2 c) := by
  rw [V7_eq m c]; exact .rfl
theorem hpre2 (c : Dev nD) : iprop(StableHlo.held (c : Thread nD τ) (Pipeline.ucRefs τ sig) (V9 m (outs m) c) ∗ E (F := F) 2 c) ⊢ (reg2 m).pre c := by
  rw [V9_eq m c]; exact .rfl
theorem hpost2 (c : Dev nD) : (reg2 m).post c ⊢ iprop(StableHlo.held (c : Thread nD τ) (Pipeline.ucRefs τ sig) (V10 m (outs m) c) ∗ E (F := F) 3 c) := by
  rw [V10_eq m c]; exact .rfl
theorem hpre3 (c : Dev nD) : iprop(StableHlo.held (c : Thread nD τ) (Pipeline.ucRefs τ sig) (V11 m (outs m) c) ∗ E (F := F) 3 c) ⊢ (reg3 m).pre c := by
  rw [V11_eq m c]; exact .rfl
theorem hpost3 (c : Dev nD) : (reg3 m).post c ⊢ iprop(StableHlo.held (c : Thread nD τ) (Pipeline.ucRefs τ sig) (V12 m (outs m) c) ∗ E (F := F) 4 c) := by
  rw [V12_eq m c]; exact .rfl

/-! ## The run -/

-- the launch theorem's implicit arguments are found by unifying its conclusion with this one, which takes unfolding plain
-- definitions in a metavariable's type
set_option backward.isDefEq.respectTransparency.types false in
/-- From any memory with zero counters every weakly fair execution of @main terminates, and every final memory holds
    each unscoped buffer at the last boundary's contents: the launch memory pushed through the host operations and
    the four regions' write-backs. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V15 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V15 m (outs m) c))
    (hch := fun c => ⟨.rfl, .rfl, .rfl, hpre0 m c, hpost0 m c, .rfl, hpre1 m c, hpost1 m c, .rfl, hpre2 m c, hpost2 m c, hpre3 m c, hpost3 m c, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨Hh, HSI⟩
      unfold StableHlo.held
      imodintro
      iapply (pointsTo_read_all (Pipeline.ucRefs τ sig) (fun b => (((c : Thread nD τ)).1, b)) (V15 m (outs m) c) s')
      isplitl [Hh] <;> iassumption)
    (hQ := fun s h => h)

/-- THE FRAME at any instance: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (V15_main_arg0 m (outs m) c),
      (h c _ (mem_uc main_arg1 (by decide))).trans (V15_main_arg1 m (outs m) c),
      (h c _ (mem_uc main_arg2 (by decide))).trans (V15_main_arg2 m (outs m) c),
      (h c _ (mem_uc main_arg3 (by decide))).trans (V15_main_arg3 m (outs m) c),
      (h c _ (mem_uc main_arg4 (by decide))).trans (V15_main_arg4 m (outs m) c),
      (h c _ (mem_uc main_arg5 (by decide))).trans (V15_main_arg5 m (outs m) c),
      (h c _ (mem_uc main_arg6 (by decide))).trans (V15_main_arg6 m (outs m) c)⟩) (run_all m ρ)

end Cert.Kernel.Hand

end
-- ==== Proof.TakeValue.lean ====
/-
  The row gather of the graph layers. The kernel takes rows of the feature table with wrapped indices:
  every index is wrapped once (a negative index has the table's height added), the wrapped column is
  gathered (the gather clamps each start index into the table), and every row whose wrapped index is still
  outside [0, 49999] is replaced by a fill word. Under the statement's precondition each index of row 0 of
  the edge list lies in [-50000, 50000), so every wrapped index lies in [0, 49999], the mask of the
  replacement is all ones, and the take IS the plain gather of the wrapped column.
-/
import proofs.«428382_j73890617360784_1_alg».proof.KernelIdeal
import proofs.«428382_j73890617360784_1_alg».proof.Pre_finite_inputs
import proofs.«428382_j73890617360784_1_alg».proof.Defs
import proofs.«428382_j73890617360784_1_alg».proof.Proof.Gen.KernelIdeal
import proofs.«428382_j73890617360784_1_alg».proof.Proof.Gen.Pre_finite_inputs
import Idealize.ShloMosaic.Lib.ValueIdx
import Idealize.ShloMosaic.Lib.StableHlo.Predicate
import Idealize.ShloMosaic.Lib.ReduceAll

noncomputable section

namespace Cert.KernelIdeal.HandV

open Idealize.ShloMosaic Idealize.SL.Sem Idealize.ShloMosaic.ValueIdx
open Cert.KernelIdeal
open Cert.KernelIdeal.Facts₀ Cert.KernelIdeal.Facts

/-! ## The operations -/

/-- row 0 of the edge list as the programs read it -/
abbrev srcRow (ei : IVec S2x800000 32) : IVec S800000 32 :=
  shapeCast S800000 (extractStridedSlice S1x800000 ![0, 0] ei slices_S2x800000_S1x800000_0_0) shapeCasts_S1x800000_S800000

/-- the wrapped index column: s < 0 ? s + 50000 : s, as an [800000, 1] column -/
abbrev wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- the kernel's take: the gather of the wrapped column, rows out of range replaced by the fill word -/
abbrev takeSel {F : FTy → Type} [FloatOps F] (x : FVec F S50000x256 .f32) (s : IVec S800000 32) : FVec F S800000x256 .f32 :=
  select (broadcastInDim S800000x256 ![0] bcast_S800000_S800000x256_0
      (Host.reduce IntOp.andi
        (andi (cmpi .sge (wrapCol s) (broadcastInDim S800000x1 ![] bcast_S_S800000x1 (constantI S_ 32 0#32)))
          (cmpi .sle (wrapCol s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x256_S800000x1_S800000x256_1_0_n_n_0_1_1256 x (wrapCol s))
    (broadcastInDim S800000x256 ![] bcast_S_S800000x256 (constant S_ .f32 0x7FC00000#32))

/-! ## One index wrapped -/

/-- one index wrapped: v < 0 ? v + 50000 : v -/
abbrev wrapWord (v : BitVec 32) : BitVec 32 :=
  Scalar.select (IntOp.cmpi .slt v 0#32) (IntOp.addi v 50000#32) v

/-- An entry of the wrapped column is the wrap of an entry of the index vector. -/
theorem wrapCol_apply (s : IVec S800000 32) (i : S800000x1.Idx) : ∃ r : S800000.Idx, wrapCol s i = wrapWord (s r) :=
  ⟨_, rfl⟩

/-- An index in [-50000, 50000) wraps into [0, 49999]. -/
theorem wrapWord_range (v : BitVec 32) (h0 : -50000 ≤ v.toInt) (h1 : v.toInt < 50000) :
    0 ≤ (wrapWord v).toInt ∧ (wrapWord v).toInt ≤ 49999 := by
  have hz : (0#32 : BitVec 32).toInt = 0 := by decide
  by_cases hneg : v.toInt < 0
  · -- a negative index has the table's height added: no wrap-around of the word, the sum is in [0, 49999]
    have hc : IntOp.cmpi .slt v 0#32 = 1#1 := IntOp.cmpi_slt.mpr (by rw [hz]; exact hneg)
    have hw : wrapWord v = v + 50000#32 := by
      show Scalar.select (IntOp.cmpi .slt v 0#32) (IntOp.addi v 50000#32) v = _
      rw [hc]; exact select_one _ _
    have hk : (50000#32 : BitVec 32).toInt = 50000 := by decide
    have hsum : (v + 50000#32).toInt = v.toInt + 50000 := by
      rw [BitVec.toInt_add, hk]
      exact Int.bmod_eq_of_le_mul_two (by omega) (by omega)
    rw [hw, hsum]; omega
  · -- a non-negative index is kept
    have hc : IntOp.cmpi .slt v 0#32 = 0#1 :=
      eq_zero_of_ne_one (fun h => hneg (by have := IntOp.cmpi_slt.mp h; rw [hz] at this; exact this))
    have hw : wrapWord v = v := by
      show Scalar.select (IntOp.cmpi .slt v 0#32) (IntOp.addi v 50000#32) v = _
      rw [hc]; exact select_zero _ _
    rw [hw]; omega

/-- The wrapped column at row e is the wrap of the index vector's entry e. -/
theorem wrapCol_ix (s : IVec S800000 32) (e : Fin 800000) :
    wrapCol s (ix2 e (0 : Fin 1)) = wrapWord (s (ix1 e)) := by
  have h1 : (ix2 e (0 : Fin 1) : S800000x1.Idx) = StableHlo.Predicate.ixP e := by
    funext a; match a with | ⟨0, _⟩ => rfl | ⟨1, _⟩ => rfl
  have h2 : (Shape.Idx.ofFin e : S800000.Idx) = ix1 e := by
    funext a; match a with | ⟨0, _⟩ => rfl
  rw [h1]
  refine (StableHlo.Predicate.bcast_col1 bcast_S800000_S800000x1_0 _ e).trans ?_
  rw [h2]
  rfl

/-! ## A conjunction of ones -/

/-- A reduction by "and" of a mask that is one everywhere, from one, is one. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  unfold Host.reduce
  rw [hi]
  generalize (List.finRange s.numel).filter (fun n => h.drop (s.rowMajor.symm n) = j) = l
  induction l with
  | nil => rfl
  | cons a l ih => rw [List.foldl_cons, hx]; exact ih

/-! ## The take is the gather -/

theorem take_eq {F : FTy → Type} [FloatOps F] (x : FVec F S50000x256 .f32) (s : IVec S800000 32)
    (hs : ∀ e : Fin 800000, -50000 ≤ (s (ix1 e)).toInt ∧ (s (ix1 e)).toInt < 50000) :
    takeSel x s = Host.gather gather_S50000x256_S800000x1_S800000x256_1_0_n_n_0_1_1256 x (wrapCol s) := by
  -- every entry of the index vector is in range
  have hall : ∀ r : S800000.Idx, -50000 ≤ (s r).toInt ∧ (s r).toInt < 50000 := fun r => by
    rw [eq_ix1 r]; exact hs (r 0)
  -- so every entry of the wrapped column passes both comparisons
  have hmask : ∀ i : S800000x1.Idx,
      (andi (cmpi .sge (wrapCol s) (broadcastInDim S800000x1 ![] bcast_S_S800000x1 (constantI S_ 32 0#32)))
        (cmpi .sle (wrapCol s) (broadcastInDim S800000x1 ![0, 1] bcast_S1x1_S800000x1_0_1
          (broadcastInDim S1x1 ![1] bcast_S1_S1x1_1 (constantI S1 32 49999#32))))) i = 1#1 := by
    intro i
    obtain ⟨r, hr⟩ := wrapCol_apply s i
    obtain ⟨hlo, hhi⟩ := wrapWord_range (s r) (hall r).1 (hall r).2
    show IntOp.andi (IntOp.cmpi .sge (wrapCol s i) 0#32) (IntOp.cmpi .sle (wrapCol s i) 49999#32) = 1#1
    rw [hr]
    have hz : (0#32 : BitVec 32).toInt = 0 := by decide
    have hk : (49999#32 : BitVec 32).toInt = 49999 := by decide
    exact IntOp.andi_eq_one.mpr ⟨IntOp.cmpi_sge.mpr (by rw [hz]; exact hlo), IntOp.cmpi_sle.mpr (by rw [hk]; exact hhi)⟩
  funext j
  refine (select_apply _ _ _ j).trans ?_
  have hm : (broadcastInDim S800000x256 ![0] bcast_S800000_S800000x256_0
      (Host.reduce IntOp.andi
        (andi (cmpi .sge (wrapCol s) (broadcastInDim S800000x1 ![] bcast_S_S800000x1 (constantI S_ 32 0#32)))
          (cmpi .sle (wrapCol s) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_)) j = 1#1 :=
    reduce_andi_of_all _ _ _ _ _ hmask rfl
  rw [hm]
  exact select_one _ _

/-! ## The precondition read at row 0 of the edge list -/

/-- The two integer conjuncts of the precondition, at one entry of row 0 of the edge list: the conjunction is
    split, each "all" gives its comparison at the entry, and a signed comparison that is one orders the words
    as integers. -/
theorem src_range_of_fn {F : FTy → Type} [FloatOps F] (a0 : FVec F Cert.Pre_finite_inputs.S50000x256 .f32) (a1 : IVec S2x800000 32)
    (a2 : IVec Cert.Pre_finite_inputs.S50000 32) (a3 : FVec F Cert.Pre_finite_inputs.S3x256x256 .f32)
    (a4 : FVec F Cert.Pre_finite_inputs.S3x256 .f32) (a5 : FVec F Cert.Pre_finite_inputs.S3x256x256 .f32)
    (a6 : FVec F Cert.Pre_finite_inputs.S3x256 .f32)
    (h : Cert.Pre_finite_inputs.fn (F := F) a0 a1 a2 a3 a4 a5 a6 = fun _ => 1#1) (e : Fin 800000) :
    -50000 ≤ (srcRow a1 (ix1 e)).toInt ∧ (srcRow a1 (ix1 e)).toInt < 50000 := by
  haveI : Subsingleton Cert.Pre_finite_inputs.S_.Idx := ⟨fun a b => funext fun d => d.elim0⟩
  have e0 := congrFun h ix0
  dsimp only [Cert.Pre_finite_inputs.fn, Cert.Pre_finite_inputs.fn_part1, Cert.Pre_finite_inputs.fn_part2] at e0
  obtain ⟨e1, h34⟩ := IntOp.andi_eq_one.mp e0
  obtain ⟨-, h28⟩ := IntOp.andi_eq_one.mp e1
  have hge := Host.reduce_andi_all _ _ _ _ _ h28 (ix1 e)
  have hlt := Host.reduce_andi_all _ _ _ _ _ h34 (ix1 e)
  have hlo : (4294917296#32 : BitVec 32).toInt ≤ (srcRow a1 (ix1 e)).toInt := IntOp.cmpi_sge.mp hge
  have hhi : (srcRow a1 (ix1 e)).toInt < (50000#32 : BitVec 32).toInt := IntOp.cmpi_slt.mp hlt
  have hk0 : (4294917296#32 : BitVec 32).toInt = -50000 := by decide
  have hk1 : (50000#32 : BitVec 32).toInt = 50000 := by decide
  rw [hk0] at hlo; rw [hk1] at hhi
  exact ⟨hlo, hhi⟩

theorem src_range_of_pre (m : (ℓ : Loc nD τ sig) → Buf (Elt Ideal) ℓ) (hpre : Cert.Pre_KernelIdeal m) (c : Dev nD) (e : Fin 800000) :
    -50000 ≤ (srcRow (m ((c.tc : Thread nD τ).loc main_arg1)) (ix1 e)).toInt
      ∧ (srcRow (m ((c.tc : Thread nD τ).loc main_arg1)) (ix1 e)).toInt < 50000 :=
  src_range_of_fn (F := Ideal) _ _ _ _ _ _ _ (hpre c) e

end Cert.KernelIdeal.HandV

end
-- ==== Proof.Spec.lean ====
/-
  The two kernels' results as functions of whole arrays, entry by entry over the extended reals.

  * One graph layer's dense part: for a table `a` of 50000 rows of 256 features, weights `w1`, `w2` (256 by 256) and
    bias rows `b1`, `b2` (1 by 256), row `r`, column `l` of the result is
    `max (Σ_k max (Σ_j a[r,j]·w1[j,k] + b1[0,k]) 0 · w2[k,l] + b2[0,l]) 0`.
  * The pooled sum: for a table `x` of 50000 rows of 768 features and a column `g` of 50000 graph ids (32-bit words read
    as signed integers), entry `(v, d)` is the sum of `x[n, d]` over the rows `n` whose id is `v`; a row whose id is
    outside `[0, 512)` meets no `v` and is dropped.
-/
import Idealize.ShloMosaic.Lib.ValueIdx
import Idealize.ShloMosaic.PureOps.Ideal.Laws

noncomputable section

namespace Cert.Spec

open Idealize.ShloMosaic Idealize.ShloMosaic.ValueIdx
open scoped BigOperators

/-- Entry `(r, l)` of the two-layer perceptron with rectifiers applied to the rows of `a`. -/
def mlpAt (a : (⟨2, ![50000, 256]⟩ : Shape).Idx → EReal) (w1 : (⟨2, ![256, 256]⟩ : Shape).Idx → EReal)
    (b1 : (⟨2, ![1, 256]⟩ : Shape).Idx → EReal) (w2 : (⟨2, ![256, 256]⟩ : Shape).Idx → EReal)
    (b2 : (⟨2, ![1, 256]⟩ : Shape).Idx → EReal) (r : Fin 50000) (l : Fin 256) : EReal :=
  max ((∑ k : Fin 256, max ((∑ j : Fin 256, a (ix2 r j) * w1 (ix2 j k)) + b1 (ix2 0 k)) 0 * w2 (ix2 k l)) + b2 (ix2 0 l)) 0

/-- The perceptron's result as one array. -/
def mlpG (a : (⟨2, ![50000, 256]⟩ : Shape).Idx → EReal) (w1 : (⟨2, ![256, 256]⟩ : Shape).Idx → EReal)
    (b1 : (⟨2, ![1, 256]⟩ : Shape).Idx → EReal) (w2 : (⟨2, ![256, 256]⟩ : Shape).Idx → EReal)
    (b2 : (⟨2, ![1, 256]⟩ : Shape).Idx → EReal) : (⟨2, ![50000, 256]⟩ : Shape).Idx → EReal :=
  fun i => mlpAt a w1 b1 w2 b2 (i 0) (i 1)

/-- Entry `(v, d)` of the pooled sum: the rows of `x` whose graph id is `v`, added up. -/
def poolAt (x : (⟨2, ![50000, 768]⟩ : Shape).Idx → EReal) (g : (⟨2, ![50000, 1]⟩ : Shape).Idx → BitVec 32)
    (v : Fin 512) (d : Fin 768) : EReal :=
  ∑ n : Fin 50000, if (g (ix2 n 0)).toInt = (v.val : ℤ) then x (ix2 n d) else 0

/-- The pooled sum as one array. -/
def poolG (x : (⟨2, ![50000, 768]⟩ : Shape).Idx → EReal) (g : (⟨2, ![50000, 1]⟩ : Shape).Idx → BitVec 32) :
    (⟨2, ![512, 768]⟩ : Shape).Idx → EReal :=
  fun i => poolAt x g (i 0) (i 1)

end Cert.Spec

end
-- ==== Proof.Model.lean ====
/-
  The two results of the graph network as functions of the seven argument arrays, over the extended reals.

  A layer adds to every node's row the rows of its in-neighbours (the rows are taken at the wrapped source indices and
  summed into the destination rows), then applies a two-layer perceptron with rectifiers to every row. Three layers are
  stacked; the node result is their outputs side by side. The graph result is, for every graph id, the sum of the node
  result's rows carrying that id, divided by the number of such rows (at least one).
-/
import proofs.«428382_j73890617360784_1_alg».proof.Proof.TakeValue
import proofs.«428382_j73890617360784_1_alg».proof.Proof.Spec

noncomputable section

namespace Cert.KernelIdeal.HandV

open Idealize.ShloMosaic Idealize.SL.Sem Idealize.ShloMosaic.ValueIdx
open Cert.KernelIdeal
open Cert.KernelIdeal.Facts₀ Cert.KernelIdeal.Facts

/-- Row 1 of the edge list, the destination rows, as an [800000, 1] column of start indices. -/
abbrev dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- A table plus, in each row, the sum of the rows of its in-neighbours. -/
def agg (h : FVec Ideal S50000x256 .f32) (ei : IVec S2x800000 32) : FVec Ideal S50000x256 .f32 :=
  addf h (Host.scatterAdd scatter_S50000x256_S800000x1_S800000x256_1_0_0_1
    (broadcastInDim S50000x256 ![] bcast_S_S50000x256 (constant S_ .f32 0x00000000#32)) (dstCol ei)
    (Host.gather gather_S50000x256_S800000x1_S800000x256_1_0_n_n_0_1_1256 h (wrapCol (srcRow ei))))

/-- Layer k's weight matrix out of a stack of three. -/
abbrev wA0 (x : FVec Ideal S3x256x256 .f32) : FVec Ideal S256x256 .f32 :=
  shapeCast S256x256 (extractStridedSlice S1x256x256 ![0, 0, 0] x slices_S3x256x256_S1x256x256_0_0_0) shapeCasts_S1x256x256_S256x256
abbrev wA1 (x : FVec Ideal S3x256x256 .f32) : FVec Ideal S256x256 .f32 :=
  shapeCast S256x256 (extractStridedSlice S1x256x256 ![1, 0, 0] x slices_S3x256x256_S1x256x256_1_0_0) shapeCasts_S1x256x256_S256x256
abbrev wA2 (x : FVec Ideal S3x256x256 .f32) : FVec Ideal S256x256 .f32 :=
  shapeCast S256x256 (extractStridedSlice S1x256x256 ![2, 0, 0] x slices_S3x256x256_S1x256x256_2_0_0) shapeCasts_S1x256x256_S256x256

/-- Layer k's bias out of a stack of three, as a 1 by 256 row. -/
abbrev bR0 (x : FVec Ideal S3x256 .f32) : FVec Ideal S1x256 .f32 :=
  shapeCast S1x256 (shapeCast S256 (extractStridedSlice S1x256 ![0, 0] x slices_S3x256_S1x256_0_0) shapeCasts_S1x256_S256) shapeCasts_S256_S1x256
abbrev bR1 (x : FVec Ideal S3x256 .f32) : FVec Ideal S1x256 .f32 :=
  shapeCast S1x256 (shapeCast S256 (extractStridedSlice S1x256 ![1, 0] x slices_S3x256_S1x256_1_0) shapeCasts_S1x256_S256) shapeCasts_S256_S1x256
abbrev bR2 (x : FVec Ideal S3x256 .f32) : FVec Ideal S1x256 .f32 :=
  shapeCast S1x256 (shapeCast S256 (extractStridedSlice S1x256 ![2, 0] x slices_S3x256_S1x256_2_0) shapeCasts_S1x256_S256) shapeCasts_S256_S1x256

variable (x0 : FVec Ideal S50000x256 .f32) (x1 : IVec S2x800000 32) (x2 : IVec S50000 32)
  (x3 : FVec Ideal S3x256x256 .f32) (x4 : FVec Ideal S3x256 .f32) (x5 : FVec Ideal S3x256x256 .f32) (x6 : FVec Ideal S3x256 .f32)

/-- The three layers' outputs. -/
def layer1 : FVec Ideal S50000x256 .f32 := Cert.Spec.mlpG (agg x0 x1) (wA0 x3) (bR0 x4) (wA0 x5) (bR0 x6)
def layer2 : FVec Ideal S50000x256 .f32 := Cert.Spec.mlpG (agg (layer1 x0 x1 x3 x4 x5 x6) x1) (wA1 x3) (bR1 x4) (wA1 x5) (bR1 x6)
def layer3 : FVec Ideal S50000x256 .f32 := Cert.Spec.mlpG (agg (layer2 x0 x1 x3 x4 x5 x6) x1) (wA2 x3) (bR2 x4) (wA2 x5) (bR2 x6)

/-- The node result: the three layers' outputs side by side. -/
def nodeEmb : FVec Ideal S50000x768 .f32 :=
  concatenate S50000x768 1 [⟨S50000x256, layer1 x0 x1 x3 x4 x5 x6⟩, ⟨S50000x256, layer2 x0 x1 x3 x4 x5 x6⟩, ⟨S50000x256, layer3 x0 x1 x3 x4 x5 x6⟩]
    concatenates_S50000x256_S50000x256_S50000x256_S50000x768_d1

/-- The number of nodes of each graph, at least one. -/
def cnt : FVec Ideal S512x1 .f32 :=
  maximumf (broadcastInDim S512x1 ![] bcast_S_S512x1 (id (constant S_ .f32 0x3F800000#32)))
    (Host.scatterAdd scatter_S512x1_S50000x1_S50000x1_1_0_0_1 (broadcastInDim S512x1 ![] bcast_S_S512x1 (constant S_ .f32 0x00000000#32))
      (broadcastInDim S50000x1 ![0] bcast_S50000_S50000x1_0 x2) (broadcastInDim S50000x1 ![] bcast_S_S50000x1 (constant S_ .f32 0x3F800000#32)))

/-- The graph result: each graph's rows summed, over its count. -/
def graphEmb : FVec Ideal S512x768 .f32 :=
  Host.divf (Cert.Spec.poolG (nodeEmb x0 x1 x3 x4 x5 x6) (shapeCast S50000x1 x2 shapeCasts_S50000_S50000x1))
    (broadcastInDim S512x768 ![0, 1] bcast_S512x1_S512x768_0_1 (cnt x2))

end Cert.KernelIdeal.HandV

end
-- ==== Proof.MlpValue.lean ====
/-
  The value of the first fused-perceptron region at the extended reals. First the stored block at an entry: two
  contractions over the shared 256-long axis, each with a bias row added and a rectifier after it. Then the blocks laid
  side by side: grid point `t` holds rows `2000·t … 2000·t + 1999` of the table, the weights and biases are the same
  whole arrays at every point, the 25 output blocks tile the 50000 rows, so the output array ends holding the layer's
  specification of the five operand arrays.
-/
import proofs.«428382_j73890617360784_1_alg».proof.Proof.Mlp0
import proofs.«428382_j73890617360784_1_alg».proof.Proof.Spec
import proofs.«428382_j73890617360784_1_alg».proof.Proof.Gen.KernelIdeal.Skeleton
import proofs.«428382_j73890617360784_1_alg».proof.Proof.Gen.KernelIdeal.Points
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The contraction of a 2000x256 by 256x256 product, axis by axis -/

/-- The left operand's row is the output's row. -/
theorem lhs_dot0_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contracted coordinate. -/
theorem lhs_dot0_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contracted coordinate. -/
theorem rhs_dot0_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem rhs_dot0_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, read at row `p`, column `q`: the sum over the shared axis. -/
theorem matmul0_zero_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_dot0_0 _ _
    | ⟨1, _⟩ => exact (lhs_dot0_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_dot0_0 _ _).trans hk
    | ⟨1, _⟩ => exact rhs_dot0_1 _ _)
  rw [el, er]

/-! ## The payload at an index -/

/-- The stored block of the fused perceptron at row `p`, column `q`: two products with a bias row added and a rectifier
    after each; the changes of format and the same-shape casts are the identity on the extended reals. -/
theorem k0_pay1_apply (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    Cert.KernelIdeal.Gen.k0_pay1 (F := Ideal) x0 x1 x2 x3 x4 (ix2 p q)
      = max ((∑ k : Fin 256, max ((∑ j : Fin 256, x0 (ix2 p j) * x1 (ix2 j k)) + x2 (ix2 0 k)) 0 * x3 (ix2 k q)) + x4 (ix2 0 q)) 0 := by
  unfold Cert.KernelIdeal.Gen.k0_pay1
  simp only [shapeCast_self]
  rw [maximumf_apply, addf_apply, matmul0_zero_apply, broadcastTo_1b_ab_apply, broadcast_apply]
  have hz : (FloatOps.ofBits .f32 0x00000000#32 : Ideal .f32) = (0 : EReal) := Ideal.ofBits_zero_f32
  simp only [truncf_apply, maximumf_apply, addf_apply, matmul0_zero_apply, broadcastTo_1b_ab_apply, broadcast_apply, hz]

/-! ## The blocks of the region's windows -/

/-- The zero offsets of a whole-buffer access. -/
theorem hz0 : (![0, 0] : Fin 2 → Nat) = fun _ => 0 := funext fun a => by fin_cases a <;> rfl

/-- The printed index maps, decided over the grid: the row-block input and the output address block `t` of the rows
    at point `t`; the weights and biases address their one block at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The row block at point `t`, entry `(p, j)`: row `2000·t + p` of the table. -/
theorem iblk0_0_apply (c : Dev nD) (t : Fin cfg0.N) (p : Fin 2000) (j : Fin 256) (r : Fin 50000) (hr : r.val = 2000 * t.val + p.val) :
    (iblk0 V c 0 t : Vec Ideal S2000x256 .f32) (ix2 p j) = (V c main_v8 : S50000x256.Idx → EReal) (ix2 r j) := by
  obtain ⟨e0, e1, -⟩ := idx_facts0 t
  unfold iblk0
  rw [View.read_apply]
  show V c main_v8 _ = V c main_v8 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * j.val = j.val; rw [e1]; omega

/-- The first weight matrix's block is the whole matrix at every point. -/
theorem iblk0_1_eq (c : Dev nD) (t : Fin cfg0.N) :
    (iblk0 V c 1 t : Vec Ideal S256x256 .f32) = (V c main_v10 : S256x256.Idx → EReal) := by
  obtain ⟨-, -, e0, e1, -⟩ := idx_facts0 t
  funext x
  unfold iblk0
  rw [View.read_apply]
  show V c main_v10 _ = V c main_v10 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The first bias row's block is the whole row. -/
theorem iblk0_2_eq (c : Dev nD) (t : Fin cfg0.N) :
    (iblk0 V c 2 t : Vec Ideal S1x256 .f32) = (V c main_v17 : S1x256.Idx → EReal) := by
  obtain ⟨-, -, -, -, e0, e1, -⟩ := idx_facts0 t
  funext x
  unfold iblk0
  rw [View.read_apply]
  show V c main_v17 _ = V c main_v17 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second weight matrix's block is the whole matrix. -/
theorem iblk0_3_eq (c : Dev nD) (t : Fin cfg0.N) :
    (iblk0 V c 3 t : Vec Ideal S256x256 .f32) = (V c main_v14 : S256x256.Idx → EReal) := by
  obtain ⟨-, -, -, -, -, -, e0, e1, -⟩ := idx_facts0 t
  funext x
  unfold iblk0
  rw [View.read_apply]
  show V c main_v14 _ = V c main_v14 _
  congr 1
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The second bias row's block is the whole row. -/
theorem iblk0_4_eq (c : Dev nD) (t : Fin cfg0.N) :
    (iblk0 V c 4 t : Vec Ideal S1x256 .f32) = (V c main_v18 : S1x256.Idx → EReal) := by
  obtain ⟨-, -, -, -, -, -, -, -, e0, e1, -⟩ := idx_facts0 t
  funext x
  unfold iblk0
  rw [View.read_apply]
  show V c main_v18 _ = V c main_v18 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-! ## From the blocks to the array -/

/-- The stored block at entry `(p, q)`, when the loaded rows are rows `2000·T + p` of a table `a`: the layer's
    specification at that row of the table. -/
theorem pay0_at_row (a : S50000x256.Idx → EReal) (w1 : S256x256.Idx → EReal) (b1 : S1x256.Idx → EReal)
    (w2 : S256x256.Idx → EReal) (b2 : S1x256.Idx → EReal) (x0 : Vec Ideal S2000x256 .f32) (T : Nat)
    (h0 : ∀ (p : Fin 2000) (j : Fin 256) (r : Fin 50000), r.val = 2000 * T + p.val → x0 (ix2 p j) = a (ix2 r j))
    (p : Fin 2000) (q : Fin 256) (r : Fin 50000) (hr : r.val = 2000 * T + p.val) :
    Cert.KernelIdeal.Gen.k0_pay1 (F := Ideal) x0 w1 b1 w2 b2 (ix2 p q) = Cert.Spec.mlpAt a w1 b1 w2 b2 r q := by
  rw [k0_pay1_apply]
  unfold Cert.Spec.mlpAt
  simp only [h0 p _ r hr]

/-- What point `t` writes back is block `t` of the specification's array. -/
theorem flushed0_5_eq (c : Dev nD) (t : Fin cfg0.N) :
    (dat0 V c).flushed 5 t = ((cfg0.win 5).blk t).view.read (Elt Ideal)
      (Cert.Spec.mlpG (V c main_v8) (V c main_v10) (V c main_v17) (V c main_v14) (V c main_v18)) := by
  show (cfg0.win 5).cut (grid0.coords t) ((dat0 V c).after 5 t) = _
  rw [after0_5]
  unfold out0_5
  rw [View.canon_unit_zero hz0]
  simp only [View.ld_unit_zero (S := S2000x256) hz0, View.ld_unit_zero (S := S256x256) hz0, View.ld_unit_zero (S := S1x256) hz0]
  rw [iblk0_1_eq, iblk0_2_eq, iblk0_3_eq, iblk0_4_eq]
  obtain ⟨-, -, -, -, -, -, -, -, -, -, e0, e1⟩ := idx_facts0 t
  funext y
  obtain ⟨p, q, rfl⟩ : ∃ (p : Fin 2000) (q : Fin 256), y = ix2 p q := ⟨y 0, y 1, eq_ix2 y⟩
  rw [View.read_apply]
  have hr : ((((cfg0.win 5).blk t).view.emb (ix2 p q)) 0).val = 2000 * t.val + p.val := by
    show win0_5.index t (0 : Fin 2) * 2000 + 1 * p.val = _; rw [e0]; omega
  have hc : (((cfg0.win 5).blk t).view.emb (ix2 p q)) 1 = q := Fin.ext (by
    show win0_5.index t (1 : Fin 2) * 256 + 1 * q.val = _; rw [e1]; omega)
  show Cert.KernelIdeal.Gen.k0_pay1 (F := Ideal) (iblk0 V c 0 t) (V c main_v10) (V c main_v17) (V c main_v14) (V c main_v18) (ix2 p q)
    = Cert.Spec.mlpAt (V c main_v8) (V c main_v10) (V c main_v17) (V c main_v14) (V c main_v18)
        ((((cfg0.win 5).blk t).view.emb (ix2 p q)) 0) ((((cfg0.win 5).blk t).view.emb (ix2 p q)) 1)
  rw [hc]
  exact pay0_at_row _ _ _ _ _ (iblk0 V c 0 t) t.val (fun p j r h => iblk0_0_apply V c t p j r h) p q _ hr

/-- An index of the output array is in point `t`'s block iff each coordinate is in the block's range. -/
theorem mem_blk0_5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Every row is in some point's block: row `r` in that of point `r / 2000`. -/
theorem rows_cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, -, -, e0, e1⟩ := idx_facts0 ⟨(i 0).val / 2000, ht⟩
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]; omega

/-- The output array after the region: the layer's specification of the five operand arrays as the region finds them. -/
theorem mlp_final0 (c : Dev nD) :
    (Cert.KernelIdeal.Hand.dat0 (F := Ideal) V c).arrAt 5 cfg0.N
      = Cert.Spec.mlpG (V c main_v8) (V c main_v10) (V c main_v17) (V c main_v14) (V c main_v18) :=
  (dat0 V c).arrAt_eq_of_cover 5 _ (fun t _ => flushed0_5_eq V c t) rows_cover0

end Cert.KernelIdeal.HandV

end
-- ==== Proof.MlpValue1.lean ====
/-
  The value of the second fused-perceptron region at the extended reals. First the stored block at an entry: two
  contractions over the shared 256-long axis, each with a bias row added and a rectifier after it. Then the blocks laid
  side by side: grid point `t` holds rows `2000·t … 2000·t + 1999` of the table, the weights and biases are the same
  whole arrays at every point, the 25 output blocks tile the 50000 rows, so the output array ends holding the layer's
  specification of the five operand arrays.
-/
import proofs.«428382_j73890617360784_1_alg».proof.Proof.Mlp1
import proofs.«428382_j73890617360784_1_alg».proof.Proof.Spec
import proofs.«428382_j73890617360784_1_alg».proof.Proof.Gen.KernelIdeal.Skeleton
import proofs.«428382_j73890617360784_1_alg».proof.Proof.Gen.KernelIdeal.Points
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The contraction of a 2000x256 by 256x256 product, axis by axis -/

/-- The left operand's row is the output's row. -/
theorem lhs_dot1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contracted coordinate. -/
theorem lhs_dot1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contracted coordinate. -/
theorem rhs_dot1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem rhs_dot1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, read at row `p`, column `q`: the sum over the shared axis. -/
theorem matmul1_zero_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_dot1_0 _ _
    | ⟨1, _⟩ => exact (lhs_dot1_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_dot1_0 _ _).trans hk
    | ⟨1, _⟩ => exact rhs_dot1_1 _ _)
  rw [el, er]

/-! ## The payload at an index -/

/-- The stored block of the fused perceptron at row `p`, column `q`: two products with a bias row added and a rectifier
    after each; the changes of format and the same-shape casts are the identity on the extended reals. -/
theorem k1_pay1_apply (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    Cert.KernelIdeal.Gen.k1_pay1 (F := Ideal) x0 x1 x2 x3 x4 (ix2 p q)
      = max ((∑ k : Fin 256, max ((∑ j : Fin 256, x0 (ix2 p j) * x1 (ix2 j k)) + x2 (ix2 0 k)) 0 * x3 (ix2 k q)) + x4 (ix2 0 q)) 0 := by
  unfold Cert.KernelIdeal.Gen.k1_pay1
  simp only [shapeCast_self]
  rw [maximumf_apply, addf_apply, matmul1_zero_apply, broadcastTo_1b_ab_apply, broadcast_apply]
  have hz : (FloatOps.ofBits .f32 0x00000000#32 : Ideal .f32) = (0 : EReal) := Ideal.ofBits_zero_f32
  simp only [truncf_apply, maximumf_apply, addf_apply, matmul1_zero_apply, broadcastTo_1b_ab_apply, broadcast_apply, hz]

/-! ## The blocks of the region's windows -/

/-- The zero offsets of a whole-buffer access. -/
theorem hz1 : (![0, 0] : Fin 2 → Nat) = fun _ => 0 := funext fun a => by fin_cases a <;> rfl

/-- The printed index maps, decided over the grid: the row-block input and the output address block `t` of the rows
    at point `t`; the weights and biases address their one block at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The row block at point `t`, entry `(p, j)`: row `2000·t + p` of the table. -/
theorem iblk1_0_apply (c : Dev nD) (t : Fin cfg1.N) (p : Fin 2000) (j : Fin 256) (r : Fin 50000) (hr : r.val = 2000 * t.val + p.val) :
    (iblk1 V c 0 t : Vec Ideal S2000x256 .f32) (ix2 p j) = (V c main_v24 : S50000x256.Idx → EReal) (ix2 r j) := by
  obtain ⟨e0, e1, -⟩ := idx_facts1 t
  unfold iblk1
  rw [View.read_apply]
  show V c main_v24 _ = V c main_v24 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * j.val = j.val; rw [e1]; omega

/-- The first weight matrix's block is the whole matrix at every point. -/
theorem iblk1_1_eq (c : Dev nD) (t : Fin cfg1.N) :
    (iblk1 V c 1 t : Vec Ideal S256x256 .f32) = (V c main_v26 : S256x256.Idx → EReal) := by
  obtain ⟨-, -, e0, e1, -⟩ := idx_facts1 t
  funext x
  unfold iblk1
  rw [View.read_apply]
  show V c main_v26 _ = V c main_v26 _
  congr 1
  funext a
  apply Fin.ext
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The first bias row's block is the whole row. -/
theorem iblk1_2_eq (c : Dev nD) (t : Fin cfg1.N) :
    (iblk1 V c 2 t : Vec Ideal S1x256 .f32) = (V c main_v33 : S1x256.Idx → EReal) := by
  obtain ⟨-, -, -, -, e0, e1, -⟩ := idx_facts1 t
  funext x
  unfold iblk1
  rw [View.read_apply]
  show V c main_v33 _ = V c main_v33 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- The second weight matrix's block is the whole matrix. -/
theorem iblk1_3_eq (c : Dev nD) (t : Fin cfg1.N) :
    (iblk1 V c 3 t : Vec Ideal S256x256 .f32) = (V c main_v30 : S256x256.Idx → EReal) := by
  obtain ⟨-, -, -, -, -, -, e0, e1, -⟩ := idx_facts1 t
  funext x
  unfold iblk1
  rw [View.read_apply]
  show V c main_v30 _ = V c main_v30 _
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- The second bias row's block is the whole row. -/
theorem iblk1_4_eq (c : Dev nD) (t : Fin cfg1.N) :
    (iblk1 V c 4 t : Vec Ideal S1x256 .f32) = (V c main_v34 : S1x256.Idx → EReal) := by
  obtain ⟨-, -, -, -, -, -, -, -, e0, e1, -⟩ := idx_facts1 t
  funext x
  unfold iblk1
  rw [View.read_apply]
  show V c main_v34 _ = V c main_v34 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-! ## From the blocks to the array -/

/-- The stored block at entry `(p, q)`, when the loaded rows are rows `2000·T + p` of a table `a`: the layer's
    specification at that row of the table. -/
theorem pay1_at_row (a : S50000x256.Idx → EReal) (w1 : S256x256.Idx → EReal) (b1 : S1x256.Idx → EReal)
    (w2 : S256x256.Idx → EReal) (b2 : S1x256.Idx → EReal) (x0 : Vec Ideal S2000x256 .f32) (T : Nat)
    (h0 : ∀ (p : Fin 2000) (j : Fin 256) (r : Fin 50000), r.val = 2000 * T + p.val → x0 (ix2 p j) = a (ix2 r j))
    (p : Fin 2000) (q : Fin 256) (r : Fin 50000) (hr : r.val = 2000 * T + p.val) :
    Cert.KernelIdeal.Gen.k1_pay1 (F := Ideal) x0 w1 b1 w2 b2 (ix2 p q) = Cert.Spec.mlpAt a w1 b1 w2 b2 r q := by
  rw [k1_pay1_apply]
  unfold Cert.Spec.mlpAt
  simp only [h0 p _ r hr]

/-- What point `t` writes back is block `t` of the specification's array. -/
theorem flushed1_5_eq (c : Dev nD) (t : Fin cfg1.N) :
    (dat1 V c).flushed 5 t = ((cfg1.win 5).blk t).view.read (Elt Ideal)
      (Cert.Spec.mlpG (V c main_v24) (V c main_v26) (V c main_v33) (V c main_v30) (V c main_v34)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1, View.ld_unit_zero (S := S1x256) hz1]
  rw [iblk1_1_eq, iblk1_2_eq, iblk1_3_eq, iblk1_4_eq]
  obtain ⟨-, -, -, -, -, -, -, -, -, -, e0, e1⟩ := idx_facts1 t
  funext y
  obtain ⟨p, q, rfl⟩ : ∃ (p : Fin 2000) (q : Fin 256), y = ix2 p q := ⟨y 0, y 1, eq_ix2 y⟩
  rw [View.read_apply]
  have hr : ((((cfg1.win 5).blk t).view.emb (ix2 p q)) 0).val = 2000 * t.val + p.val := by
    show win1_5.index t (0 : Fin 2) * 2000 + 1 * p.val = _; rw [e0]; omega
  have hc : (((cfg1.win 5).blk t).view.emb (ix2 p q)) 1 = q := Fin.ext (by
    show win1_5.index t (1 : Fin 2) * 256 + 1 * q.val = _; rw [e1]; omega)
  show Cert.KernelIdeal.Gen.k1_pay1 (F := Ideal) (iblk1 V c 0 t) (V c main_v26) (V c main_v33) (V c main_v30) (V c main_v34) (ix2 p q)
    = Cert.Spec.mlpAt (V c main_v24) (V c main_v26) (V c main_v33) (V c main_v30) (V c main_v34)
        ((((cfg1.win 5).blk t).view.emb (ix2 p q)) 0) ((((cfg1.win 5).blk t).view.emb (ix2 p q)) 1)
  rw [hc]
  exact pay1_at_row _ _ _ _ _ (iblk1 V c 0 t) t.val (fun p j r h => iblk1_0_apply V c t p j r h) p q _ hr

/-- An index of the output array is in point `t`'s block iff each coordinate is in the block's range. -/
theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v35).slice (win1_5.rect t)).set ↔ _
  rw [View.set_slice_whole, Rect.mem_set_unit]
  exact Iff.rfl

/-- Every row is in some point's block: row `r` in that of point `r / 2000`. -/
theorem rows_cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, -, -, -, -, -, -, e0, e1⟩ := idx_facts1 ⟨(i 0).val / 2000, ht⟩
  refine ⟨⟨(i 0).val / 2000, ht⟩, flush1_5 _, ?_⟩
  rw [mem_blk1_5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]; omega

/-- The output array after the region: the layer's specification of the five operand arrays as the region finds them. -/
theorem mlp_final1 (c : Dev nD) :
    (Cert.KernelIdeal.Hand.dat1 (F := Ideal) V c).arrAt 5 cfg1.N
      = Cert.Spec.mlpG (V c main_v24) (V c main_v26) (V c main_v33) (V c main_v30) (V c main_v34) :=
  (dat1 V c).arrAt_eq_of_cover 5 _ (fun t _ => flushed1_5_eq V c t) rows_cover1

end Cert.KernelIdeal.HandV

end
-- ==== Proof.MlpValue2.lean ====
/-
  The value of the third fused-perceptron region at the extended reals. First the stored block at an entry: two
  contractions over the shared 256-long axis, each with a bias row added and a rectifier after it. Then the blocks laid
  side by side: grid point `t` holds rows `2000·t … 2000·t + 1999` of the table, the weights and biases are the same
  whole arrays at every point, the 25 output blocks tile the 50000 rows, so the output array ends holding the layer's
  specification of the five operand arrays.
-/
import proofs.«428382_j73890617360784_1_alg».proof.Proof.Mlp2
import proofs.«428382_j73890617360784_1_alg».proof.Proof.Spec
import proofs.«428382_j73890617360784_1_alg».proof.Proof.Gen.KernelIdeal.Skeleton
import proofs.«428382_j73890617360784_1_alg».proof.Proof.Gen.KernelIdeal.Points
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The contraction of a 2000x256 by 256x256 product, axis by axis -/

/-- The left operand's row is the output's row. -/
theorem lhs_dot2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the contracted coordinate. -/
theorem lhs_dot2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contracted coordinate. -/
theorem rhs_dot2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem rhs_dot2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, read at row `p`, column `q`: the sum over the shared axis. -/
theorem matmul2_zero_apply {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_dot2_0 _ _
    | ⟨1, _⟩ => exact (lhs_dot2_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_dot2_0 _ _).trans hk
    | ⟨1, _⟩ => exact rhs_dot2_1 _ _)
  rw [el, er]

/-! ## The payload at an index -/

/-- The stored block of the fused perceptron at row `p`, column `q`: two products with a bias row added and a rectifier
    after each; the changes of format and the same-shape casts are the identity on the extended reals. -/
theorem k2_pay1_apply (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    Cert.KernelIdeal.Gen.k2_pay1 (F := Ideal) x0 x1 x2 x3 x4 (ix2 p q)
      = max ((∑ k : Fin 256, max ((∑ j : Fin 256, x0 (ix2 p j) * x1 (ix2 j k)) + x2 (ix2 0 k)) 0 * x3 (ix2 k q)) + x4 (ix2 0 q)) 0 := by
  unfold Cert.KernelIdeal.Gen.k2_pay1
  simp only [shapeCast_self]
  rw [maximumf_apply, addf_apply, matmul2_zero_apply, broadcastTo_1b_ab_apply, broadcast_apply]
  have hz : (FloatOps.ofBits .f32 0x00000000#32 : Ideal .f32) = (0 : EReal) := Ideal.ofBits_zero_f32
  simp only [truncf_apply, maximumf_apply, addf_apply, matmul2_zero_apply, broadcastTo_1b_ab_apply, broadcast_apply, hz]

/-! ## The blocks of the region's windows -/

/-- The zero offsets of a whole-buffer access. -/
theorem hz2 : (![0, 0] : Fin 2 → Nat) = fun _ => 0 := funext fun a => by fin_cases a <;> rfl

/-- The printed index maps, decided over the grid: the row-block input and the output address block `t` of the rows
    at point `t`; the weights and biases address their one block at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The row block at point `t`, entry `(p, j)`: row `2000·t + p` of the table. -/
theorem iblk2_0_apply (c : Dev nD) (t : Fin cfg2.N) (p : Fin 2000) (j : Fin 256) (r : Fin 50000) (hr : r.val = 2000 * t.val + p.val) :
    (iblk2 V c 0 t : Vec Ideal S2000x256 .f32) (ix2 p j) = (V c main_v40 : S50000x256.Idx → EReal) (ix2 r j) := by
  obtain ⟨e0, e1, -⟩ := idx_facts2 t
  unfold iblk2
  rw [View.read_apply]
  show V c main_v40 _ = V c main_v40 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * j.val = j.val; rw [e1]; omega

/-- The first weight matrix's block is the whole matrix at every point. -/
theorem iblk2_1_eq (c : Dev nD) (t : Fin cfg2.N) :
    (iblk2 V c 1 t : Vec Ideal S256x256 .f32) = (V c main_v42 : S256x256.Idx → EReal) := by
  obtain ⟨-, -, e0, e1, -⟩ := idx_facts2 t
  funext x
  unfold iblk2
  rw [View.read_apply]
  show V c main_v42 _ = V c main_v42 _
  congr 1
  funext a
  apply Fin.ext
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

/-- The first bias row's block is the whole row. -/
theorem iblk2_2_eq (c : Dev nD) (t : Fin cfg2.N) :
    (iblk2 V c 2 t : Vec Ideal S1x256 .f32) = (V c main_v49 : S1x256.Idx → EReal) := by
  obtain ⟨-, -, -, -, e0, e1, -⟩ := idx_facts2 t
  funext x
  unfold iblk2
  rw [View.read_apply]
  show V c main_v49 _ = V c main_v49 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- The second weight matrix's block is the whole matrix. -/
theorem iblk2_3_eq (c : Dev nD) (t : Fin cfg2.N) :
    (iblk2 V c 3 t : Vec Ideal S256x256 .f32) = (V c main_v46 : S256x256.Idx → EReal) := by
  obtain ⟨-, -, -, -, -, -, e0, e1, -⟩ := idx_facts2 t
  funext x
  unfold iblk2
  rw [View.read_apply]
  show V c main_v46 _ = V c main_v46 _
  congr 1
  funext a
  apply Fin.ext
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega

/-- The second bias row's block is the whole row. -/
theorem iblk2_4_eq (c : Dev nD) (t : Fin cfg2.N) :
    (iblk2 V c 4 t : Vec Ideal S1x256 .f32) = (V c main_v50 : S1x256.Idx → EReal) := by
  obtain ⟨-, -, -, -, -, -, -, -, e0, e1, -⟩ := idx_facts2 t
  funext x
  unfold iblk2
  rw [View.read_apply]
  show V c main_v50 _ = V c main_v50 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 256 + 1 * (x 1).val = (x 1).val; rw [e1]; omega

/-! ## From the blocks to the array -/

/-- The stored block at entry `(p, q)`, when the loaded rows are rows `2000·T + p` of a table `a`: the layer's
    specification at that row of the table. -/
theorem pay2_at_row (a : S50000x256.Idx → EReal) (w1 : S256x256.Idx → EReal) (b1 : S1x256.Idx → EReal)
    (w2 : S256x256.Idx → EReal) (b2 : S1x256.Idx → EReal) (x0 : Vec Ideal S2000x256 .f32) (T : Nat)
    (h0 : ∀ (p : Fin 2000) (j : Fin 256) (r : Fin 50000), r.val = 2000 * T + p.val → x0 (ix2 p j) = a (ix2 r j))
    (p : Fin 2000) (q : Fin 256) (r : Fin 50000) (hr : r.val = 2000 * T + p.val) :
    Cert.KernelIdeal.Gen.k2_pay1 (F := Ideal) x0 w1 b1 w2 b2 (ix2 p q) = Cert.Spec.mlpAt a w1 b1 w2 b2 r q := by
  rw [k2_pay1_apply]
  unfold Cert.Spec.mlpAt
  simp only [h0 p _ r hr]

/-- What point `t` writes back is block `t` of the specification's array. -/
theorem flushed2_5_eq (c : Dev nD) (t : Fin cfg2.N) :
    (dat2 V c).flushed 5 t = ((cfg2.win 5).blk t).view.read (Elt Ideal)
      (Cert.Spec.mlpG (V c main_v40) (V c main_v42) (V c main_v49) (V c main_v46) (V c main_v50)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S1x256) hz2]
  rw [iblk2_1_eq, iblk2_2_eq, iblk2_3_eq, iblk2_4_eq]
  obtain ⟨-, -, -, -, -, -, -, -, -, -, e0, e1⟩ := idx_facts2 t
  funext y
  obtain ⟨p, q, rfl⟩ : ∃ (p : Fin 2000) (q : Fin 256), y = ix2 p q := ⟨y 0, y 1, eq_ix2 y⟩
  rw [View.read_apply]
  have hr : ((((cfg2.win 5).blk t).view.emb (ix2 p q)) 0).val = 2000 * t.val + p.val := by
    show win2_5.index t (0 : Fin 2) * 2000 + 1 * p.val = _; rw [e0]; omega
  have hc : (((cfg2.win 5).blk t).view.emb (ix2 p q)) 1 = q := Fin.ext (by
    show win2_5.index t (1 : Fin 2) * 256 + 1 * q.val = _; rw [e1]; omega)
  show Cert.KernelIdeal.Gen.k2_pay1 (F := Ideal) (iblk2 V c 0 t) (V c main_v42) (V c main_v49) (V c main_v46) (V c main_v50) (ix2 p q)
    = Cert.Spec.mlpAt (V c main_v40) (V c main_v42) (V c main_v49) (V c main_v46) (V c main_v50)
        ((((cfg2.win 5).blk t).view.emb (ix2 p q)) 0) ((((cfg2.win 5).blk t).view.emb (ix2 p q)) 1)
  rw [hc]
  exact pay2_at_row _ _ _ _ _ (iblk2 V c 0 t) t.val (fun p j r h => iblk2_0_apply V c t p j r h) p q _ hr

/-- An index of the output array is in point `t`'s block iff each coordinate is in the block's range. -/
theorem mem_blk2_5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v51).slice (win2_5.rect t)).set ↔ _
  rw [View.set_slice_whole, Rect.mem_set_unit]
  exact Iff.rfl

/-- Every row is in some point's block: row `r` in that of point `r / 2000`. -/
theorem rows_cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  have ht : (i 0).val / 2000 < cfg2.N := by rw [hN]; omega
  obtain ⟨-, -, -, -, -, -, -, -, -, -, e0, e1⟩ := idx_facts2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]; omega

/-- The output array after the region: the layer's specification of the five operand arrays as the region finds them. -/
theorem mlp_final2 (c : Dev nD) :
    (Cert.KernelIdeal.Hand.dat2 (F := Ideal) V c).arrAt 5 cfg2.N
      = Cert.Spec.mlpG (V c main_v40) (V c main_v42) (V c main_v49) (V c main_v46) (V c main_v50) :=
  (dat2 V c).arrAt_eq_of_cover 5 _ (fun t _ => flushed2_5_eq V c t) rows_cover2

end Cert.KernelIdeal.HandV

end
-- ==== Proof.PoolValue.lean ====
import proofs.«428382_j73890617360784_1_alg».proof.Proof.Pool
import proofs.«428382_j73890617360784_1_alg».proof.Proof.Spec
import proofs.«428382_j73890617360784_1_alg».proof.Proof.Gen.KernelIdeal.Skeleton
import proofs.«428382_j73890617360784_1_alg».proof.Proof.Gen.KernelIdeal.Points
import Idealize.ShloMosaic.Lib.ValueIdx
import Idealize.ShloMosaic.Lib.Pipeline.Value
import Idealize.ShloMosaic.PureOps.Ideal.Laws
import Idealize.ShloMosaic.Lib.Tactic
import Mathlib.Algebra.BigOperators.Fin
import Mathlib.Logic.Equiv.Fin.Basic

/-!
# The pooling region's value: the output array holds the per-graph sums of the node rows

The pooling kernel walks the 50000 node rows in 25 blocks of 2000. At each block it forms the one-hot matrix of the rows'
graph ids against the 512 graph numbers (entry `(r, g)` is 1 when row `r`'s id, read as a signed integer, is `g`, else 0),
multiplies its transpose with the block's 2000 by 768 feature rows, and adds the product to an accumulator that is zeroed
at the first block and copied to the output after the last. Over the extended reals `1 · x = x` and `0 · x = 0`, so one
block adds, at entry `(g, d)`, the features `d` of its rows whose id is `g`; the blocks partition the rows and addition is
commutative and associative, so after the last block entry `(g, d)` is the sum over ALL rows with id `g`. A row whose id
is outside `[0, 512)` matches no graph number and adds nothing.
-/

-- deciding that one whole-buffer rectangle of 512 by 768 covers its buffer recurses once per coordinate of the long axis
set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## Words -/

/-- A small natural number, written as a 32-bit word and read back signed, is itself. -/
theorem pool_toInt_ofNat (g : ℕ) (hg : g < 512) : (BitVec.ofNat 32 g).toInt = (g : ℤ) := by
  have h1 : (BitVec.ofNat 32 g).toNat = g := by rw [BitVec.toNat_ofNat]; omega
  rw [BitVec.toInt_eq_toNat_cond, h1]
  have : 2 * g < 2 ^ 32 := by omega
  rw [if_pos this]

/-- A word equals the word of a small number exactly when, read signed, it is that number. -/
theorem pool_eq_ofNat_iff (a : BitVec 32) (g : ℕ) (hg : g < 512) : a = BitVec.ofNat 32 g ↔ a.toInt = (g : ℤ) := by
  rw [← pool_toInt_ofNat g hg]
  exact BitVec.toInt_inj.symm

/-- The one-hot entry: a one-bit equality test widened to a word and converted to a float is 1 where the words agree and 0
    where they differ. -/
theorem pool_onehot_scalar (a b : BitVec 32) :
    FloatOps.sitofp (F := Ideal) .f32 ((IntOp.cmpi .eq a b).setWidth 32) = if a = b then (1 : EReal) else 0 := by
  by_cases h : a = b
  · subst h
    rw [if_pos rfl]
    have e : IntOp.cmpi .eq a a = 1#1 := by simp [IntOp.cmpi]
    rw [e]
    show (((BitVec.setWidth 32 1#1).toInt : ℝ) : EReal) = 1
    rw [show (BitVec.setWidth 32 1#1) = 1#32 by decide, show (1#32).toInt = 1 by decide]
    simp
  · rw [if_neg h]
    have hb : (a == b) = false := beq_eq_false_iff_ne.mpr h
    have e : IntOp.cmpi .eq a b = 0#1 := by simp [IntOp.cmpi, hb]
    rw [e]
    show (((BitVec.setWidth 32 0#1).toInt : ℝ) : EReal) = 0
    rw [show (BitVec.setWidth 32 0#1) = 0#32 by decide, show (0#32).toInt = 0 by decide]
    simp

/-! ## The contraction's operand indices

The pooling product contracts axis 0 of both operands: at output entry `(g, d)` and contraction position `r` the left
operand (the one-hot, 2000 by 512) is read at `(r, g)` and the right operand (the rows, 2000 by 768) at `(r, d)`. -/

theorem lhs_pool_0 (i : S512x768.Idx) (q : dot_S2000x512_S2000x768_S512x768_0_0_1_1_n_n.contr.Idx) :
    (dot_S2000x512_S2000x768_S512x768_0_0_1_1_n_n.lhsIdx i q 0).val = (q ⟨0, by decide⟩).val :=
  dot_S2000x512_S2000x768_S512x768_0_0_1_1_n_n.lhsIdx_val_of_single rfl i q

theorem lhs_pool_1 (i : S512x768.Idx) (q : dot_S2000x512_S2000x768_S512x768_0_0_1_1_n_n.contr.Idx) :
    (dot_S2000x512_S2000x768_S512x768_0_0_1_1_n_n.lhsIdx i q 1).val = (i 0).val := by
  unfold DotDims.lhsIdx
  rw [dif_neg (show ¬(1 : Fin S2000x512.rank) ∈ dot_S2000x512_S2000x768_S512x768_0_0_1_1_n_n.lhsBatch by decide),
    dif_pos (show (1 : Fin S2000x512.rank) ∈ dot_S2000x512_S2000x768_S512x768_0_0_1_1_n_n.lhsNonContracting by decide)]
  rfl

theorem rhs_pool_0 (i : S512x768.Idx) (q : dot_S2000x512_S2000x768_S512x768_0_0_1_1_n_n.contr.Idx) :
    (dot_S2000x512_S2000x768_S512x768_0_0_1_1_n_n.rhsIdx i q 0).val = (q ⟨0, by decide⟩).val :=
  dot_S2000x512_S2000x768_S512x768_0_0_1_1_n_n.rhsIdx_val_of_single rfl i q

theorem rhs_pool_1 (i : S512x768.Idx) (q : dot_S2000x512_S2000x768_S512x768_0_0_1_1_n_n.contr.Idx) :
    (dot_S2000x512_S2000x768_S512x768_0_0_1_1_n_n.rhsIdx i q 1).val = (i 1).val := by
  unfold DotDims.rhsIdx
  rw [dif_neg (show ¬(1 : Fin S2000x768.rank) ∈ dot_S2000x512_S2000x768_S512x768_0_0_1_1_n_n.rhsBatch by decide),
    dif_pos (show (1 : Fin S2000x768.rank) ∈ dot_S2000x512_S2000x768_S512x768_0_0_1_1_n_n.rhsNonContracting by decide)]
  rfl

/-- The pooling product into a zero accumulator, at an entry: the sum over the 2000 rows of the block. -/
theorem pool_matmul_apply (l : FVec Ideal S2000x512 .bf16) (x : FVec Ideal S2000x768 .bf16) (g : Fin 512) (d : Fin 768) :
    matmul dot_S2000x512_S2000x768_S512x768_0_0_1_1_n_n none l x (constant (F := Ideal) S512x768 .f32 0x00000000#32) (ix2 g d)
      = ∑ r : Fin 2000, l (ix2 r g) * x (ix2 r d) := by
  simp only [matmul]
  rw [Ideal.matmul_constant_zero_apply,
    ← Equiv.sum_comp (contrEquiv1 dot_S2000x512_S2000x768_S512x768_0_0_1_1_n_n 2000 rfl rfl).symm]
  refine Finset.sum_congr rfl fun k _ => ?_
  have hk := contrEquiv1_symm_val dot_S2000x512_S2000x768_S512x768_0_0_1_1_n_n 2000 rfl rfl k
  have el : dot_S2000x512_S2000x768_S512x768_0_0_1_1_n_n.lhsIdx (ix2 g d)
      ((contrEquiv1 dot_S2000x512_S2000x768_S512x768_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x512_S2000x768_S512x768_0_0_1_1_n_n.rhsIdx (ix2 g d)
      ((contrEquiv1 dot_S2000x512_S2000x768_S512x768_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er]

/-! ## The payloads at an index -/

/-- The reset payload is the zero array. -/
theorem k3_pay1_apply (g : Fin 512) (d : Fin 768) : k3_pay1 (F := Ideal) (ix2 g d) = 0 := by
  unfold k3_pay1
  rw [shapeCast_self]
  exact Ideal.ofBits_zero_f32

/-- The one-hot operand at row `r`, column `g`: 1 when the row's graph id, read signed, is `g`, else 0. -/
theorem k3_onehot_apply (v3 : Vec Ideal S2000x1 .i32) (r : Fin 2000) (g : Fin 512) :
    (truncf .bf16 (sitofp (F := Ideal) .f32 (extui 32 (cmpi .eq (broadcastTo S2000x512 (shapeCast S2000x1 v3 shapeCasts_S2000x1_S2000x1)
        broadcasts_S2000x1_S2000x512) (iota .tc S2000x512 32 [1] iota_S2000x512_d1_w32)) natLt_1_32)) bitsLt_bf16_f32
      : FVec Ideal S2000x512 .bf16) (ix2 r g)
      = if (v3 (ix2 r 0)).toInt = (g.val : ℤ) then (1 : EReal) else 0 := by
  rw [shapeCast_self]
  show FloatOps.sitofp (F := Ideal) .f32 ((IntOp.cmpi .eq (broadcastTo S2000x512 v3 broadcasts_S2000x1_S2000x512 (ix2 r g))
    (iota .tc S2000x512 32 [1] iota_S2000x512_d1_w32 (ix2 r g))).setWidth 32) = _
  rw [broadcastTo_apply v3 broadcasts_S2000x1_S2000x512 (ix2 r g) (ix2 r 0) (fun a => by
      match a with
      | ⟨0, _⟩ => rfl
      | ⟨1, _⟩ => rfl),
    iota_single_apply, pool_onehot_scalar]
  show (if v3 (ix2 r 0) = BitVec.ofNat 32 g.val then (1 : EReal) else 0) = _
  exact if_congr (pool_eq_ofNat_iff _ _ g.isLt) rfl rfl

/-- The update payload at entry `(g, d)`: the accumulator there plus the block's rows whose graph id is `g`, column `d`. -/
theorem k3_pay2_apply (v3 : Vec Ideal S2000x1 .i32) (v11 : Vec Ideal S2000x768 .f32) (v14 : Vec Ideal S512x768 .f32) (g : Fin 512) (d : Fin 768) :
    k3_pay2 (F := Ideal) v3 v11 v14 (ix2 g d)
      = v14 (ix2 g d) + ∑ r : Fin 2000, (if (v3 (ix2 r 0)).toInt = (g.val : ℤ) then v11 (ix2 r d) else 0) := by
  unfold k3_pay2
  rw [shapeCast_self]
  refine (addf_apply _ _ _).trans ?_
  refine congrArg (v14 (ix2 g d) + ·) ?_
  refine (pool_matmul_apply _ _ g d).trans ?_
  refine Finset.sum_congr rfl fun r _ => ?_
  rw [k3_onehot_apply v3 r g, shapeCast_self]
  show (if (v3 (ix2 r 0)).toInt = (g.val : ℤ) then (1 : EReal) else 0) * v11 (ix2 r d) = _
  split
  · exact one_mul _
  · exact zero_mul _

/-! ## The sum over all rows is the fold of the blocks' sums

The 50000 rows are 25 blocks of 2000: row `r` of block `t` is row `2000·t + r` of the table. Addition of extended reals
is commutative and associative, so the sum over all rows is the sum over the blocks of each block's sum, and the running
sum "block 0, then add block 1, …" after the last block is the pooled sum. -/

section Algebra

variable (x : (⟨2, ![50000, 768]⟩ : Shape).Idx → EReal) (gid : (⟨2, ![50000, 1]⟩ : Shape).Idx → BitVec 32)

/-- Row `r` of block `t`, as a row of the whole table. -/
def poolRow (t : Fin 25) (r : Fin 2000) : Fin 50000 := ⟨2000 * t.val + r.val, by have := t.isLt; have := r.isLt; omega⟩

/-- One row's term of the pooled sum at entry `(v, d)`: the row's feature `d` if the row's graph id is `v`, else nothing. -/
def poolTerm (v : Fin 512) (d : Fin 768) (n : Fin 50000) : EReal :=
  if (gid (ix2 n 0)).toInt = (v.val : ℤ) then x (ix2 n d) else 0

/-- Block `t`'s sum at entry `(v, d)`. -/
def poolBlock (v : Fin 512) (d : Fin 768) (t : Fin 25) : EReal := ∑ r : Fin 2000, poolTerm x gid v d (poolRow t r)

/-- The same for a block number given as a natural number (nothing past the last block). -/
def poolBlockN (v : Fin 512) (d : Fin 768) (t : ℕ) : EReal := if h : t < 25 then poolBlock x gid v d ⟨t, h⟩ else 0

/-- The running sum after block `n`. -/
def poolRun (v : Fin 512) (d : Fin 768) (n : ℕ) : EReal := ∑ t ∈ Finset.range (n + 1), poolBlockN x gid v d t

theorem poolRun_zero (v : Fin 512) (d : Fin 768) : poolRun x gid v d 0 = poolBlockN x gid v d 0 := by
  unfold poolRun; exact Finset.sum_range_one _

theorem poolRun_succ (v : Fin 512) (d : Fin 768) (n : ℕ) :
    poolRun x gid v d (n + 1) = poolRun x gid v d n + poolBlockN x gid v d (n + 1) := by
  unfold poolRun; exact Finset.sum_range_succ _ _

/-- The pooled sum is the sum of the 25 blocks' sums: re-index the rows by (block, row in block). -/
theorem poolAt_eq_sum_blocks (v : Fin 512) (d : Fin 768) :
    Cert.Spec.poolAt x gid v d = ∑ t : Fin 25, poolBlock x gid v d t := by
  unfold Cert.Spec.poolAt poolBlock
  rw [← Fintype.sum_prod_type' (fun (t : Fin 25) (r : Fin 2000) => poolTerm x gid v d (poolRow t r)),
    ← Equiv.sum_comp (finProdFinEquiv : Fin 25 × Fin 2000 ≃ Fin 50000)]
  refine Finset.sum_congr rfl fun p _ => ?_
  have e : (finProdFinEquiv : Fin 25 × Fin 2000 ≃ Fin 50000) p = poolRow p.1 p.2 :=
    Fin.ext (by show p.2.val + 2000 * p.1.val = 2000 * p.1.val + p.2.val; omega)
  rw [e]
  rfl

/-- After the last block the running sum is the pooled sum. -/
theorem poolRun_last (v : Fin 512) (d : Fin 768) : poolRun x gid v d 24 = Cert.Spec.poolAt x gid v d := by
  rw [poolAt_eq_sum_blocks]
  unfold poolRun
  rw [Finset.sum_range (fun t => poolBlockN x gid v d t)]
  refine Finset.sum_congr rfl fun t _ => ?_
  unfold poolBlockN
  rw [dif_pos t.isLt]

end Algebra

/-! ## What each case leaves, as the body's arithmetic

Every access of the body is to a whole buffer. In the first case the accumulator is zeroed, read back, and overwritten
with the update of the zero array; in the other two it is overwritten with the update of what it held; in the last case
the updated accumulator is then read back and copied into the output block. -/

/-- The zero offsets of a whole-buffer access. -/
theorem hz3 : (![0, 0] : Fin 2 → Nat) = fun _ => 0 := funext fun a => by fin_cases a <;> rfl

section Pieces
variable {F : FTy → Type} [FloatOps F]

/-- First point: the accumulator ends at the update of the zero array by the point's blocks. -/
theorem sout3_A_eq (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : cond3_0 i) (hc1 : ¬cond3_1 i)
    (x0 : Vec F S2000x768 .f32) (x1 : Vec F S2000x1 .i32) :
    sout3_A_0 c i arg1 harg1 arg2 harg2 arg3 harg3 arg4 harg4 hc0 hc1 x0 x1 = k3_pay2 x1 x0 (k3_pay1 (F := F)) := by
  unfold sout3_A_0
  rw [View.read_writes_eq_canon _ _ _ (scover3_A_0 c i arg1 harg1 arg2 harg2 arg3 harg3 arg4 harg4 hc0 hc1 x0 x1)]
  unfold kernelRun3_A
  dsimp only
  sl_unfold_words
  rw [View.canon_cons_unit_zero (S := S512x768) hz3, View.readCov_unit_zero (S := S512x768) _ hz3]
  simp only [View.readAt_eq_ld, harg1.read_unread, harg2.read_unread, View.ld_unit_zero (S := S2000x768) hz3, View.ld_unit_zero (S := S2000x1) hz3]

/-- A middle point: the accumulator ends at the update of what it held. -/
theorem sout3_B_eq (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : ¬cond3_1 i)
    (x0 : Vec F S2000x768 .f32) (x1 : Vec F S2000x1 .i32) (xs0 : Vec F S512x768 .f32) :
    sout3_B_0 c i arg1 harg1 arg2 harg2 arg3 harg3 arg4 harg4 hc0 hc1 x0 x1 xs0 = k3_pay2 x1 x0 xs0 := by
  unfold sout3_B_0
  rw [View.read_writes_eq_canon _ _ _ (scover3_B_0 c i arg1 harg1 arg2 harg2 arg3 harg3 arg4 harg4 hc0 hc1 x0 x1 xs0)]
  unfold kernelRun3_B
  dsimp only
  sl_unfold_words
  rw [View.canon_unit_zero hz3]
  simp only [View.readAt_eq_ld, harg1.read_unread, harg2.read_unread, harg4.read_unread, View.ld_unit_zero (S := S2000x768) hz3, View.ld_unit_zero (S := S2000x1) hz3, View.ld_unit_zero (S := S512x768) hz3]

/-- The last point: the accumulator likewise, -/
theorem sout3_C_eq (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) :
    sout3_C_0 c i arg1 harg1 arg2 harg2 arg3 harg3 arg4 harg4 hc0 hc1 x0 x1 xs0 = k3_pay2 x1 x0 xs0 := by
  unfold sout3_C_0
  rw [View.read_writes_eq_canon _ _ _ (scover3_C_0 c i arg1 harg1 arg2 harg2 arg3 harg3 arg4 harg4 hc0 hc1 x0 x1 xs0)]
  unfold kernelRun3_C
  dsimp only
  sl_unfold_words
  rw [View.canon_unit_zero hz3]
  simp only [View.readAt_eq_ld, harg1.read_unread, harg2.read_unread, harg4.read_unread, View.ld_unit_zero (S := S2000x768) hz3, View.ld_unit_zero (S := S2000x1) hz3, View.ld_unit_zero (S := S512x768) hz3]

/-- and the output block receives the updated accumulator. -/
theorem out3_C_eq (c : Dev nD) (i : grid3.Coords) (arg1 : Memref sig .tc .vmem S2000x768 .f32) (harg1 : arg1.IsWhole) (arg2 : Memref sig .tc .vmem S2000x1 .i32) (harg2 : arg2.IsWhole) (arg3 : Memref sig .tc .vmem S512x768 .f32) (harg3 : arg3.IsWhole) (arg4 : Memref sig .tc .vmem S512x768 .f32) (harg4 : arg4.IsWhole) (hc0 : ¬cond3_0 i) (hc1 : cond3_1 i)
    (x0 : Vec F S2000x768 .f32) (x1 : Vec F S2000x1 .i32) (xs0 : Vec F S512x768 .f32) :
    out3_C_2 c i arg1 harg1 arg2 harg2 arg3 harg3 arg4 harg4 hc0 hc1 x0 x1 xs0 = k3_pay2 x1 x0 xs0 := by
  unfold out3_C_2
  rw [View.read_writes_eq_canon _ _ _ (cover3_C_2 c i arg1 harg1 arg2 harg2 arg3 harg3 arg4 harg4 hc0 hc1 x0 x1 xs0)]
  unfold kernelRun3_C
  dsimp only
  sl_unfold_words
  rw [View.canon_unit_zero hz3, View.readCov_unit_zero (S := S512x768) _ hz3]
  simp only [View.readAt_eq_ld, harg1.read_unread, harg2.read_unread, harg4.read_unread, View.ld_unit_zero (S := S2000x768) hz3, View.ld_unit_zero (S := S2000x1) hz3, View.ld_unit_zero (S := S512x768) hz3]

end Pieces

/-! ## The blocks the body loads, as rows of the arrays

At point `t` the row window holds rows `2000·t … 2000·t + 1999` of the feature table and the id window holds the same
rows of the graph-id column; the output window's one block is the whole output array. -/

/-- The printed index maps, decided over the grid. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

variable (V : (c : Dev nD) → (b : Ref sig .tc) → Buf (Elt Ideal) ((c : Thread nD τ).loc b))

/-- The feature rows the body loads at point `t`, -/
abbrev xblk3 (c : Dev nD) (t : Fin cfg3.N) : Vec Ideal S2000x768 .f32 := iblk3 V c 0 t
/-- and the graph ids it loads there. -/
abbrev gblk3 (c : Dev nD) (t : Fin cfg3.N) : Vec Ideal S2000x1 .i32 := iblk3 V c 1 t
/-- The feature table as the region finds it, -/
abbrev xarr3 (c : Dev nD) : S50000x768.Idx → EReal := V c main_v52
/-- and the graph-id column. -/
abbrev garr3 (c : Dev nD) : S50000x1.Idx → BitVec 32 := V c main_v53

/-- Entry `(p, j)` of the loaded rows is entry `(2000·t + p, j)` of the table. -/
theorem xblk3_apply (c : Dev nD) (t : Fin cfg3.N) (p : Fin 2000) (j : Fin 768) (r : Fin 50000) (hr : r.val = 2000 * t.val + p.val) :
    xblk3 V c t (ix2 p j) = xarr3 V c (ix2 r j) := by
  obtain ⟨e0, e1, -⟩ := idx_facts3 t
  unfold xblk3 xarr3 iblk3
  rw [View.read_apply]
  show V c main_v52 _ = V c main_v52 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 768 + 1 * j.val = j.val; rw [e1]; omega

/-- Entry `p` of the loaded ids is entry `2000·t + p` of the column. -/
theorem gblk3_apply (c : Dev nD) (t : Fin cfg3.N) (p : Fin 2000) (r : Fin 50000) (hr : r.val = 2000 * t.val + p.val) :
    gblk3 V c t (ix2 p 0) = garr3 V c (ix2 r 0) := by
  obtain ⟨-, -, e0, e1, -⟩ := idx_facts3 t
  unfold gblk3 garr3 iblk3
  rw [View.read_apply]
  show V c main_v53 _ = V c main_v53 _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 1 + 1 * (0 : Fin 1).val = (0 : Fin 1).val; rw [e1]; rfl

/-- The update of an accumulator by point `t`'s blocks, at an entry: the accumulator there plus block `t`'s sum. -/
theorem pay2_block3 (c : Dev nD) (t : Fin cfg3.N) (acc : Vec Ideal S512x768 .f32) (g : Fin 512) (d : Fin 768) :
    k3_pay2 (F := Ideal) (gblk3 V c t) (xblk3 V c t) acc (ix2 g d)
      = acc (ix2 g d) + poolBlockN (xarr3 V c) (garr3 V c) g d t.val := by
  have hN : cfg3.N = 25 := N_3
  have ht : t.val < 25 := hN ▸ t.isLt
  refine (k3_pay2_apply (gblk3 V c t) (xblk3 V c t) acc g d).trans ?_
  refine congrArg (acc (ix2 g d) + ·) ?_
  unfold poolBlockN
  rw [dif_pos ht]
  unfold poolBlock
  refine Finset.sum_congr rfl fun p _ => ?_
  unfold poolTerm
  rw [gblk3_apply V c t p (poolRow ⟨t.val, ht⟩ p) rfl, xblk3_apply V c t p d (poolRow ⟨t.val, ht⟩ p) rfl]

/-! ## The accumulator after each point -/

/-- After point `n` the accumulator holds, at every entry, the running sum of blocks `0 … n`: the first point starts it
    from zero, every later point adds its block to what the point before left. -/
theorem acc3_eq (c : Dev nD) : ∀ (n : ℕ) (h : n < cfg3.N) (g : Fin 512) (d : Fin 768),
    (outsAt3 V c n h).2 (ix2 g d) = poolRun (xarr3 V c) (garr3 V c) g d n
  | 0, h, g, d => by
    rw [outsAt3_A V c ⟨0, h⟩ rfl (fun hh => by have h' : (0 : ℕ) % 25 = 24 := hh; omega)]
    dsimp only
    refine (congrFun (sout3_A_eq (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) scM3_0 (Memref.isWhole_whole _) _ _ (iblk3 V c 0 ⟨0, h⟩) (iblk3 V c 1 ⟨0, h⟩)) (ix2 g d)).trans ?_
    refine (pay2_block3 V c ⟨0, h⟩ (k3_pay1 (F := Ideal)) g d).trans ?_
    rw [k3_pay1_apply, zero_add, poolRun_zero]
  | n + 1, h, g, d => by
    have hN : cfg3.N = 25 := N_3
    have ih := acc3_eq c n (Nat.lt_of_succ_lt h) g d
    have h0 : ¬(⟨n + 1, h⟩ : Fin cfg3.N).val % 25 = 0 := by dsimp only; omega
    by_cases h1 : (⟨n + 1, h⟩ : Fin cfg3.N).val % 25 = 24
    · rw [outsAt3_C V c ⟨n + 1, h⟩ h0 h1]
      dsimp only
      refine (congrFun (sout3_C_eq (F := Ideal) c (grid3.coords ⟨n + 1, h⟩) (ms3_0 ⟨n + 1, h⟩) (hs3_0 ⟨n + 1, h⟩) (ms3_1 ⟨n + 1, h⟩) (hs3_1 ⟨n + 1, h⟩)
        (ms3_2 ⟨n + 1, h⟩) (hs3_2 ⟨n + 1, h⟩) scM3_0 (Memref.isWhole_whole _) _ _ (iblk3 V c 0 ⟨n + 1, h⟩) (iblk3 V c 1 ⟨n + 1, h⟩)
        (outsAt3 V c n (Nat.lt_of_succ_lt h)).2) (ix2 g d)).trans ?_
      refine (pay2_block3 V c ⟨n + 1, h⟩ (outsAt3 V c n (Nat.lt_of_succ_lt h)).2 g d).trans ?_
      rw [ih, poolRun_succ]
    · rw [outsAt3_B V c ⟨n + 1, h⟩ h0 h1]
      dsimp only
      refine (congrFun (sout3_B_eq (F := Ideal) c (grid3.coords ⟨n + 1, h⟩) (ms3_0 ⟨n + 1, h⟩) (hs3_0 ⟨n + 1, h⟩) (ms3_1 ⟨n + 1, h⟩) (hs3_1 ⟨n + 1, h⟩)
        (ms3_2 ⟨n + 1, h⟩) (hs3_2 ⟨n + 1, h⟩) scM3_0 (Memref.isWhole_whole _) _ _ (iblk3 V c 0 ⟨n + 1, h⟩) (iblk3 V c 1 ⟨n + 1, h⟩)
        (outsAt3 V c n (Nat.lt_of_succ_lt h)).2) (ix2 g d)).trans ?_
      refine (pay2_block3 V c ⟨n + 1, h⟩ (outsAt3 V c n (Nat.lt_of_succ_lt h)).2 g d).trans ?_
      rw [ih, poolRun_succ]

/-! ## The output array -/

/-- The specification's array at an entry given by its coordinates. -/
theorem poolG_ix2 (x : (⟨2, ![50000, 768]⟩ : Shape).Idx → EReal) (gid : (⟨2, ![50000, 1]⟩ : Shape).Idx → BitVec 32)
    (v : Fin 512) (d : Fin 768) : Cert.Spec.poolG x gid (ix2 v d) = Cert.Spec.poolAt x gid v d := rfl

/-- What the last point leaves in the output block, at an entry: the pooled sum. -/
theorem out3_last (c : Dev nD) (t : Fin cfg3.N) (h24 : t.val % 25 = 24) (g : Fin 512) (d : Fin 768) :
    (outsAt3 V c t.val t.isLt).1 (ix2 g d) = Cert.Spec.poolG (xarr3 V c) (garr3 V c) (ix2 g d) := by
  rw [poolG_ix2]
  have hN : cfg3.N = 25 := N_3
  have ht : t.val = 24 := by have := t.isLt; omega
  have h0 : ¬t.val % 25 = 0 := by omega
  have hp : t.val - 1 < cfg3.N := Nat.lt_of_le_of_lt (Nat.sub_le _ _) t.isLt
  rw [outsAt3_C V c t h0 h24]
  dsimp only
  refine (congrFun (out3_C_eq (F := Ideal) c (grid3.coords t) (ms3_0 t) (hs3_0 t) (ms3_1 t) (hs3_1 t)
    (ms3_2 t) (hs3_2 t) scM3_0 (Memref.isWhole_whole _) _ _ (iblk3 V c 0 t) (iblk3 V c 1 t)
    (outsAt3 V c (t.val - 1) hp).2) (ix2 g d)).trans ?_
  refine (pay2_block3 V c t (outsAt3 V c (t.val - 1) hp).2 g d).trans ?_
  rw [acc3_eq V c (t.val - 1) hp g d, ← poolRun_last, ht]
  exact (poolRun_succ _ _ g d 23).symm

/-- The one write-back, at the last point, writes the pooled sums: the output window's one block, read through zero
    offsets, is the whole array. -/
theorem flushed3_2_eq (c : Dev nD) (t : Fin cfg3.N) (hf : (cfg3.win 2).flush t = true) :
    (dat3 V c).flushed 2 t = ((cfg3.win 2).blk t).view.read (Elt Ideal) (Cert.Spec.poolG (xarr3 V c) (garr3 V c)) := by
  have h24 : t.val % 25 = 24 := (flush3_2 t).mp hf
  obtain ⟨-, -, -, -, e0, e1⟩ := idx_facts3 t
  have hout : (outsAt3 V c t.val t.isLt).1 = Cert.Spec.poolG (xarr3 V c) (garr3 V c) := funext fun y => by
    obtain ⟨g, d, rfl⟩ : ∃ (g : Fin 512) (d : Fin 768), y = ix2 g d := ⟨y 0, y 1, eq_ix2 y⟩
    exact out3_last V c t h24 g d
  show (cfg3.win 2).cut (grid3.coords t) ((dat3 V c).after 2 t) = _
  rw [after3_2, hout]
  generalize Cert.Spec.poolG (xarr3 V c) (garr3 V c) = G
  have hz' : (fun a => win3_2.index t a * main_v54.ty.shape.size a) = fun _ => 0 := funext fun a => by
    match a with
    | ⟨0, _⟩ => show win3_2.index t (0 : Fin 2) * 512 = 0; rw [e0]
    | ⟨1, _⟩ => show win3_2.index t (1 : Fin 2) * 768 = 0; rw [e1]
  exact (Memref.read_access_unit_zero (Elt Ideal) main_v54 hz' (fun a => by rw [congrFun hz' a]; simp) G).symm

/-- An index of the output array is in point `t`'s block iff each coordinate is in the block's range. -/
theorem mem_blk3_2 (t : Fin cfg3.N) (i : S512x768.Idx) :
    i ∈ ((cfg3.win 2).blk t).view.set ↔ ∀ a : Fin 2, win3_2.index t a * S512x768.size a ≤ (i a).val ∧ (i a).val < win3_2.index t a * S512x768.size a + S512x768.size a := by
  show i ∈ ((View.whole main_v54).slice (win3_2.rect t)).set ↔ _
  rw [View.set_slice_whole, Rect.mem_set_unit]
  exact Iff.rfl

/-- Every entry of the output array is in the last point's block. -/
theorem cover3_2 (i : S512x768.Idx) :
    ∃ t : Fin cfg3.N, (cfg3.win 2).flush t = true ∧ i ∈ ((cfg3.win 2).blk t).view.set := by
  have hi0 : (i 0).val < 512 := (i 0).isLt
  have hi1 : (i 1).val < 768 := (i 1).isLt
  have hN : cfg3.N = 25 := N_3
  have ht : 24 < cfg3.N := by rw [hN]; decide
  obtain ⟨-, -, -, -, e0, e1⟩ := idx_facts3 ⟨24, ht⟩
  refine ⟨⟨24, ht⟩, (flush3_2 _).mpr rfl, ?_⟩
  rw [mem_blk3_2]
  intro a
  match a with
  | ⟨0, _⟩ =>
    show win3_2.index ⟨24, ht⟩ (0 : Fin 2) * 512 ≤ (i 0).val ∧ (i 0).val < win3_2.index ⟨24, ht⟩ (0 : Fin 2) * 512 + 512
    rw [e0]; omega
  | ⟨1, _⟩ =>
    show win3_2.index ⟨24, ht⟩ (1 : Fin 2) * 768 ≤ (i 1).val ∧ (i 1).val < win3_2.index ⟨24, ht⟩ (1 : Fin 2) * 768 + 768
    rw [e1]; omega

/-- The output array after the region: at entry `(v, d)` the sum, over all 50000 rows, of the rows' feature `d` where the
    row's graph id is `v`. -/
theorem pool_final (c : Dev nD) :
    (Cert.KernelIdeal.Hand.dat3 (F := Ideal) V c).arrAt 2 cfg3.N = Cert.Spec.poolG (V c main_v52) (V c main_v53) :=
  (dat3 V c).arrAt_eq_of_cover 2 _ (fun t hf => flushed3_2_eq V c t hf) cover3_2

end Cert.KernelIdeal.HandV

end
-- ==== Proof.LibNary3.lean ====
/-
  A general lemma about host programs, of no particular kernel: the result of an operation over a LITERAL family of
  three operand references (a concatenation of three arrays), with each operand's contents at its own reference — the
  literal family applied under the binder is replaced by the three contents consed together — so that rewriting can go
  on into the operands. The library states this for four references; this is the same statement for three.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- The result buffer of a three-operand operation holds its function of the three operands' contents, each read at
    its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplifier pass can use. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.KHost.lean ====
/-
  The host stretches of the kernel program read back: from any contents of the buffers, what a stretch of host
  operations leaves in the buffer a later item reads, as the operations' pure term of the contents it started from.
  Here: the three row gathers with wrapped indices, one per layer.
-/
import proofs.«428382_j73890617360784_1_alg».proof.Proof.Gen.KernelIdeal.Launch
import proofs.«428382_j73890617360784_1_alg».proof.Proof.Model
import proofs.«428382_j73890617360784_1_alg».proof.Proof.LibNary3
import Idealize.ShloMosaic.Lib.StableHlo.Run

noncomputable section

namespace Cert.KernelIdeal.HandV

open Idealize.ShloMosaic Idealize.SL.Sem Idealize.ShloMosaic.ValueIdx Idealize.ShloMosaic.TcCoe
open Idealize.ShloMosaic.StableHlo
open Cert.KernelIdeal
open Cert.KernelIdeal.Facts₀ Cert.KernelIdeal.Facts

namespace KHostAux

/-- Contents moved to a typed reference's own buffer type and back are the contents. -/
theorem ofBuf_toBuf {sg : RefSig} {Val : EltTy → Type} {T : BufTy} (x : TRef sg T) (v : T.Contents Val) :
    x.ofBuf (x.toBuf v) = v := by
  obtain ⟨r, h, h1, h2⟩ := x
  subst h
  rfl

/-- A literal reference typed at its own buffer type carries contents unchanged, to the buffer … -/
theorem toBuf_of {sg : RefSig} {Val : EltTy → Type} (r : Ref sg .tc) (h1 : r.space ≠ .host) (h2 : r.isScoped = false)
    (v : r.ty.Contents Val) : (TRef.of (T := r.ty) r rfl h1 h2).toBuf v = v := rfl
/-- … and from it. -/
theorem ofBuf_of {sg : RefSig} {Val : EltTy → Type} (r : Ref sg .tc) (h1 : r.space ≠ .host) (h2 : r.isScoped = false)
    (v : r.ty.Contents Val) : (TRef.of (T := r.ty) r rfl h1 h2).ofBuf v = v := rfl

end KHostAux

open KHostAux

/-! ## The takes, for any float values -/

section AnyF
variable {F : FTy → Type} [FloatOps F] (W : Valuation τ sig (Elt F))

/-- Layer 1's take: the rows of the feature table at the wrapped source indices. -/
theorem s01_v4_any : StableHlo.after (Cert.KernelIdeal.Gen.hostOps0_1 (F := F)) W main_v4 = takeSel (F := F) (W main_arg0) (W main_v1) := by
  show StableHlo.after Cert.KernelIdeal.Gen.hostOps0_1 W (Proc.devRef .tc main_v4) = _
  after_results_simp
  have e1 : (TRef.of (T := ⟨S800000, .i32⟩) main_v1).ofBuf (W (Proc.devRef .tc main_v1)) = (W (Proc.devRef .tc main_v1) : IVec S800000 32) :=
    ofBuf_of main_v1 _ _ _
  have e0 : (TRef.of (T := ⟨S50000x256, .f32⟩) main_arg0).ofBuf (W (Proc.devRef .tc main_arg0)) = (W (Proc.devRef .tc main_arg0) : FVec F S50000x256 .f32) :=
    ofBuf_of main_arg0 _ _ _
  simp only [ofBuf_toBuf, e1, e0]
  refine (toBuf_of main_v4 _ _ _).trans ?_
  unfold takeSel wrapCol
  rfl

/-- Layer 2's take: the rows of layer 1's output. -/
theorem s1_v20_any : StableHlo.after (Cert.KernelIdeal.Gen.hostOps1 (F := F)) W main_v20 = takeSel (F := F) (W main_v19) (W main_v1) := by
  show StableHlo.after Cert.KernelIdeal.Gen.hostOps1 W (Proc.devRef .tc main_v20) = _
  after_results_simp
  have e1 : (TRef.of (T := ⟨S800000, .i32⟩) main_v1).ofBuf (W (Proc.devRef .tc main_v1)) = (W (Proc.devRef .tc main_v1) : IVec S800000 32) :=
    ofBuf_of main_v1 _ _ _
  have e0 : (TRef.of (T := ⟨S50000x256, .f32⟩) main_v19).ofBuf (W (Proc.devRef .tc main_v19)) = (W (Proc.devRef .tc main_v19) : FVec F S50000x256 .f32) :=
    ofBuf_of main_v19 _ _ _
  simp only [ofBuf_toBuf, e1, e0]
  refine (toBuf_of main_v20 _ _ _).trans ?_
  unfold takeSel wrapCol
  rfl

/-- Layer 3's take: the rows of layer 2's output. -/
theorem s2_v36_any : StableHlo.after (Cert.KernelIdeal.Gen.hostOps2 (F := F)) W main_v36 = takeSel (F := F) (W main_v35) (W main_v1) := by
  show StableHlo.after Cert.KernelIdeal.Gen.hostOps2 W (Proc.devRef .tc main_v36) = _
  after_results_simp
  have e1 : (TRef.of (T := ⟨S800000, .i32⟩) main_v1).ofBuf (W (Proc.devRef .tc main_v1)) = (W (Proc.devRef .tc main_v1) : IVec S800000 32) :=
    ofBuf_of main_v1 _ _ _
  have e0 : (TRef.of (T := ⟨S50000x256, .f32⟩) main_v35).ofBuf (W (Proc.devRef .tc main_v35)) = (W (Proc.devRef .tc main_v35) : FVec F S50000x256 .f32) :=
    ofBuf_of main_v35 _ _ _
  simp only [ofBuf_toBuf, e1, e0]
  refine (toBuf_of main_v36 _ _ _).trans ?_
  unfold takeSel wrapCol
  rfl

end AnyF

/-! ## The same over the extended reals -/

variable (W : Valuation τ sig (Elt Ideal))

theorem s01_v4 : StableHlo.after (Cert.KernelIdeal.Gen.hostOps0_1 (F := Ideal)) W main_v4 = takeSel (F := Ideal) (W main_arg0) (W main_v1) :=
  s01_v4_any W
theorem s1_v20 : StableHlo.after (Cert.KernelIdeal.Gen.hostOps1 (F := Ideal)) W main_v20 = takeSel (F := Ideal) (W main_v19) (W main_v1) :=
  s1_v20_any W
theorem s2_v36 : StableHlo.after (Cert.KernelIdeal.Gen.hostOps2 (F := Ideal)) W main_v36 = takeSel (F := Ideal) (W main_v35) (W main_v1) :=
  s2_v36_any W

end Cert.KernelIdeal.HandV

end
-- ==== Proof.KHostB.lean ====
/-
  The plain host stretches of the network's three layers, read back: what each stretch leaves in the arrays a later
  region or stretch reads, as a term of the arrays it starts from, for any starting contents. Before a layer's region the
  host adds to every row of the table the scatter-add of the taken rows by destination row, and cuts that layer's two
  weight matrices and two bias rows out of the stacks of three.
-/
import proofs.«428382_j73890617360784_1_alg».proof.Proof.Gen.KernelIdeal.Launch
import proofs.«428382_j73890617360784_1_alg».proof.Proof.Model
import proofs.«428382_j73890617360784_1_alg».proof.Proof.LibNary3
import Idealize.ShloMosaic.Lib.StableHlo.Run

noncomputable section

namespace Cert.KernelIdeal.HandV

open Idealize.ShloMosaic Idealize.SL.Sem Idealize.ShloMosaic.ValueIdx Idealize.ShloMosaic.TcCoe
open Idealize.ShloMosaic.StableHlo
open Cert.KernelIdeal
open Cert.KernelIdeal.Facts₀ Cert.KernelIdeal.Facts

variable (W : Valuation τ sig (Elt Ideal))

/-! ## Before the first take: the two rows of the edge list -/

/-- Row 0 of the edge list, the source rows. -/
theorem s0_v1 : StableHlo.after (Cert.KernelIdeal.Gen.hostOps0 (F := Ideal)) W main_v1 = srcRow (W main_arg1) := by
  show StableHlo.after Cert.KernelIdeal.Gen.hostOps0 W (Proc.devRef .tc main_v1) = _
  after_results
  rfl

/-- Row 1 of the edge list, the destination rows. -/
theorem s0_v3 : StableHlo.after (Cert.KernelIdeal.Gen.hostOps0 (F := Ideal)) W main_v3
    = shapeCast S800000 (extractStridedSlice S1x800000 ![1, 0] (W main_arg1) slices_S2x800000_S1x800000_1_0) shapeCasts_S1x800000_S800000 := by
  show StableHlo.after Cert.KernelIdeal.Gen.hostOps0 W (Proc.devRef .tc main_v3) = _
  after_results
  rfl

/-! ## Before the first layer's region -/

/-- The table plus the scatter-add of the taken rows by destination row. -/
theorem s02_v8 : StableHlo.after (Cert.KernelIdeal.Gen.hostOps0_2 (F := Ideal)) W main_v8 = (addf (W main_arg0) (Host.scatterAdd scatter_S50000x256_S800000x1_S800000x256_1_0_0_1
        (broadcastInDim S50000x256 ![] bcast_S_S50000x256 (constant S_ .f32 0x00000000#32))
        (broadcastInDim S800000x1 ![0] bcast_S800000_S800000x1_0 (W main_v3)) (W main_v4)) : FVec Ideal S50000x256 .f32) := by
  show StableHlo.after Cert.KernelIdeal.Gen.hostOps0_2 W (Proc.devRef .tc main_v8) = _
  after_results

/-- The layer's first weight matrix. -/
theorem s02_v10 : StableHlo.after (Cert.KernelIdeal.Gen.hostOps0_2 (F := Ideal)) W main_v10 = wA0 (W main_arg3) := by
  show StableHlo.after Cert.KernelIdeal.Gen.hostOps0_2 W (Proc.devRef .tc main_v10) = _
  after_results
  rfl

/-- The layer's first bias row. -/
theorem s02_v17 : StableHlo.after (Cert.KernelIdeal.Gen.hostOps0_2 (F := Ideal)) W main_v17 = bR0 (W main_arg4) := by
  show StableHlo.after Cert.KernelIdeal.Gen.hostOps0_2 W (Proc.devRef .tc main_v17) = _
  after_results
  rfl

/-- The layer's second weight matrix. -/
theorem s02_v14 : StableHlo.after (Cert.KernelIdeal.Gen.hostOps0_2 (F := Ideal)) W main_v14 = wA0 (W main_arg5) := by
  show StableHlo.after Cert.KernelIdeal.Gen.hostOps0_2 W (Proc.devRef .tc main_v14) = _
  after_results
  rfl

/-- The layer's second bias row. -/
theorem s02_v18 : StableHlo.after (Cert.KernelIdeal.Gen.hostOps0_2 (F := Ideal)) W main_v18 = bR0 (W main_arg6) := by
  show StableHlo.after Cert.KernelIdeal.Gen.hostOps0_2 W (Proc.devRef .tc main_v18) = _
  after_results
  rfl

/-! ## Before the second layer's region -/

/-- The table plus the scatter-add of the taken rows by destination row. -/
theorem s11_v24 : StableHlo.after (Cert.KernelIdeal.Gen.hostOps1_1 (F := Ideal)) W main_v24 = (addf (W main_v19) (Host.scatterAdd scatter_S50000x256_S800000x1_S800000x256_1_0_0_1
        (broadcastInDim S50000x256 ![] bcast_S_S50000x256 (constant S_ .f32 0x00000000#32))
        (broadcastInDim S800000x1 ![0] bcast_S800000_S800000x1_0 (W main_v3)) (W main_v20)) : FVec Ideal S50000x256 .f32) := by
  show StableHlo.after Cert.KernelIdeal.Gen.hostOps1_1 W (Proc.devRef .tc main_v24) = _
  after_results

/-- The layer's first weight matrix. -/
theorem s11_v26 : StableHlo.after (Cert.KernelIdeal.Gen.hostOps1_1 (F := Ideal)) W main_v26 = wA1 (W main_arg3) := by
  show StableHlo.after Cert.KernelIdeal.Gen.hostOps1_1 W (Proc.devRef .tc main_v26) = _
  after_results
  rfl

/-- The layer's first bias row. -/
theorem s11_v33 : StableHlo.after (Cert.KernelIdeal.Gen.hostOps1_1 (F := Ideal)) W main_v33 = bR1 (W main_arg4) := by
  show StableHlo.after Cert.KernelIdeal.Gen.hostOps1_1 W (Proc.devRef .tc main_v33) = _
  after_results
  rfl

/-- The layer's second weight matrix. -/
theorem s11_v30 : StableHlo.after (Cert.KernelIdeal.Gen.hostOps1_1 (F := Ideal)) W main_v30 = wA1 (W main_arg5) := by
  show StableHlo.after Cert.KernelIdeal.Gen.hostOps1_1 W (Proc.devRef .tc main_v30) = _
  after_results
  rfl

/-- The layer's second bias row. -/
theorem s11_v34 : StableHlo.after (Cert.KernelIdeal.Gen.hostOps1_1 (F := Ideal)) W main_v34 = bR1 (W main_arg6) := by
  show StableHlo.after Cert.KernelIdeal.Gen.hostOps1_1 W (Proc.devRef .tc main_v34) = _
  after_results
  rfl

/-! ## Before the third layer's region -/

/-- The table plus the scatter-add of the taken rows by destination row. -/
theorem s21_v40 : StableHlo.after (Cert.KernelIdeal.Gen.hostOps2_1 (F := Ideal)) W main_v40 = (addf (W main_v35) (Host.scatterAdd scatter_S50000x256_S800000x1_S800000x256_1_0_0_1
        (broadcastInDim S50000x256 ![] bcast_S_S50000x256 (constant S_ .f32 0x00000000#32))
        (broadcastInDim S800000x1 ![0] bcast_S800000_S800000x1_0 (W main_v3)) (W main_v36)) : FVec Ideal S50000x256 .f32) := by
  show StableHlo.after Cert.KernelIdeal.Gen.hostOps2_1 W (Proc.devRef .tc main_v40) = _
  after_results

/-- The layer's first weight matrix. -/
theorem s21_v42 : StableHlo.after (Cert.KernelIdeal.Gen.hostOps2_1 (F := Ideal)) W main_v42 = wA2 (W main_arg3) := by
  show StableHlo.after Cert.KernelIdeal.Gen.hostOps2_1 W (Proc.devRef .tc main_v42) = _
  after_results
  rfl

/-- The layer's first bias row. -/
theorem s21_v49 : StableHlo.after (Cert.KernelIdeal.Gen.hostOps2_1 (F := Ideal)) W main_v49 = bR2 (W main_arg4) := by
  show StableHlo.after Cert.KernelIdeal.Gen.hostOps2_1 W (Proc.devRef .tc main_v49) = _
  after_results
  rfl

/-- The layer's second weight matrix. -/
theorem s21_v46 : StableHlo.after (Cert.KernelIdeal.Gen.hostOps2_1 (F := Ideal)) W main_v46 = wA2 (W main_arg5) := by
  show StableHlo.after Cert.KernelIdeal.Gen.hostOps2_1 W (Proc.devRef .tc main_v46) = _
  after_results
  rfl

/-- The layer's second bias row. -/
theorem s21_v50 : StableHlo.after (Cert.KernelIdeal.Gen.hostOps2_1 (F := Ideal)) W main_v50 = bR2 (W main_arg6) := by
  show StableHlo.after Cert.KernelIdeal.Gen.hostOps2_1 W (Proc.devRef .tc main_v50) = _
  after_results
  rfl

end Cert.KernelIdeal.HandV

end
-- ==== Proof.KHostC.lean ====
/-
  The last host stretches of the kernel program read back, from any contents of the buffers: the three layers' outputs
  laid side by side and the graph ids turned into a column (the stretch before the pooling region); each graph's node
  count before the clip, and the constant one (the stretch after it); and the final division of the pooled sums by the
  clipped counts. Each is the stretch's operations composed: an operation's result buffer holds its function of its
  operands' contents, every other buffer is left as it was.
-/
import proofs.«428382_j73890617360784_1_alg».proof.Proof.Gen.KernelIdeal.Launch
import proofs.«428382_j73890617360784_1_alg».proof.Proof.Model
import proofs.«428382_j73890617360784_1_alg».proof.Proof.LibNary3
import Idealize.ShloMosaic.Lib.StableHlo.Run

noncomputable section

namespace Cert.KernelIdeal.HandV

open Idealize.ShloMosaic Idealize.SL.Sem Idealize.ShloMosaic.ValueIdx Idealize.ShloMosaic.TcCoe
open Idealize.ShloMosaic.StableHlo
open Cert.KernelIdeal
open Cert.KernelIdeal.Facts₀ Cert.KernelIdeal.Facts

variable (W : Valuation τ sig (Elt Ideal))

/-! ## The stretch before the pooling region -/

/-- The node result buffer: the three layers' output arrays concatenated along the feature axis. -/
theorem s3_v52 : StableHlo.after (Cert.KernelIdeal.Gen.hostOps3 (F := Ideal)) W main_v52
    = (concatenate S50000x768 1 [⟨S50000x256, W main_v19⟩, ⟨S50000x256, W main_v35⟩, ⟨S50000x256, W main_v51⟩]
        concatenates_S50000x256_S50000x256_S50000x256_S50000x768_d1 : FVec Ideal S50000x768 .f32) := by
  show StableHlo.after Cert.KernelIdeal.Gen.hostOps3 W (Proc.devRef .tc main_v52) = _
  after_results
  rfl

/-- The graph ids as a [50000, 1] column. -/
theorem s3_v53 : StableHlo.after (Cert.KernelIdeal.Gen.hostOps3 (F := Ideal)) W main_v53
    = shapeCast S50000x1 (W main_arg2) shapeCasts_S50000_S50000x1 := by
  show StableHlo.after Cert.KernelIdeal.Gen.hostOps3 W (Proc.devRef .tc main_v53) = _
  after_results
  rfl

/-! ## The stretch after the pooling region -/

/-- Each graph's node count: ones scattered into a zero column at the graph ids. -/
theorem s4_v58 : StableHlo.after (Cert.KernelIdeal.Gen.hostOps4 (F := Ideal)) W main_v58
    = (Host.scatterAdd scatter_S512x1_S50000x1_S50000x1_1_0_0_1 (broadcastInDim S512x1 ![] bcast_S_S512x1 (constant S_ .f32 0x00000000#32))
        (broadcastInDim S50000x1 ![0] bcast_S50000_S50000x1_0 (W main_arg2))
        (broadcastInDim S50000x1 ![] bcast_S_S50000x1 (constant S_ .f32 0x3F800000#32)) : FVec Ideal S512x1 .f32) := by
  show StableHlo.after Cert.KernelIdeal.Gen.hostOps4 W (Proc.devRef .tc main_v58) = _
  after_results

/-- The constant one the counts are clipped against. -/
theorem s4_cst4 : StableHlo.after (Cert.KernelIdeal.Gen.hostOps4 (F := Ideal)) W main_cst_4
    = (constant S_ .f32 0x3F800000#32 : FVec Ideal S_ .f32) := by
  show StableHlo.after Cert.KernelIdeal.Gen.hostOps4 W (Proc.devRef .tc main_cst_4) = _
  after_results

/-! ## The last stretch -/

/-- The graph result buffer: the pooled sums divided by the clipped counts, spread over the feature axis. -/
theorem s42_v61 : StableHlo.after (Cert.KernelIdeal.Gen.hostOps4_2 (F := Ideal)) W main_v61
    = (Host.divf (W main_v54) (broadcastInDim S512x768 ![0, 1] bcast_S512x1_S512x768_0_1 (W main_v59)) : FVec Ideal S512x768 .f32) := by
  show StableHlo.after Cert.KernelIdeal.Gen.hostOps4_2 W (Proc.devRef .tc main_v61) = _
  after_results

end Cert.KernelIdeal.HandV

end
-- ==== Proof.KHostD.lean ====
/-
  The clip of the per-graph node counts, read back: the host raises every count to at least one before the pooled sums
  are divided by it. The stretch's three operations broadcast the scalar one to a column of 512 and take the entrywise
  maximum with the column of counts.
-/
import proofs.«428382_j73890617360784_1_alg».proof.Proof.Gen.KernelIdeal.Launch
import proofs.«428382_j73890617360784_1_alg».proof.Proof.Model
import proofs.«428382_j73890617360784_1_alg».proof.Proof.LibNary3
import Idealize.ShloMosaic.Lib.StableHlo.Run

noncomputable section

namespace Cert.KernelIdeal.HandV

open Idealize.ShloMosaic Idealize.SL.Sem Idealize.ShloMosaic.ValueIdx Idealize.ShloMosaic.TcCoe
open Idealize.ShloMosaic.StableHlo
open Cert.KernelIdeal
open Cert.KernelIdeal.Facts₀ Cert.KernelIdeal.Facts

variable (W : Valuation τ sig (Elt Ideal))

/-- The counts clipped below by the broadcast scalar: the entrywise maximum of the scalar's column and the counts. -/
theorem s41_v59 : StableHlo.after (Cert.KernelIdeal.Gen.hostOps4_1 (F := Ideal)) W main_v59
    = (maximumf (broadcastInDim S512x1 ![] bcast_S_S512x1 (id (W main_cst_4))) (W main_v58) : FVec Ideal S512x1 .f32) := by
  show StableHlo.after Cert.KernelIdeal.Gen.hostOps4_1 W (Proc.devRef .tc main_v59) = _
  after_results
  rfl

end Cert.KernelIdeal.HandV

end
-- ==== Proof.KVal.lean ====
/-
  The idealized kernel program's two results are the model's.

  The run's boundary contents are followed from the launch memory to the end. The first host stretches slice the edge
  list into its source and destination rows, take the feature rows at the wrapped sources (under the precondition every
  source lies in [-50000, 50000), so the take is the plain gather), add them into the destination rows and slice the
  first layer's weights and biases; the first perceptron region then leaves the first layer in its output array. The
  same happens twice more over the previous layer's output. The three outputs are laid side by side (the node result),
  the pooling region sums the rows of each graph id, and the last stretches count each graph's nodes (at least one) and
  divide. Every buffer read at a boundary is either written by the item just before it, or carried unchanged across the
  items that do not write it; the seven arguments are never written.
-/
import proofs.«428382_j73890617360784_1_alg».proof.Proof.Run
import proofs.«428382_j73890617360784_1_alg».proof.Proof.Model
import proofs.«428382_j73890617360784_1_alg».proof.Proof.MlpValue
import proofs.«428382_j73890617360784_1_alg».proof.Proof.MlpValue1
import proofs.«428382_j73890617360784_1_alg».proof.Proof.MlpValue2
import proofs.«428382_j73890617360784_1_alg».proof.Proof.PoolValue
import proofs.«428382_j73890617360784_1_alg».proof.Proof.KHost
import proofs.«428382_j73890617360784_1_alg».proof.Proof.KHostB
import proofs.«428382_j73890617360784_1_alg».proof.Proof.KHostC
import proofs.«428382_j73890617360784_1_alg».proof.Proof.KHostD

noncomputable section

namespace Cert.KernelIdeal.HandV
open Cert.KernelIdeal
open Idealize.ShloMosaic Idealize.ShloMosaic.TcCoe Idealize.SL.Sem Idealize.ShloMosaic.ValueIdx
open Cert.KernelIdeal.Facts₀ Cert.KernelIdeal.Facts

variable (m : (ℓ : Loc nD τ sig) → Buf (Elt Ideal) ℓ)

/-! ## The argument arrays -/

/-- Core `c`'s seven argument arrays as launched. -/
abbrev a0 (c : Dev nD) : FVec Ideal S50000x256 .f32 := m ((c.tc : Thread nD τ).loc main_arg0)
abbrev a1 (c : Dev nD) : IVec S2x800000 32 := m ((c.tc : Thread nD τ).loc main_arg1)
abbrev a2 (c : Dev nD) : IVec S50000 32 := m ((c.tc : Thread nD τ).loc main_arg2)
abbrev a3 (c : Dev nD) : FVec Ideal S3x256x256 .f32 := m ((c.tc : Thread nD τ).loc main_arg3)
abbrev a4 (c : Dev nD) : FVec Ideal S3x256 .f32 := m ((c.tc : Thread nD τ).loc main_arg4)
abbrev a5 (c : Dev nD) : FVec Ideal S3x256x256 .f32 := m ((c.tc : Thread nD τ).loc main_arg5)
abbrev a6 (c : Dev nD) : FVec Ideal S3x256 .f32 := m ((c.tc : Thread nD τ).loc main_arg6)

/-- A reference no item of @main writes: outside every host stretch's written list and no region's output array. -/
def Stable (r : Ref sig .tc) : Prop :=
  r ∉ Gen.hostOps0_W ∧ r ∉ Gen.hostOps0_1_W ∧ r ∉ Gen.hostOps0_2_W ∧ r ≠ main_v19 ∧ r ∉ Gen.hostOps1_W ∧ r ∉ Gen.hostOps1_1_W
    ∧ r ≠ main_v35 ∧ r ∉ Gen.hostOps2_W ∧ r ∉ Gen.hostOps2_1_W ∧ r ≠ main_v51 ∧ r ∉ Gen.hostOps3_W ∧ r ≠ main_v54
    ∧ r ∉ Gen.hostOps4_W

theorem stable_arg0 : Stable main_arg0 := by unfold Stable; decide
theorem stable_arg1 : Stable main_arg1 := by unfold Stable; decide
theorem stable_arg2 : Stable main_arg2 := by unfold Stable; decide
theorem stable_arg3 : Stable main_arg3 := by unfold Stable; decide
theorem stable_arg4 : Stable main_arg4 := by unfold Stable; decide
theorem stable_arg5 : Stable main_arg5 := by unfold Stable; decide
theorem stable_arg6 : Stable main_arg6 := by unfold Stable; decide

/-! ## A buffer a stretch does not write is carried across it -/

theorem W5_of (c : Dev nD) (r : Ref sig .tc) (h : r ∉ Gen.hostOps1_W) : Hand.W5 m c r = Hand.W4 m c r :=
  StableHlo.after_of_writes_sub Gen.hostOps1 _ Gen.hostOps1_writes h
theorem W6_of (c : Dev nD) (r : Ref sig .tc) (h : r ∉ Gen.hostOps1_1_W) : Hand.W6 m c r = Hand.W5 m c r :=
  StableHlo.after_of_writes_sub Gen.hostOps1_1 _ Gen.hostOps1_1_writes h
theorem W8_of (c : Dev nD) (r : Ref sig .tc) (h : r ∉ Gen.hostOps2_W) : Hand.W8 m c r = Hand.W7 m c r :=
  StableHlo.after_of_writes_sub Gen.hostOps2 _ Gen.hostOps2_writes h
theorem W9_of (c : Dev nD) (r : Ref sig .tc) (h : r ∉ Gen.hostOps2_1_W) : Hand.W9 m c r = Hand.W8 m c r :=
  StableHlo.after_of_writes_sub Gen.hostOps2_1 _ Gen.hostOps2_1_writes h
theorem W11_of (c : Dev nD) (r : Ref sig .tc) (h : r ∉ Gen.hostOps3_W) : Hand.W11 m c r = Hand.W10 m c r :=
  StableHlo.after_of_writes_sub Gen.hostOps3 _ Gen.hostOps3_writes h

/-! ## A reference nothing writes holds its launch contents at every boundary -/

section StableRefs
theorem st_V1 {r : Ref sig .tc} (h : Stable r) (c : Dev nD) : Gen.V1 m c r = m ((c.tc : Thread nD τ).loc r) := Gen.V1_of m c r h.1
theorem st_V2 {r : Ref sig .tc} (h : Stable r) (c : Dev nD) : Gen.V2 m c r = m ((c.tc : Thread nD τ).loc r) := (Gen.V2_of m c r h.2.1).trans (st_V1 m h c)
theorem st_V3 {r : Ref sig .tc} (h : Stable r) (c : Dev nD) : Gen.V3 m c r = m ((c.tc : Thread nD τ).loc r) := (Gen.V3_of m c r h.2.2.1).trans (st_V2 m h c)
theorem st_W4 {r : Ref sig .tc} (h : Stable r) (c : Dev nD) : Hand.W4 m c r = m ((c.tc : Thread nD τ).loc r) := (Hand.W4_of_ne m c r h.2.2.2.1).trans (st_V3 m h c)
theorem st_W5 {r : Ref sig .tc} (h : Stable r) (c : Dev nD) : Hand.W5 m c r = m ((c.tc : Thread nD τ).loc r) := (W5_of m c r h.2.2.2.2.1).trans (st_W4 m h c)
theorem st_W6 {r : Ref sig .tc} (h : Stable r) (c : Dev nD) : Hand.W6 m c r = m ((c.tc : Thread nD τ).loc r) := (W6_of m c r h.2.2.2.2.2.1).trans (st_W5 m h c)
theorem st_W7 {r : Ref sig .tc} (h : Stable r) (c : Dev nD) : Hand.W7 m c r = m ((c.tc : Thread nD τ).loc r) := (Hand.W7_of_ne m c r h.2.2.2.2.2.2.1).trans (st_W6 m h c)
theorem st_W8 {r : Ref sig .tc} (h : Stable r) (c : Dev nD) : Hand.W8 m c r = m ((c.tc : Thread nD τ).loc r) := (W8_of m c r h.2.2.2.2.2.2.2.1).trans (st_W7 m h c)
theorem st_W9 {r : Ref sig .tc} (h : Stable r) (c : Dev nD) : Hand.W9 m c r = m ((c.tc : Thread nD τ).loc r) := (W9_of m c r h.2.2.2.2.2.2.2.2.1).trans (st_W8 m h c)
theorem st_W10 {r : Ref sig .tc} (h : Stable r) (c : Dev nD) : Hand.W10 m c r = m ((c.tc : Thread nD τ).loc r) := (Hand.W10_of_ne m c r h.2.2.2.2.2.2.2.2.2.1).trans (st_W9 m h c)
theorem st_W11 {r : Ref sig .tc} (h : Stable r) (c : Dev nD) : Hand.W11 m c r = m ((c.tc : Thread nD τ).loc r) := (W11_of m c r h.2.2.2.2.2.2.2.2.2.2.1).trans (st_W10 m h c)
theorem st_W12 {r : Ref sig .tc} (h : Stable r) (c : Dev nD) : Hand.W12 m c r = m ((c.tc : Thread nD τ).loc r) := (Hand.W12_of_ne m c r h.2.2.2.2.2.2.2.2.2.2.2.1).trans (st_W11 m h c)
end StableRefs

/-! ## The first aggregation (boundaries 1 to 3) -/

/-- Row 0 of the edge list, the source rows, after the first stretch. -/
theorem V1_v1 (c : Dev nD) : Gen.V1 m c main_v1 = srcRow (a1 m c) := s0_v1 (Gen.V0 m c)
/-- Row 1, the destination rows. -/
theorem V1_v3 (c : Dev nD) : Gen.V1 m c main_v3
    = shapeCast S800000 (extractStridedSlice S1x800000 ![1, 0] (a1 m c) slices_S2x800000_S1x800000_1_0) shapeCasts_S1x800000_S800000 :=
  s0_v3 (Gen.V0 m c)

/-- The source rows and the destination rows are written once and read at every layer. -/
theorem V3_v1 (c : Dev nD) : Gen.V3 m c main_v1 = srcRow (a1 m c) :=
  (Gen.V3_of m c main_v1 (by decide)).trans ((Gen.V2_of m c main_v1 (by decide)).trans (V1_v1 m c))
theorem V3_v3 (c : Dev nD) : Gen.V3 m c main_v3
    = shapeCast S800000 (extractStridedSlice S1x800000 ![1, 0] (a1 m c) slices_S2x800000_S1x800000_1_0) shapeCasts_S1x800000_S800000 :=
  (Gen.V3_of m c main_v3 (by decide)).trans ((Gen.V2_of m c main_v3 (by decide)).trans (V1_v3 m c))
theorem V2_v3 (c : Dev nD) : Gen.V2 m c main_v3
    = shapeCast S800000 (extractStridedSlice S1x800000 ![1, 0] (a1 m c) slices_S2x800000_S1x800000_1_0) shapeCasts_S1x800000_S800000 :=
  (Gen.V2_of m c main_v3 (by decide)).trans (V1_v3 m c)

/-- The rows taken for the first layer: under the precondition the take is the plain gather at the wrapped sources. -/
theorem V2_v4 (hpre : Cert.Pre_KernelIdeal m) (c : Dev nD) : (Gen.V2 m c main_v4 : FVec Ideal S800000x256 .f32)
    = Host.gather gather_S50000x256_S800000x1_S800000x256_1_0_n_n_0_1_1256 (a0 m c) (wrapCol (srcRow (a1 m c))) := by
  refine (s01_v4 (Gen.V1 m c)).trans ?_
  rw [st_V1 m stable_arg0 c, V1_v1 m c]
  exact take_eq _ _ (src_range_of_pre m hpre c)

/-- The first layer's aggregated table. -/
theorem V3_v8 (hpre : Cert.Pre_KernelIdeal m) (c : Dev nD) : (Gen.V3 m c main_v8 : FVec Ideal S50000x256 .f32) = agg (a0 m c) (a1 m c) := by
  refine (s02_v8 (Gen.V2 m c)).trans ?_
  rw [st_V2 m stable_arg0 c, V2_v3 m c, V2_v4 m hpre c]
  rfl
theorem V3_v10 (c : Dev nD) : Gen.V3 m c main_v10 = wA0 (a3 m c) := by
  refine (s02_v10 (Gen.V2 m c)).trans ?_; rw [st_V2 m stable_arg3 c]
theorem V3_v17 (c : Dev nD) : Gen.V3 m c main_v17 = bR0 (a4 m c) := by
  refine (s02_v17 (Gen.V2 m c)).trans ?_; rw [st_V2 m stable_arg4 c]
theorem V3_v14 (c : Dev nD) : Gen.V3 m c main_v14 = wA0 (a5 m c) := by
  refine (s02_v14 (Gen.V2 m c)).trans ?_; rw [st_V2 m stable_arg5 c]
theorem V3_v18 (c : Dev nD) : Gen.V3 m c main_v18 = bR0 (a6 m c) := by
  refine (s02_v18 (Gen.V2 m c)).trans ?_; rw [st_V2 m stable_arg6 c]

/-- What the first region leaves: the first layer. -/
theorem o4_eq (hpre : Cert.Pre_KernelIdeal m) (c : Dev nD) : Hand.o4 m c = layer1 (a0 m c) (a1 m c) (a3 m c) (a4 m c) (a5 m c) (a6 m c) := by
  refine (mlp_final0 (Hand.tcOf (Gen.V3 m)) c).trans ?_
  show Cert.Spec.mlpG (Gen.V3 m c main_v8) (Gen.V3 m c main_v10) (Gen.V3 m c main_v17) (Gen.V3 m c main_v14) (Gen.V3 m c main_v18) = _
  rw [V3_v8 m hpre c, V3_v10 m c, V3_v17 m c, V3_v14 m c, V3_v18 m c]
  rfl

/-! ## The second layer (boundaries 4 to 7) -/

theorem W4_v19 (hpre : Cert.Pre_KernelIdeal m) (c : Dev nD) : Hand.W4 m c main_v19 = layer1 (a0 m c) (a1 m c) (a3 m c) (a4 m c) (a5 m c) (a6 m c) :=
  (Hand.W4_self m c).trans (o4_eq m hpre c)
theorem W4_v1 (c : Dev nD) : Hand.W4 m c main_v1 = srcRow (a1 m c) :=
  (Hand.W4_of_ne m c main_v1 (by decide)).trans (V3_v1 m c)
theorem W4_v3 (c : Dev nD) : Hand.W4 m c main_v3
    = shapeCast S800000 (extractStridedSlice S1x800000 ![1, 0] (a1 m c) slices_S2x800000_S1x800000_1_0) shapeCasts_S1x800000_S800000 :=
  (Hand.W4_of_ne m c main_v3 (by decide)).trans (V3_v3 m c)

theorem W5_v19 (hpre : Cert.Pre_KernelIdeal m) (c : Dev nD) : Hand.W5 m c main_v19 = layer1 (a0 m c) (a1 m c) (a3 m c) (a4 m c) (a5 m c) (a6 m c) :=
  (W5_of m c main_v19 (by decide)).trans (W4_v19 m hpre c)
theorem W5_v3 (c : Dev nD) : Hand.W5 m c main_v3
    = shapeCast S800000 (extractStridedSlice S1x800000 ![1, 0] (a1 m c) slices_S2x800000_S1x800000_1_0) shapeCasts_S1x800000_S800000 :=
  (W5_of m c main_v3 (by decide)).trans (W4_v3 m c)
theorem W5_v20 (hpre : Cert.Pre_KernelIdeal m) (c : Dev nD) : (Hand.W5 m c main_v20 : FVec Ideal S800000x256 .f32)
    = Host.gather gather_S50000x256_S800000x1_S800000x256_1_0_n_n_0_1_1256 (layer1 (a0 m c) (a1 m c) (a3 m c) (a4 m c) (a5 m c) (a6 m c))
        (wrapCol (srcRow (a1 m c))) := by
  refine (s1_v20 (Hand.W4 m c)).trans ?_
  rw [W4_v19 m hpre c, W4_v1 m c]
  exact take_eq _ _ (src_range_of_pre m hpre c)

theorem W6_v24 (hpre : Cert.Pre_KernelIdeal m) (c : Dev nD) : (Hand.W6 m c main_v24 : FVec Ideal S50000x256 .f32)
    = agg (layer1 (a0 m c) (a1 m c) (a3 m c) (a4 m c) (a5 m c) (a6 m c)) (a1 m c) := by
  refine (s11_v24 (Hand.W5 m c)).trans ?_
  rw [W5_v19 m hpre c, W5_v3 m c, W5_v20 m hpre c]
  rfl
theorem W6_v26 (c : Dev nD) : Hand.W6 m c main_v26 = wA1 (a3 m c) := by
  refine (s11_v26 (Hand.W5 m c)).trans ?_; rw [st_W5 m stable_arg3 c]
theorem W6_v33 (c : Dev nD) : Hand.W6 m c main_v33 = bR1 (a4 m c) := by
  refine (s11_v33 (Hand.W5 m c)).trans ?_; rw [st_W5 m stable_arg4 c]
theorem W6_v30 (c : Dev nD) : Hand.W6 m c main_v30 = wA1 (a5 m c) := by
  refine (s11_v30 (Hand.W5 m c)).trans ?_; rw [st_W5 m stable_arg5 c]
theorem W6_v34 (c : Dev nD) : Hand.W6 m c main_v34 = bR1 (a6 m c) := by
  refine (s11_v34 (Hand.W5 m c)).trans ?_; rw [st_W5 m stable_arg6 c]

/-- What the second region leaves: the second layer. -/
theorem o7_eq (hpre : Cert.Pre_KernelIdeal m) (c : Dev nD) : Hand.o7 m c = layer2 (a0 m c) (a1 m c) (a3 m c) (a4 m c) (a5 m c) (a6 m c) := by
  refine (mlp_final1 (Hand.tcOf (Hand.W6 m)) c).trans ?_
  show Cert.Spec.mlpG (Hand.W6 m c main_v24) (Hand.W6 m c main_v26) (Hand.W6 m c main_v33) (Hand.W6 m c main_v30) (Hand.W6 m c main_v34) = _
  rw [W6_v24 m hpre c, W6_v26 m c, W6_v33 m c, W6_v30 m c, W6_v34 m c]
  rfl

/-! ## The third layer (boundaries 7 to 10) -/

theorem W7_v35 (hpre : Cert.Pre_KernelIdeal m) (c : Dev nD) : Hand.W7 m c main_v35 = layer2 (a0 m c) (a1 m c) (a3 m c) (a4 m c) (a5 m c) (a6 m c) :=
  (Hand.W7_self m c).trans (o7_eq m hpre c)
theorem W7_v19 (hpre : Cert.Pre_KernelIdeal m) (c : Dev nD) : Hand.W7 m c main_v19 = layer1 (a0 m c) (a1 m c) (a3 m c) (a4 m c) (a5 m c) (a6 m c) :=
  (Hand.W7_of_ne m c main_v19 (by decide)).trans ((W6_of m c main_v19 (by decide)).trans (W5_v19 m hpre c))
theorem W7_v1 (c : Dev nD) : Hand.W7 m c main_v1 = srcRow (a1 m c) :=
  (Hand.W7_of_ne m c main_v1 (by decide)).trans ((W6_of m c main_v1 (by decide)).trans ((W5_of m c main_v1 (by decide)).trans (W4_v1 m c)))
theorem W7_v3 (c : Dev nD) : Hand.W7 m c main_v3
    = shapeCast S800000 (extractStridedSlice S1x800000 ![1, 0] (a1 m c) slices_S2x800000_S1x800000_1_0) shapeCasts_S1x800000_S800000 :=
  (Hand.W7_of_ne m c main_v3 (by decide)).trans ((W6_of m c main_v3 (by decide)).trans (W5_v3 m c))

theorem W8_v35 (hpre : Cert.Pre_KernelIdeal m) (c : Dev nD) : Hand.W8 m c main_v35 = layer2 (a0 m c) (a1 m c) (a3 m c) (a4 m c) (a5 m c) (a6 m c) :=
  (W8_of m c main_v35 (by decide)).trans (W7_v35 m hpre c)
theorem W8_v3 (c : Dev nD) : Hand.W8 m c main_v3
    = shapeCast S800000 (extractStridedSlice S1x800000 ![1, 0] (a1 m c) slices_S2x800000_S1x800000_1_0) shapeCasts_S1x800000_S800000 :=
  (W8_of m c main_v3 (by decide)).trans (W7_v3 m c)
theorem W8_v36 (hpre : Cert.Pre_KernelIdeal m) (c : Dev nD) : (Hand.W8 m c main_v36 : FVec Ideal S800000x256 .f32)
    = Host.gather gather_S50000x256_S800000x1_S800000x256_1_0_n_n_0_1_1256 (layer2 (a0 m c) (a1 m c) (a3 m c) (a4 m c) (a5 m c) (a6 m c))
        (wrapCol (srcRow (a1 m c))) := by
  refine (s2_v36 (Hand.W7 m c)).trans ?_
  rw [W7_v35 m hpre c, W7_v1 m c]
  exact take_eq _ _ (src_range_of_pre m hpre c)

theorem W9_v40 (hpre : Cert.Pre_KernelIdeal m) (c : Dev nD) : (Hand.W9 m c main_v40 : FVec Ideal S50000x256 .f32)
    = agg (layer2 (a0 m c) (a1 m c) (a3 m c) (a4 m c) (a5 m c) (a6 m c)) (a1 m c) := by
  refine (s21_v40 (Hand.W8 m c)).trans ?_
  rw [W8_v35 m hpre c, W8_v3 m c, W8_v36 m hpre c]
  rfl
theorem W9_v42 (c : Dev nD) : Hand.W9 m c main_v42 = wA2 (a3 m c) := by
  refine (s21_v42 (Hand.W8 m c)).trans ?_; rw [st_W8 m stable_arg3 c]
theorem W9_v49 (c : Dev nD) : Hand.W9 m c main_v49 = bR2 (a4 m c) := by
  refine (s21_v49 (Hand.W8 m c)).trans ?_; rw [st_W8 m stable_arg4 c]
theorem W9_v46 (c : Dev nD) : Hand.W9 m c main_v46 = wA2 (a5 m c) := by
  refine (s21_v46 (Hand.W8 m c)).trans ?_; rw [st_W8 m stable_arg5 c]
theorem W9_v50 (c : Dev nD) : Hand.W9 m c main_v50 = bR2 (a6 m c) := by
  refine (s21_v50 (Hand.W8 m c)).trans ?_; rw [st_W8 m stable_arg6 c]

/-- What the third region leaves: the third layer. -/
theorem o10_eq (hpre : Cert.Pre_KernelIdeal m) (c : Dev nD) : Hand.o10 m c = layer3 (a0 m c) (a1 m c) (a3 m c) (a4 m c) (a5 m c) (a6 m c) := by
  refine (mlp_final2 (Hand.tcOf (Hand.W9 m)) c).trans ?_
  show Cert.Spec.mlpG (Hand.W9 m c main_v40) (Hand.W9 m c main_v42) (Hand.W9 m c main_v49) (Hand.W9 m c main_v46) (Hand.W9 m c main_v50) = _
  rw [W9_v40 m hpre c, W9_v42 m c, W9_v49 m c, W9_v46 m c, W9_v50 m c]
  rfl

/-! ## The node result and the pooled sums (boundaries 10 to 12) -/

theorem W10_v51 (hpre : Cert.Pre_KernelIdeal m) (c : Dev nD) : Hand.W10 m c main_v51 = layer3 (a0 m c) (a1 m c) (a3 m c) (a4 m c) (a5 m c) (a6 m c) :=
  (Hand.W10_self m c).trans (o10_eq m hpre c)
theorem W10_v35 (hpre : Cert.Pre_KernelIdeal m) (c : Dev nD) : Hand.W10 m c main_v35 = layer2 (a0 m c) (a1 m c) (a3 m c) (a4 m c) (a5 m c) (a6 m c) :=
  (Hand.W10_of_ne m c main_v35 (by decide)).trans ((W9_of m c main_v35 (by decide)).trans (W8_v35 m hpre c))
theorem W10_v19 (hpre : Cert.Pre_KernelIdeal m) (c : Dev nD) : Hand.W10 m c main_v19 = layer1 (a0 m c) (a1 m c) (a3 m c) (a4 m c) (a5 m c) (a6 m c) :=
  (Hand.W10_of_ne m c main_v19 (by decide)).trans ((W9_of m c main_v19 (by decide)).trans ((W8_of m c main_v19 (by decide)).trans (W7_v19 m hpre c)))

/-- The three layers side by side. -/
theorem W11_v52 (hpre : Cert.Pre_KernelIdeal m) (c : Dev nD) : (Hand.W11 m c main_v52 : FVec Ideal S50000x768 .f32)
    = nodeEmb (a0 m c) (a1 m c) (a3 m c) (a4 m c) (a5 m c) (a6 m c) := by
  refine (s3_v52 (Hand.W10 m c)).trans ?_
  rw [W10_v19 m hpre c, W10_v35 m hpre c, W10_v51 m hpre c]
  rfl
/-- The graph ids as a column. -/
theorem W11_v53 (c : Dev nD) : Hand.W11 m c main_v53 = shapeCast S50000x1 (a2 m c) shapeCasts_S50000_S50000x1 := by
  refine (s3_v53 (Hand.W10 m c)).trans ?_; rw [st_W10 m stable_arg2 c]

/-- What the pooling region leaves: each graph's rows summed. -/
theorem o12_eq (hpre : Cert.Pre_KernelIdeal m) (c : Dev nD) : Hand.o12 m c
    = Cert.Spec.poolG (nodeEmb (a0 m c) (a1 m c) (a3 m c) (a4 m c) (a5 m c) (a6 m c)) (shapeCast S50000x1 (a2 m c) shapeCasts_S50000_S50000x1) := by
  refine (pool_final (Hand.tcOf (Hand.W11 m)) c).trans ?_
  show Cert.Spec.poolG (Hand.W11 m c main_v52) (Hand.W11 m c main_v53) = _
  rw [W11_v52 m hpre c, W11_v53 m c]

/-! ## The two results (boundaries 12 to 15) -/

theorem V12_v52 (hpre : Cert.Pre_KernelIdeal m) (c : Dev nD) : (Gen.V12 m (Hand.outs m) c main_v52 : FVec Ideal S50000x768 .f32)
    = nodeEmb (a0 m c) (a1 m c) (a3 m c) (a4 m c) (a5 m c) (a6 m c) := by
  rw [Hand.V12_eq m c]
  exact (Hand.W12_of_ne m c main_v52 (by decide)).trans (W11_v52 m hpre c)
theorem V12_v54 (hpre : Cert.Pre_KernelIdeal m) (c : Dev nD) : Gen.V12 m (Hand.outs m) c main_v54
    = Cert.Spec.poolG (nodeEmb (a0 m c) (a1 m c) (a3 m c) (a4 m c) (a5 m c) (a6 m c)) (shapeCast S50000x1 (a2 m c) shapeCasts_S50000_S50000x1) := by
  rw [Hand.V12_eq m c]
  exact (Hand.W12_self m c).trans (o12_eq m hpre c)
theorem V12_arg2 (c : Dev nD) : Gen.V12 m (Hand.outs m) c main_arg2 = a2 m c := by
  rw [Hand.V12_eq m c]; exact st_W12 m stable_arg2 c

/-- The node counts before the clip, and the constant one. -/
theorem V13_v58 (c : Dev nD) : Gen.V13 m (Hand.outs m) c main_v58
    = (Host.scatterAdd scatter_S512x1_S50000x1_S50000x1_1_0_0_1 (broadcastInDim S512x1 ![] bcast_S_S512x1 (constant S_ .f32 0x00000000#32))
        (broadcastInDim S50000x1 ![0] bcast_S50000_S50000x1_0 (a2 m c))
        (broadcastInDim S50000x1 ![] bcast_S_S50000x1 (constant S_ .f32 0x3F800000#32)) : FVec Ideal S512x1 .f32) := by
  refine (s4_v58 (Gen.V12 m (Hand.outs m) c)).trans ?_
  rw [V12_arg2 m c]
theorem V13_cst4 (c : Dev nD) : Gen.V13 m (Hand.outs m) c main_cst_4 = (constant S_ .f32 0x3F800000#32 : FVec Ideal S_ .f32) :=
  s4_cst4 (Gen.V12 m (Hand.outs m) c)

/-- The node counts, at least one. -/
theorem V14_v59 (c : Dev nD) : (Gen.V14 m (Hand.outs m) c main_v59 : FVec Ideal S512x1 .f32) = cnt (a2 m c) := by
  refine (s41_v59 (Gen.V13 m (Hand.outs m) c)).trans ?_
  rw [V13_cst4 m c, V13_v58 m c]
  rfl
theorem V14_v54 (hpre : Cert.Pre_KernelIdeal m) (c : Dev nD) : Gen.V14 m (Hand.outs m) c main_v54
    = Cert.Spec.poolG (nodeEmb (a0 m c) (a1 m c) (a3 m c) (a4 m c) (a5 m c) (a6 m c)) (shapeCast S50000x1 (a2 m c) shapeCasts_S50000_S50000x1) :=
  (Gen.V14_of m (Hand.outs m) c main_v54 (by decide)).trans ((Gen.V13_of m (Hand.outs m) c main_v54 (by decide)).trans (V12_v54 m hpre c))

/-- The node result: the three layers' outputs side by side, untouched by the pooling region and the last stretches. -/
theorem kernel_node (m : (ℓ : Loc nD τ sig) → Buf (Elt Ideal) ℓ) (hpre : Cert.Pre_KernelIdeal m) (c : Dev nD) :
    (Gen.V15 m (Cert.KernelIdeal.Hand.outs m) c main_v52 : FVec Ideal S50000x768 .f32)
      = nodeEmb (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) :=
  (Gen.V15_of m (Hand.outs m) c main_v52 (by decide)).trans ((Gen.V14_of m (Hand.outs m) c main_v52 (by decide)).trans
    ((Gen.V13_of m (Hand.outs m) c main_v52 (by decide)).trans (V12_v52 m hpre c)))

/-- The graph result: each graph's pooled sum over its node count. -/
theorem kernel_graph (m : (ℓ : Loc nD τ sig) → Buf (Elt Ideal) ℓ) (hpre : Cert.Pre_KernelIdeal m) (c : Dev nD) :
    (Gen.V15 m (Cert.KernelIdeal.Hand.outs m) c main_v61 : FVec Ideal S512x768 .f32)
      = graphEmb (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (s42_v61 (Gen.V14 m (Hand.outs m) c)).trans ?_
  rw [V14_v54 m hpre c, V14_v59 m c]
  rfl

end Cert.KernelIdeal.HandV

end
-- ==== Proof.RefMlp.lean ====
/-
  The reference's expression for one dense layer — two contractions over the shared 256-long axis, each followed by a
  bias row broadcast down the 50000 rows and a rectifier — is the layer's specification, entry by entry over the
  extended reals.
-/
import proofs.«428382_j73890617360784_1_alg».proof.ReferenceIdeal
import proofs.«428382_j73890617360784_1_alg».proof.Proof.Gen.ReferenceIdeal
import proofs.«428382_j73890617360784_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Facts₀ Idealize.ShloMosaic Idealize.ShloMosaic.ValueIdx Idealize.SL.Sem
open scoped BigOperators

/-! ## The contraction of a 50000x256 by 256x256 product, axis by axis -/

/-- The left operand's row is the output's row. -/
theorem lhs_dotR_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- The left operand's column is the contracted coordinate. -/
theorem lhs_dotR_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
/-- The right operand's row is the contracted coordinate. -/
theorem rhs_dotR_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
/-- The right operand's column is the output's column. -/
theorem rhs_dotR_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The product read at row `r`, column `l`: the sum over the shared axis. -/
theorem dotR_apply {φ₁ φ₂ : FTy} (a : FVec Ideal S50000x256 φ₁) (w : FVec Ideal S256x256 φ₂) (r : Fin 50000) (l : Fin 256) :
    Host.dotGeneral dot_S50000x256_S256x256_S50000x256_1_0_0_1_n_n none a w (ix2 r l) = ∑ k : Fin 256, a (ix2 r k) * w (ix2 k l) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 r l) ((ValueIdx.contrEquiv1 dot_S50000x256_S256x256_S50000x256_1_0_0_1_n_n 256 rfl rfl).symm k) = ix2 r k := funext fun x => Fin.ext (by
    match x with
    | ⟨0, _⟩ => exact lhs_dotR_0 _ _
    | ⟨1, _⟩ => exact (lhs_dotR_1 _ _).trans hk)
  have er : dot_S50000x256_S256x256_S50000x256_1_0_0_1_n_n.rhsIdx (ix2 r l) ((ValueIdx.contrEquiv1 dot_S50000x256_S256x256_S50000x256_1_0_0_1_n_n 256 rfl rfl).symm k) = ix2 k l := funext fun x => Fin.ext (by
    match x with
    | ⟨0, _⟩ => exact (rhs_dotR_0 _ _).trans hk
    | ⟨1, _⟩ => exact rhs_dotR_1 _ _)
  rw [el, er]

/-! ## The bias row and the rectifier's zero, read at an index -/

/-- A 256-vector made a row and broadcast down the rows reads, at `(r, l)`, its entry `l`. -/
theorem biasR_apply {α : Type} (b : S256.Idx → α) (r : Fin 50000) (l : Fin 256) :
    broadcastInDim S50000x256 ![0, 1] bcast_S1x256_S50000x256_0_1 (broadcastInDim S1x256 ![1] bcast_S256_S1x256_1 b) (ix2 r l) = b (ix1 l) := by
  rw [broadcastInDim_apply _ bcast_S1x256_S50000x256_0_1 _ (ix2 r l) (ix2 (0 : Fin 1) l) (fun x => match x with
    | ⟨0, _⟩ => by show 0 = if (1 : Nat) = 1 then 0 else r.val; rw [if_pos rfl]
    | ⟨1, _⟩ => by show l.val = if (256 : Nat) = 1 then 0 else l.val; rw [if_neg (by decide)])]
  exact broadcastInDim_apply _ bcast_S256_S1x256_1 b (ix2 (0 : Fin 1) l) (ix1 l) (fun x => match x with
    | ⟨0, _⟩ => by show l.val = if (256 : Nat) = 1 then 0 else l.val; rw [if_neg (by decide)])

/-- The zero scalar broadcast to every entry is the extended real `0`. -/
theorem zeroR_apply (i : S50000x256.Idx) :
    broadcastInDim S50000x256 ![] bcast_S_S50000x256 (constant (F := Ideal) S_ .f32 0x00000000#32) i = (0 : EReal) := by
  rw [broadcastInDim_apply _ bcast_S_S50000x256 _ i ix0 (fun x => x.elim0)]
  exact Ideal.ofBits_zero_f32

/-- The bias as a whole array: every row is the vector. -/
theorem biasR_eq (b : FVec Ideal S256 .f32) :
    broadcastInDim S50000x256 ![0, 1] bcast_S1x256_S50000x256_0_1 (broadcastInDim S1x256 ![1] bcast_S256_S1x256_1 b)
      = fun i => b (ix1 (i 1)) := by
  funext i
  obtain ⟨r, l, rfl⟩ : ∃ (r : Fin 50000) (l : Fin 256), i = ix2 r l := ⟨i 0, i 1, eq_ix2 i⟩
  exact biasR_apply b r l

/-- The rectifier's second operand as a whole array: zero everywhere. -/
theorem zeroR_eq :
    broadcastInDim S50000x256 ![] bcast_S_S50000x256 (constant (F := Ideal) S_ .f32 0x00000000#32) = fun _ => (0 : EReal) :=
  funext zeroR_apply

/-! ## The layer -/

/-- The reference's layer is the specification's array. -/
theorem ref_mlp_eq (a : FVec Ideal S50000x256 .f32) (w1 w2 : FVec Ideal S256x256 .f32) (b1 b2 : FVec Ideal S256 .f32) :
    maximumf (addf (Host.dotGeneral dot_S50000x256_S256x256_S50000x256_1_0_0_1_n_n none
          (maximumf (addf (Host.dotGeneral dot_S50000x256_S256x256_S50000x256_1_0_0_1_n_n none a w1)
              (broadcastInDim S50000x256 ![0, 1] bcast_S1x256_S50000x256_0_1 (broadcastInDim S1x256 ![1] bcast_S256_S1x256_1 b1)))
            (broadcastInDim S50000x256 ![] bcast_S_S50000x256 (constant (F := Ideal) S_ .f32 0x00000000#32))) w2)
          (broadcastInDim S50000x256 ![0, 1] bcast_S1x256_S50000x256_0_1 (broadcastInDim S1x256 ![1] bcast_S256_S1x256_1 b2)))
        (broadcastInDim S50000x256 ![] bcast_S_S50000x256 (constant (F := Ideal) S_ .f32 0x00000000#32))
      = Cert.Spec.mlpG a w1 (fun i => b1 (ix1 (i 1))) w2 (fun i => b2 (ix1 (i 1))) := by
  rw [zeroR_eq, biasR_eq, biasR_eq]
  funext i
  obtain ⟨r, l, rfl⟩ : ∃ (r : Fin 50000) (l : Fin 256), i = ix2 r l := ⟨i 0, i 1, eq_ix2 i⟩
  show _ = Cert.Spec.mlpAt a w1 (fun i => b1 (ix1 (i 1))) w2 (fun i => b2 (ix1 (i 1))) r l
  unfold Cert.Spec.mlpAt
  simp only [maximumf_apply, addf_apply, dotR_apply]

end Cert.ReferenceIdeal.RefValue

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.RefGraph.lean ====
/-
  The graph result, entry by entry. The reference pools each layer's table by graph id, divides by the counts and lays
  the three quotients side by side; the other arrangement lays the three tables side by side first, pools the wide table
  and divides. Entry `(g, 256·q + d)` of either is the sum of layer `q`'s column `d` over the rows whose id is `g`,
  over the count of such rows (at least one).
-/
import proofs.«428382_j73890617360784_1_alg».proof.Proof.Gen.ReferenceIdeal.Read
import proofs.«428382_j73890617360784_1_alg».proof.Proof.Model
import proofs.«428382_j73890617360784_1_alg».proof.Proof.Spec
import proofs.«428382_j73890617360784_1_alg».proof.Proof.LibSegmentScatter
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.ValueIdx Idealize.SL.Sem
open scoped BigOperators

/-! ## The counts -/

/-- The reference's clipped counts are the model's: the same scatter of ones under the same lower bound of one. -/
theorem cnt_ref_eq (x2 : IVec S50000 32) :
    Cert.ReferenceIdeal.Read.val_main_v101 (F := Ideal) x2 = Cert.KernelIdeal.HandV.cnt x2 := by
  unfold Cert.ReferenceIdeal.Read.val_main_v101 Cert.ReferenceIdeal.Read.val_main_call0_v1 Cert.ReferenceIdeal.Read.val_main_call0_v0
    Cert.ReferenceIdeal.Read.val_main_cst_15 Cert.ReferenceIdeal.Read.val_main_v100 Cert.ReferenceIdeal.Read.val_main_v98
    Cert.ReferenceIdeal.Read.val_main_cst_14 Cert.ReferenceIdeal.Read.val_main_v99 Cert.ReferenceIdeal.Read.val_main_v97
    Cert.ReferenceIdeal.Read.val_main_cst_13 Cert.KernelIdeal.HandV.cnt
  rfl

/-! ## The id column, the count column and the zero table, read at an index -/

/-- The ids as a column by a broadcast: row `n` holds id `n`. -/
theorem ids_bcast_apply (x2 : IVec S50000 32) (n : Fin 50000) :
    broadcastInDim S50000x1 ![0] bcast_S50000_S50000x1_0 x2 (ix2 n (0 : Fin 1)) = x2 (ix1 n) :=
  broadcastInDim_apply _ bcast_S50000_S50000x1_0 x2 (ix2 n (0 : Fin 1)) (ix1 n) (fun a => match a with
    | ⟨0, _⟩ => by show n.val = if (50000 : Nat) = 1 then 0 else n.val; rw [if_neg (by decide)])

/-- The ids as a column by a change of shape: the same. -/
theorem ids_cast_apply (x2 : IVec Cert.KernelIdeal.S50000 32) (n : Fin 50000) :
    shapeCast Cert.KernelIdeal.S50000x1 x2 Cert.KernelIdeal.Facts₀.shapeCasts_S50000_S50000x1 (ix2 n (0 : Fin 1)) = x2 (ix1 n) :=
  shapeCast_apply x2 _ (ix2 n (0 : Fin 1)) (ix1 n) (by
    rw [Shape.rowMajor_val_one, Shape.rowMajor_val_two]; show n.val = n.val * 1 + 0; omega)

/-- A count column broadcast over 256 columns reads the row's count. -/
theorem cnt_cols256_apply {α : Type} (y : S512x1.Idx → α) (g : Fin 512) (d : Fin 256) :
    broadcastInDim S512x256 ![0, 1] bcast_S512x1_S512x256_0_1 y (ix2 g d) = y (ix2 g (0 : Fin 1)) :=
  broadcastInDim_apply _ bcast_S512x1_S512x256_0_1 y (ix2 g d) (ix2 g (0 : Fin 1)) (fun a => match a with
    | ⟨0, _⟩ => by show g.val = if (512 : Nat) = 1 then 0 else g.val; rw [if_neg (by decide)]
    | ⟨1, _⟩ => by show 0 = if (1 : Nat) = 1 then 0 else d.val; rw [if_pos rfl])

/-- A count column broadcast over 768 columns reads the row's count. -/
theorem cnt_cols768_apply {α : Type} (y : Cert.KernelIdeal.S512x1.Idx → α) (g : Fin 512) (d' : Fin 768) :
    broadcastInDim Cert.KernelIdeal.S512x768 ![0, 1] Cert.KernelIdeal.Facts₀.bcast_S512x1_S512x768_0_1 y (ix2 g d') = y (ix2 g (0 : Fin 1)) :=
  broadcastInDim_apply _ Cert.KernelIdeal.Facts₀.bcast_S512x1_S512x768_0_1 y (ix2 g d') (ix2 g (0 : Fin 1)) (fun a => match a with
    | ⟨0, _⟩ => by show g.val = if (512 : Nat) = 1 then 0 else g.val; rw [if_neg (by decide)]
    | ⟨1, _⟩ => by show 0 = if (1 : Nat) = 1 then 0 else d'.val; rw [if_pos rfl])

/-- The table the pooled sums start from is zero everywhere. -/
theorem zero512_apply (i : S512x256.Idx) :
    broadcastInDim S512x256 ![] bcast_S_S512x256 (constant (F := Ideal) S_ .f32 0x00000000#32) i = (0 : EReal) := by
  rw [broadcastInDim_apply _ bcast_S_S512x256 _ i ix0 (fun x => x.elim0)]
  exact Ideal.ofBits_zero_f32

/-! ## One layer's pooled sum -/

/-- The reference's scatter-add of a layer's rows by graph id, at `(g, d)`: column `d` summed over the rows with id `g`. -/
theorem ref_pool_apply (h : FVec Ideal S50000x256 .f32) (x2 : IVec S50000 32) (g : Fin 512) (d : Fin 256) :
    Host.scatterAdd scatter_S512x256_S50000x1_S50000x256_1_0_0_1
        (broadcastInDim S512x256 ![] bcast_S_S512x256 (constant (F := Ideal) S_ .f32 0x00000000#32))
        (broadcastInDim S50000x1 ![0] bcast_S50000_S50000x1_0 x2) h (ix2 g d)
      = ∑ n : Fin 50000, if (x2 (ix1 n)).toInt = (g.val : ℤ) then h (ix2 n d) else 0 := by
  show Ideal.hostScatterAdd (Cert.LibSegmentScatter.rowScatterDims 512 50000 256 scatter_S512x256_S50000x1_S50000x256_1_0_0_1_wf) _ _ _ (ix2 g d) = _
  rw [Cert.LibSegmentScatter.scatterAdd_rows_apply, zero512_apply, zero_add]
  refine Finset.sum_congr rfl fun n _ => ?_
  rw [ids_bcast_apply]

/-! ## Three tables side by side, read at an index -/

/-- Three `R` by 256 tables laid side by side along the columns: column `d` of the wide table is column `d` of the
    first, column `256 + d` is column `d` of the second, column `512 + d` is column `d` of the third. -/
theorem concat3_apply {α : Type} {R : Nat} (f0 f1 f2 : (⟨2, ![R, 256]⟩ : Shape).Idx → α)
    (h : Shape.Concatenates [(⟨2, ![R, 256]⟩ : Shape), ⟨2, ![R, 256]⟩, ⟨2, ![R, 256]⟩] ⟨2, ![R, 768]⟩ 1)
    (g : Fin R) (d : Fin 256) (d' : Fin 768) :
    (d'.val = d.val → concatenate (⟨2, ![R, 768]⟩ : Shape) 1 [⟨⟨2, ![R, 256]⟩, f0⟩, ⟨⟨2, ![R, 256]⟩, f1⟩, ⟨⟨2, ![R, 256]⟩, f2⟩] h (ix2 g d') = f0 (ix2 g d))
    ∧ (d'.val = 256 + d.val → concatenate (⟨2, ![R, 768]⟩ : Shape) 1 [⟨⟨2, ![R, 256]⟩, f0⟩, ⟨⟨2, ![R, 256]⟩, f1⟩, ⟨⟨2, ![R, 256]⟩, f2⟩] h (ix2 g d') = f1 (ix2 g d))
    ∧ (d'.val = 512 + d.val → concatenate (⟨2, ![R, 768]⟩ : Shape) 1 [⟨⟨2, ![R, 256]⟩, f0⟩, ⟨⟨2, ![R, 256]⟩, f1⟩, ⟨⟨2, ![R, 256]⟩, f2⟩] h (ix2 g d') = f2 (ix2 g d)) := by
  have hi : ∀ b : Fin (⟨2, ![R, 256]⟩ : Shape).rank, b.cast (rfl : (⟨2, ![R, 256]⟩ : Shape).rank = (⟨2, ![R, 768]⟩ : Shape).rank) ≠ (1 : Fin 2) →
      ((ix2 g d) b).val = ((ix2 g d') (b.cast rfl)).val := fun b hb => by
    match b with
    | ⟨0, _⟩ => rfl
    | ⟨1, _⟩ => exact absurd (Fin.ext rfl) hb
  refine ⟨fun e => ?_, fun e => ?_, fun e => ?_⟩
  · exact concatenate_apply_piece 1 [⟨⟨2, ![R, 256]⟩, f0⟩, ⟨⟨2, ![R, 256]⟩, f1⟩, ⟨⟨2, ![R, 256]⟩, f2⟩] h (ix2 g d') 0 (by simp) ⟨2, ![R, 256]⟩ f0 rfl rfl 0 rfl (ix2 g d) hi
      (by show 0 + d.val = d'.val; omega)
  · exact concatenate_apply_piece 1 [⟨⟨2, ![R, 256]⟩, f0⟩, ⟨⟨2, ![R, 256]⟩, f1⟩, ⟨⟨2, ![R, 256]⟩, f2⟩] h (ix2 g d') 1 (by simp) ⟨2, ![R, 256]⟩ f1 rfl rfl 256 rfl (ix2 g d) hi
      (by show 256 + d.val = d'.val; omega)
  · exact concatenate_apply_piece 1 [⟨⟨2, ![R, 256]⟩, f0⟩, ⟨⟨2, ![R, 256]⟩, f1⟩, ⟨⟨2, ![R, 256]⟩, f2⟩] h (ix2 g d') 2 (by simp) ⟨2, ![R, 256]⟩ f2 rfl rfl 512 rfl (ix2 g d) hi
      (by show 512 + d.val = d'.val; omega)

/-! ## One entry of each arrangement -/

/-- One layer's quotient in the reference, at `(g, d)`. -/
theorem ref_piece_apply (h : FVec Ideal S50000x256 .f32) (x2 : IVec S50000 32) (C : FVec Ideal S512x1 .f32) (g : Fin 512) (d : Fin 256) :
    Host.divf (Host.scatterAdd scatter_S512x256_S50000x1_S50000x256_1_0_0_1
          (broadcastInDim S512x256 ![] bcast_S_S512x256 (constant (F := Ideal) S_ .f32 0x00000000#32))
          (broadcastInDim S50000x1 ![0] bcast_S50000_S50000x1_0 x2) h)
        (broadcastInDim S512x256 ![0, 1] bcast_S512x1_S512x256_0_1 C) (ix2 g d)
      = Ideal.div (∑ n : Fin 50000, if (x2 (ix1 n)).toInt = (g.val : ℤ) then h (ix2 n d) else 0) (C (ix2 g (0 : Fin 1))) := by
  show FloatOps.hostDivf (Host.scatterAdd scatter_S512x256_S50000x1_S50000x256_1_0_0_1
          (broadcastInDim S512x256 ![] bcast_S_S512x256 (constant (F := Ideal) S_ .f32 0x00000000#32))
          (broadcastInDim S50000x1 ![0] bcast_S50000_S50000x1_0 x2) h (ix2 g d))
        (broadcastInDim S512x256 ![0, 1] bcast_S512x1_S512x256_0_1 C (ix2 g d)) = _
  rw [ref_pool_apply, cnt_cols256_apply]
  rfl

/-- The pooled wide table over the counts, at `(g, d')`, when the wide table's column `d'` is a layer's column `d`. -/
theorem wide_piece_apply (X : FVec Ideal Cert.KernelIdeal.S50000x768 .f32) (hq : FVec Ideal S50000x256 .f32) (x2 : IVec S50000 32)
    (C : FVec Ideal S512x1 .f32) (g : Fin 512) (d : Fin 256) (d' : Fin 768) (hX : ∀ n : Fin 50000, X (ix2 n d') = hq (ix2 n d)) :
    Host.divf (Cert.Spec.poolG X (shapeCast Cert.KernelIdeal.S50000x1 x2 Cert.KernelIdeal.Facts₀.shapeCasts_S50000_S50000x1))
        (broadcastInDim Cert.KernelIdeal.S512x768 ![0, 1] Cert.KernelIdeal.Facts₀.bcast_S512x1_S512x768_0_1 C) (ix2 g d')
      = Ideal.div (∑ n : Fin 50000, if (x2 (ix1 n)).toInt = (g.val : ℤ) then hq (ix2 n d) else 0) (C (ix2 g (0 : Fin 1))) := by
  show FloatOps.hostDivf (Cert.Spec.poolAt X (shapeCast Cert.KernelIdeal.S50000x1 x2 Cert.KernelIdeal.Facts₀.shapeCasts_S50000_S50000x1) g d')
        (broadcastInDim Cert.KernelIdeal.S512x768 ![0, 1] Cert.KernelIdeal.Facts₀.bcast_S512x1_S512x768_0_1 C (ix2 g d')) = _
  rw [cnt_cols768_apply]
  unfold Cert.Spec.poolAt
  have e : (∑ n : Fin 50000, if ((shapeCast Cert.KernelIdeal.S50000x1 x2 Cert.KernelIdeal.Facts₀.shapeCasts_S50000_S50000x1) (ix2 n (0 : Fin 1))).toInt = (g.val : ℤ) then X (ix2 n d') else 0)
      = ∑ n : Fin 50000, if (x2 (ix1 n)).toInt = (g.val : ℤ) then hq (ix2 n d) else 0 :=
    Finset.sum_congr rfl fun n _ => by rw [ids_cast_apply, hX]
  rw [e]
  rfl

/-! ## The graph result -/

/-- The reference's graph result — each layer pooled, divided by the counts, the three quotients side by side — is the
    pooled wide table over the counts. -/
theorem graph_of_layers (h1 h2 h3 : FVec Ideal S50000x256 .f32) (x2 : IVec S50000 32) :
    concatenate S512x768 1
        [⟨S512x256, Host.divf (Host.scatterAdd scatter_S512x256_S50000x1_S50000x256_1_0_0_1 (broadcastInDim S512x256 ![] bcast_S_S512x256 (constant (F := Ideal) S_ .f32 0x00000000#32)) (broadcastInDim S50000x1 ![0] bcast_S50000_S50000x1_0 x2) h1) (broadcastInDim S512x256 ![0, 1] bcast_S512x1_S512x256_0_1 (Cert.ReferenceIdeal.Read.val_main_v101 (F := Ideal) x2))⟩,
         ⟨S512x256, Host.divf (Host.scatterAdd scatter_S512x256_S50000x1_S50000x256_1_0_0_1 (broadcastInDim S512x256 ![] bcast_S_S512x256 (constant (F := Ideal) S_ .f32 0x00000000#32)) (broadcastInDim S50000x1 ![0] bcast_S50000_S50000x1_0 x2) h2) (broadcastInDim S512x256 ![0, 1] bcast_S512x1_S512x256_0_1 (Cert.ReferenceIdeal.Read.val_main_v101 (F := Ideal) x2))⟩,
         ⟨S512x256, Host.divf (Host.scatterAdd scatter_S512x256_S50000x1_S50000x256_1_0_0_1 (broadcastInDim S512x256 ![] bcast_S_S512x256 (constant (F := Ideal) S_ .f32 0x00000000#32)) (broadcastInDim S50000x1 ![0] bcast_S50000_S50000x1_0 x2) h3) (broadcastInDim S512x256 ![0, 1] bcast_S512x1_S512x256_0_1 (Cert.ReferenceIdeal.Read.val_main_v101 (F := Ideal) x2))⟩] concatenates_S512x256_S512x256_S512x256_S512x768_d1
      = Host.divf (Cert.Spec.poolG (concatenate Cert.KernelIdeal.S50000x768 1 [⟨Cert.KernelIdeal.S50000x256, h1⟩, ⟨Cert.KernelIdeal.S50000x256, h2⟩, ⟨Cert.KernelIdeal.S50000x256, h3⟩] Cert.KernelIdeal.Facts₀.concatenates_S50000x256_S50000x256_S50000x256_S50000x768_d1) (shapeCast Cert.KernelIdeal.S50000x1 x2 Cert.KernelIdeal.Facts₀.shapeCasts_S50000_S50000x1))
          (broadcastInDim Cert.KernelIdeal.S512x768 ![0, 1] Cert.KernelIdeal.Facts₀.bcast_S512x1_S512x768_0_1 (Cert.KernelIdeal.HandV.cnt x2)) := by
  rw [cnt_ref_eq]
  funext i
  obtain ⟨g, d', rfl⟩ : ∃ (g : Fin 512) (d' : Fin 768), i = ix2 g d' := ⟨i 0, i 1, eq_ix2 i⟩
  have hd' : d'.val < 768 := d'.isLt
  by_cases c0 : d'.val < 256
  · -- the first layer's columns
    rw [(concat3_apply (R := 512) _ _ _ concatenates_S512x256_S512x256_S512x256_S512x768_d1 g (⟨d'.val, c0⟩ : Fin 256) d').1 rfl, ref_piece_apply,
      wide_piece_apply _ h1 x2 _ g (⟨d'.val, c0⟩ : Fin 256) d' (fun n => (concat3_apply (R := 50000) h1 h2 h3 Cert.KernelIdeal.Facts₀.concatenates_S50000x256_S50000x256_S50000x256_S50000x768_d1 n (⟨d'.val, c0⟩ : Fin 256) d').1 rfl)]
  · by_cases c1 : d'.val < 512
    · -- the second layer's columns
      rw [(concat3_apply (R := 512) _ _ _ concatenates_S512x256_S512x256_S512x256_S512x768_d1 g (⟨d'.val - 256, by omega⟩ : Fin 256) d').2.1 (by show d'.val = _; simp only []; omega), ref_piece_apply,
        wide_piece_apply _ h2 x2 _ g (⟨d'.val - 256, by omega⟩ : Fin 256) d' (fun n => (concat3_apply (R := 50000) h1 h2 h3 Cert.KernelIdeal.Facts₀.concatenates_S50000x256_S50000x256_S50000x256_S50000x768_d1 n (⟨d'.val - 256, by omega⟩ : Fin 256) d').2.1 (by show d'.val = _; simp only []; omega))]
    · -- the third layer's columns
      rw [(concat3_apply (R := 512) _ _ _ concatenates_S512x256_S512x256_S512x256_S512x768_d1 g (⟨d'.val - 512, by omega⟩ : Fin 256) d').2.2 (by show d'.val = _; simp only []; omega), ref_piece_apply,
        wide_piece_apply _ h3 x2 _ g (⟨d'.val - 512, by omega⟩ : Fin 256) d' (fun n => (concat3_apply (R := 50000) h1 h2 h3 Cert.KernelIdeal.Facts₀.concatenates_S50000x256_S50000x256_S50000x256_S50000x768_d1 n (⟨d'.val - 512, by omega⟩ : Fin 256) d').2.2 (by show d'.val = _; simp only []; omega))]

end Cert.ReferenceIdeal.RefValue

end
-- ==== Proof.RefSide.lean ====
import proofs.«428382_j73890617360784_1_alg».proof.Proof.Gen.ReferenceIdeal.Read
import proofs.«428382_j73890617360784_1_alg».proof.Proof.Model
import proofs.«428382_j73890617360784_1_alg».proof.Proof.RefMlp
import proofs.«428382_j73890617360784_1_alg».proof.Proof.LibSegmentScatter
import proofs.«428382_j73890617360784_1_alg».proof.Proof.RefGraph

noncomputable section

namespace Cert.ReferenceIdeal.RefValue

open Cert.ReferenceIdeal Cert.ReferenceIdeal.Facts₀ Cert.ReferenceIdeal.Facts
open Idealize.ShloMosaic Idealize.ShloMosaic.ValueIdx Idealize.SL.Sem

/-! # The idealized reference's two results are the model's

The reference computes the same three graph layers and the same pooled mean as the model, written
over its own copies of the shapes and side conditions. Each stage of the reference is matched with
the model's term for the same operation, one operation or one short stretch at a time: equal
literals for the shapes, equal fields for the gather, scatter and contraction records, and proofs
for everything else. -/

/-! ## The index columns -/

/-- Row 0 of the edge list (the source rows), as both programs read it. -/
theorem ref_srcRow (x1 : IVec S2x800000 32) :
    Read.val_main_v1 (F := Ideal) x1 = Cert.KernelIdeal.HandV.srcRow x1 := rfl

/-- Layer 1's source column: every index wrapped once (a negative index has the table's height added). -/
theorem ref_wrap1 (x1 : IVec S2x800000 32) :
    Read.val_main_v9 (F := Ideal) x1 = Cert.KernelIdeal.HandV.wrapCol (Cert.KernelIdeal.HandV.srcRow x1) := by
  unfold Read.val_main_v9 Read.val_main_v8 Read.val_main_v5 Read.val_main_v7 Read.val_main_v4 Read.val_main_v6 Read.val_main_c Read.val_main_c_0
  rw [ref_srcRow]

/-- Layer 1's destination column: row 1 of the edge list. -/
theorem ref_dst1 (x1 : IVec S2x800000 32) :
    Read.val_main_v12 (F := Ideal) x1 = Cert.KernelIdeal.HandV.dstCol x1 := rfl

/-- Layers 2 and 3 recompute the same two columns from the edge list. -/
theorem ref_wrap2 (x1 : IVec S2x800000 32) : Read.val_main_v40 (F := Ideal) x1 = Read.val_main_v9 x1 := rfl
theorem ref_dst2 (x1 : IVec S2x800000 32) : Read.val_main_v43 (F := Ideal) x1 = Read.val_main_v12 x1 := rfl
theorem ref_wrap3 (x1 : IVec S2x800000 32) : Read.val_main_v71 (F := Ideal) x1 = Read.val_main_v9 x1 := rfl
theorem ref_dst3 (x1 : IVec S2x800000 32) : Read.val_main_v74 (F := Ideal) x1 = Read.val_main_v12 x1 := rfl

/-! ## The aggregation -/

/-- A table plus, in each row, the sum of the rows of its in-neighbours: the reference's gather of
    the wrapped source column summed into the destination rows, added to the table. -/
theorem ref_agg (h : FVec Ideal S50000x256 .f32) (x1 : IVec S2x800000 32) :
    addf h (Host.scatterAdd scatter_S50000x256_S800000x1_S800000x256_1_0_0_1
        (broadcastInDim S50000x256 ![] bcast_S_S50000x256 (constant (F := Ideal) S_ .f32 0x00000000#32)) (Read.val_main_v12 (F := Ideal) x1)
        (Host.gather gather_S50000x256_S800000x1_S800000x256_1_0_n_n_0_1_1256 h (Read.val_main_v9 (F := Ideal) x1)))
      = Cert.KernelIdeal.HandV.agg h x1 := by
  rw [ref_wrap1, ref_dst1]
  unfold Cert.KernelIdeal.HandV.agg
  rfl

/-! ## A bias vector as a row -/

/-- A 256-vector reshaped to a 1 by 256 row reads, at `(0, l)`, its entry `l`. -/
theorem row_of_vec (v : (⟨1, ![256]⟩ : Shape).Idx → EReal) (h : (⟨1, ![256]⟩ : Shape).ShapeCasts ⟨2, ![1, 256]⟩) :
    (fun i : (⟨2, ![1, 256]⟩ : Shape).Idx => v (ix1 (i 1))) = shapeCast ⟨2, ![1, 256]⟩ v h := by
  funext i
  obtain ⟨u, l, rfl⟩ : ∃ (u : Fin 1) (l : Fin 256), i = ix2 u l := ⟨i 0, i 1, eq_ix2 i⟩
  exact (shapeCast_a_1a_apply v h u l).symm

/-! ## The three layers -/

/-- Layer 1: the reference's stages from the aggregation to the second rectifier are the model's layer 1. -/
theorem ref_layer1 (x0 : FVec Ideal S50000x256 .f32) (x1 : IVec S2x800000 32) (x3 : FVec Ideal S3x256x256 .f32) (x4 : FVec Ideal S3x256 .f32) (x5 : FVec Ideal S3x256x256 .f32) (x6 : FVec Ideal S3x256 .f32) :
    Read.val_main_v34 (F := Ideal) x0 x1 x3 x4 x5 x6 = Cert.KernelIdeal.HandV.layer1 x0 x1 x3 x4 x5 x6 := by
  unfold Read.val_main_v34 Read.val_main_v32 Read.val_main_v27 Read.val_main_v24 Read.val_main_v22 Read.val_main_v17 Read.val_main_v21 Read.val_main_v20 Read.val_main_v31 Read.val_main_v30 Read.val_main_v23 Read.val_main_v33 Read.val_main_cst_1 Read.val_main_cst_2
  rw [ref_mlp_eq]
  unfold Read.val_main_v14 Read.val_main_v13 Read.val_main_v11 Read.val_main_v10 Read.val_main_cst
  rw [ref_agg]
  unfold Cert.KernelIdeal.HandV.layer1
  have hb1 : (fun i : (⟨2, ![1, 256]⟩ : Shape).Idx => Read.val_main_v19 (F := Ideal) x4 (ix1 (i 1))) = Cert.KernelIdeal.HandV.bR0 x4 := row_of_vec _ _
  have hb2 : (fun i : (⟨2, ![1, 256]⟩ : Shape).Idx => Read.val_main_v29 (F := Ideal) x6 (ix1 (i 1))) = Cert.KernelIdeal.HandV.bR0 x6 := row_of_vec _ _
  rw [hb1, hb2]
  rfl

/-- Layer 2: the reference's stages from the aggregation to the second rectifier are the model's layer 2. -/
theorem ref_layer2 (x0 : FVec Ideal S50000x256 .f32) (x1 : IVec S2x800000 32) (x3 : FVec Ideal S3x256x256 .f32) (x4 : FVec Ideal S3x256 .f32) (x5 : FVec Ideal S3x256x256 .f32) (x6 : FVec Ideal S3x256 .f32) :
    Read.val_main_v65 (F := Ideal) x0 x1 x3 x4 x5 x6 = Cert.KernelIdeal.HandV.layer2 x0 x1 x3 x4 x5 x6 := by
  unfold Read.val_main_v65 Read.val_main_v63 Read.val_main_v58 Read.val_main_v55 Read.val_main_v53 Read.val_main_v48 Read.val_main_v52 Read.val_main_v51 Read.val_main_v62 Read.val_main_v61 Read.val_main_v54 Read.val_main_v64 Read.val_main_cst_6 Read.val_main_cst_7
  rw [ref_mlp_eq]
  unfold Read.val_main_v45 Read.val_main_v44 Read.val_main_v42 Read.val_main_v41 Read.val_main_cst_5
  rw [ref_wrap2, ref_dst2, ref_layer1, ref_agg]
  unfold Cert.KernelIdeal.HandV.layer2
  have hb1 : (fun i : (⟨2, ![1, 256]⟩ : Shape).Idx => Read.val_main_v50 (F := Ideal) x4 (ix1 (i 1))) = Cert.KernelIdeal.HandV.bR1 x4 := row_of_vec _ _
  have hb2 : (fun i : (⟨2, ![1, 256]⟩ : Shape).Idx => Read.val_main_v60 (F := Ideal) x6 (ix1 (i 1))) = Cert.KernelIdeal.HandV.bR1 x6 := row_of_vec _ _
  rw [hb1, hb2]
  rfl

/-- Layer 3: the reference's stages from the aggregation to the second rectifier are the model's layer 3. -/
theorem ref_layer3 (x0 : FVec Ideal S50000x256 .f32) (x1 : IVec S2x800000 32) (x3 : FVec Ideal S3x256x256 .f32) (x4 : FVec Ideal S3x256 .f32) (x5 : FVec Ideal S3x256x256 .f32) (x6 : FVec Ideal S3x256 .f32) :
    Read.val_main_v96 (F := Ideal) x0 x1 x3 x4 x5 x6 = Cert.KernelIdeal.HandV.layer3 x0 x1 x3 x4 x5 x6 := by
  unfold Read.val_main_v96 Read.val_main_v94 Read.val_main_v89 Read.val_main_v86 Read.val_main_v84 Read.val_main_v79 Read.val_main_v83 Read.val_main_v82 Read.val_main_v93 Read.val_main_v92 Read.val_main_v85 Read.val_main_v95 Read.val_main_cst_11 Read.val_main_cst_12
  rw [ref_mlp_eq]
  unfold Read.val_main_v76 Read.val_main_v75 Read.val_main_v73 Read.val_main_v72 Read.val_main_cst_10
  rw [ref_wrap3, ref_dst3, ref_layer2, ref_agg]
  unfold Cert.KernelIdeal.HandV.layer3
  have hb1 : (fun i : (⟨2, ![1, 256]⟩ : Shape).Idx => Read.val_main_v81 (F := Ideal) x4 (ix1 (i 1))) = Cert.KernelIdeal.HandV.bR2 x4 := row_of_vec _ _
  have hb2 : (fun i : (⟨2, ![1, 256]⟩ : Shape).Idx => Read.val_main_v91 (F := Ideal) x6 (ix1 (i 1))) = Cert.KernelIdeal.HandV.bR2 x6 := row_of_vec _ _
  rw [hb1, hb2]
  rfl

/-! ## The node result -/

/-- The three layers' outputs side by side. -/
theorem ref_node (x0 : FVec Ideal S50000x256 .f32) (x1 : IVec S2x800000 32) (x3 : FVec Ideal S3x256x256 .f32) (x4 : FVec Ideal S3x256 .f32) (x5 : FVec Ideal S3x256x256 .f32) (x6 : FVec Ideal S3x256 .f32) :
    Read.val_main_v118 (F := Ideal) x0 x1 x3 x4 x5 x6 = Cert.KernelIdeal.HandV.nodeEmb x0 x1 x3 x4 x5 x6 := by
  unfold Read.val_main_v118 Cert.KernelIdeal.HandV.nodeEmb
  rw [ref_layer1, ref_layer2, ref_layer3]

/-! ## The graph result -/

/-- Each graph's rows of the node result summed, over the graph's node count: the reference pools
    each layer's output separately and joins the three quotients; that is the pooled sum of the
    joined table over the count. -/
theorem ref_graph (x0 : FVec Ideal S50000x256 .f32) (x1 : IVec S2x800000 32) (x2 : IVec S50000 32) (x3 : FVec Ideal S3x256x256 .f32) (x4 : FVec Ideal S3x256 .f32) (x5 : FVec Ideal S3x256x256 .f32) (x6 : FVec Ideal S3x256 .f32) :
    Read.val_main_v117 (F := Ideal) x0 x1 x2 x3 x4 x5 x6 = Cert.KernelIdeal.HandV.graphEmb x0 x1 x2 x3 x4 x5 x6 := by
  unfold Read.val_main_v117 Read.val_main_v106 Read.val_main_v111 Read.val_main_v116 Read.val_main_v104 Read.val_main_v109 Read.val_main_v114 Read.val_main_v105 Read.val_main_v110 Read.val_main_v115 Read.val_main_v102 Read.val_main_v107 Read.val_main_v112 Read.val_main_v103 Read.val_main_v108 Read.val_main_v113 Read.val_main_cst_16 Read.val_main_cst_17 Read.val_main_cst_18
  rw [ref_layer1, ref_layer2, ref_layer3]
  refine (graph_of_layers _ _ _ x2).trans ?_
  unfold Cert.KernelIdeal.HandV.graphEmb Cert.KernelIdeal.HandV.nodeEmb
  rfl

end Cert.ReferenceIdeal.RefValue

end
-- ==== Proof.lean ====
/-
  The certificate of the graph network's kernel against its reference: the three frames, the (empty) ledger of
  idealizations, and the equality of the two idealized programs' results over the extended reals.

  The kernel runs three fused perceptron layers and a pooling kernel between stretches of host operations; its run is
  assembled from one record per kernel region. At the ideal instance each perceptron region leaves the layer's
  specification of its operands in its output array, and the pooling region the per-graph sums of the node table; the
  host operations around them are the reference's own, but for the row gather, which under the precondition on the
  source indices is the reference's clamped gather. Both programs therefore end at the same two functions of the seven
  argument arrays.
-/
import proofs.«428382_j73890617360784_1_alg».proof.Defs
import proofs.«428382_j73890617360784_1_alg».proof.Proof.Gen.Kernel
import proofs.«428382_j73890617360784_1_alg».proof.Proof.Gen.KernelIdeal
import proofs.«428382_j73890617360784_1_alg».proof.Proof.Gen.ReferenceIdeal
import proofs.«428382_j73890617360784_1_alg».proof.Proof.Gen.Pre_finite_inputs
import proofs.«428382_j73890617360784_1_alg».proof.Proof.Gen.ReferenceIdeal.Run
import proofs.«428382_j73890617360784_1_alg».proof.Proof.Gen.ReferenceIdeal.Read
import proofs.«428382_j73890617360784_1_alg».proof.Proof.Run
import proofs.«428382_j73890617360784_1_alg».proof.Proof.BRun
import proofs.«428382_j73890617360784_1_alg».proof.Proof.KVal
import proofs.«428382_j73890617360784_1_alg».proof.Proof.RefSide
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs, faults nowhere and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end at the model's two results of the arguments. -/
theorem algebraic : Cert.algebraic_KernelIdeal_ReferenceIdeal := by
  intro m ρ m' ρ' hpre hagree
  refine ⟨fun c => Cert.KernelIdeal.HandV.graphEmb
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.KernelIdeal.HandV.nodeEmb
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the kernel: every unscoped buffer ends at the last boundary's contents
    refine (θ_run Cert.KernelIdeal.defs _ _).mono (fun r h c => ?_) (Cert.KernelIdeal.Hand.run_all (F := Ideal) m ρ)
    refine ⟨(h c _ (Cert.KernelIdeal.Hand.mem_uc Cert.KernelIdeal.main_v61 (by decide))).trans (Cert.KernelIdeal.HandV.kernel_graph m hpre c),
      (h c _ (Cert.KernelIdeal.Hand.mem_uc Cert.KernelIdeal.main_v52 (by decide))).trans (Cert.KernelIdeal.HandV.kernel_node m hpre c),
      (h c _ (Cert.KernelIdeal.Hand.mem_uc Cert.KernelIdeal.main_arg0 (by decide))).trans (Cert.KernelIdeal.Gen.V15_main_arg0 m _ c),
      (h c _ (Cert.KernelIdeal.Hand.mem_uc Cert.KernelIdeal.main_arg1 (by decide))).trans (Cert.KernelIdeal.Gen.V15_main_arg1 m _ c),
      (h c _ (Cert.KernelIdeal.Hand.mem_uc Cert.KernelIdeal.main_arg2 (by decide))).trans (Cert.KernelIdeal.Gen.V15_main_arg2 m _ c),
      (h c _ (Cert.KernelIdeal.Hand.mem_uc Cert.KernelIdeal.main_arg3 (by decide))).trans (Cert.KernelIdeal.Gen.V15_main_arg3 m _ c),
      (h c _ (Cert.KernelIdeal.Hand.mem_uc Cert.KernelIdeal.main_arg4 (by decide))).trans (Cert.KernelIdeal.Gen.V15_main_arg4 m _ c),
      (h c _ (Cert.KernelIdeal.Hand.mem_uc Cert.KernelIdeal.main_arg5 (by decide))).trans (Cert.KernelIdeal.Gen.V15_main_arg5 m _ c),
      (h c _ (Cert.KernelIdeal.Hand.mem_uc Cert.KernelIdeal.main_arg6 (by decide))).trans (Cert.KernelIdeal.Gen.V15_main_arg6 m _ c)⟩
  · -- the reference: its run's two terms are the model's, at arguments that agree with the kernel's
    refine (θ_run Cert.ReferenceIdeal.defs _ _).mono (fun r h c => ?_) (Cert.ReferenceIdeal.Value.run (F := Ideal) m' ρ')
    obtain ⟨h117, h118, hargs⟩ := h c
    obtain ⟨a0, a1, a2, a3, a4, a5, a6⟩ := hagree c
    refine ⟨?_, ?_, hargs⟩
    · rw [h117, Cert.ReferenceIdeal.Read.val_main_v117_eq, Cert.ReferenceIdeal.RefValue.ref_graph, a0, a1, a2, a3, a4, a5, a6]
    · rw [h118, Cert.ReferenceIdeal.Read.val_main_v118_eq, Cert.ReferenceIdeal.RefValue.ref_node, a0, a1, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
